-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x256 .f32) (main_arg7 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_v33

def fn {F : FTy → Type} [FloatOps F] (main_arg0 : FVec F S4096x512 .f32) (main_arg1 : FVec F S4096x4096 .f32) (main_arg2 : FVec F S512x512 .f32) (main_arg3 : FVec F S512 .f32) (main_arg4 : FVec F S512x512 .f32) (main_arg5 : FVec F S512 .f32) (main_arg6 : FVec F S512x256 .f32) (main_arg7 : FVec F S256 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S4096x512 : Shape := ⟨2, ![4096, 512]⟩
abbrev S4096x4096 : Shape := ⟨2, ![4096, 4096]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x512 : Shape := ⟨2, ![1, 512]⟩
abbrev S1x256 : Shape := ⟨2, ![1, 256]⟩
abbrev S4096x256 : Shape := ⟨2, ![4096, 256]⟩
abbrev S256x512 : Shape := ⟨2, ![256, 512]⟩
abbrev S256x4096 : Shape := ⟨2, ![256, 4096]⟩
abbrev S256x256 : Shape := ⟨2, ![256, 256]⟩

abbrev nBuf : Space → Nat
  | .hbm => 15
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S512x512, .bf16⟩
  | .hbm, ⟨9, _⟩ => ⟨S1x512, .f32⟩
  | .hbm, ⟨10, _⟩ => ⟨S512x512, .bf16⟩
  | .hbm, ⟨11, _⟩ => ⟨S1x512, .f32⟩
  | .hbm, ⟨12, _⟩ => ⟨S512x256, .bf16⟩
  | .hbm, ⟨13, _⟩ => ⟨S1x256, .f32⟩
  | .hbm, ⟨14, _⟩ => ⟨S4096x256, .f32⟩
  | .local _ .vmem, ⟨0, _⟩ => ⟨S256x512, .f32⟩
  | .local _ .vmem, ⟨1, _⟩ => ⟨S256x512, .f32⟩
  | .local _ .vmem, ⟨2, _⟩ => ⟨S256x4096, .f32⟩
  | .local _ .vmem, ⟨3, _⟩ => ⟨S256x4096, .f32⟩
  | .local _ .vmem, ⟨4, _⟩ => ⟨S512x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x256, .bf16⟩
  | .local _ .vmem, ⟨9, _⟩ => ⟨S1x256, .f32⟩
  | .local _ .vmem, ⟨10, _⟩ => ⟨S256x256, .f32⟩
  | .local _ .vmem, ⟨11, _⟩ => ⟨S256x256, .f32⟩
  | .local _ .vmem, ⟨12, _⟩ => ⟨S4096x512, .bf16⟩
  | .local _ .vmem, ⟨13, _⟩ => ⟨S4096x4096, .bf16⟩
  | .local _ .vmem, ⟨14, _⟩ => ⟨S4096x512, .bf16⟩
  | .local _ .vmem, ⟨15, _⟩ => ⟨S4096x256, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 2 → Nat :=
  let arg1 : BitVec 32 := BitVec.ofNat 32 (i 1).val
  let c256_i32 : BitVec 32 := 256#32
  let v0 : BitVec 32 := Scalar.muli arg1 c256_i32
  let v19 : Index := Scalar.indexCast v0
  let c0_7 : Index := 0#32
  ![v19.toNat, 0]
def k0_cond2 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k0_off2 (i : grid0.Coords) : Fin 2 → Nat :=
  let arg1 : BitVec 32 := BitVec.ofNat 32 (i 1).val
  let c256_i32 : BitVec 32 := 256#32
  let v0 : BitVec 32 := Scalar.muli arg1 c256_i32
  let v15 : Index := Scalar.indexCast v0
  let c0_5 : Index := 0#32
  ![v15.toNat, 0]
def k0_off3 (i : grid0.Coords) : Fin 2 → Nat :=
  let arg1 : BitVec 32 := BitVec.ofNat 32 (i 1).val
  let c256_i32 : BitVec 32 := 256#32
  let v0 : BitVec 32 := Scalar.muli arg1 c256_i32
  let v32 : Index := Scalar.indexCast v0
  let c0_14 : Index := 0#32
  ![v32.toNat, 0]
def k0_cond3 (i : grid0.Coords) : BitVec 1 :=
  let arg0 : BitVec 32 := BitVec.ofNat 32 (i 0).val
  let c2_i32 : BitVec 32 := 2#32
  let v7 : BitVec 1 := Scalar.cmpi .eq arg0 c2_i32
  let v8 : BitVec 32 := Scalar.extui v7
  let c0_i32_2 : BitVec 32 := 0#32
  let v9 : BitVec 1 := Scalar.cmpi .ne v8 c0_i32_2
  v9

def k0_off4 (i : grid0.Coords) : Fin 2 → Nat :=
  let arg1 : BitVec 32 := BitVec.ofNat 32 (i 1).val
  let c256_i32 : BitVec 32 := 256#32
  let v0 : BitVec 32 := Scalar.muli arg1 c256_i32
  let v13 : Index := Scalar.indexCast v0
  let c0 : Index := 0#32
  ![v13.toNat, 0]
def k0_off5 (i : grid0.Coords) : Fin 2 → Nat :=
  let arg1 : BitVec 32 := BitVec.ofNat 32 (i 1).val
  let c256_i32 : BitVec 32 := 256#32
  let v0 : BitVec 32 := Scalar.muli arg1 c256_i32
  let v28 : Index := Scalar.indexCast v0
  let c0_12 : Index := 0#32
  ![v28.toNat, 0]
def k0_cond4 (i : grid0.Coords) : BitVec 1 :=
  let arg0 : BitVec 32 := BitVec.ofNat 32 (i 0).val
  let c3_i32 : BitVec 32 := 3#32
  let v10 : BitVec 1 := Scalar.cmpi .eq arg0 c3_i32
  let v11 : BitVec 32 := Scalar.extui v10
  let c0_i32_3 : BitVec 32 := 0#32
  let v12 : BitVec 1 := Scalar.cmpi .ne v11 c0_i32_3
  v12

def k0_off6 (i : grid0.Coords) : Fin 2 → Nat :=
  let arg1 : BitVec 32 := BitVec.ofNat 32 (i 1).val
  let c256_i32 : BitVec 32 := 256#32
  let v0 : BitVec 32 := Scalar.muli arg1 c256_i32
  let v13 : Index := Scalar.indexCast v0
  let c0 : Index := 0#32
  ![v13.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  shapeCasts_S512_S1x512 : S512.ShapeCasts S1x512
  shapeCasts_S256_S1x256 : S256.ShapeCasts S1x256
  inb_S256x512_S256x512_0_0 : ∀ a, (![0, 0] : Fin 2 → Nat) a + S256x512.size a ≤ S256x512.size a
  h_S256x512 : 0 < S256x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S256x512_S256x512 : S256x512.ShapeCasts S256x512
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x512_S4096x512_0_0 : ∀ a, (![0, 0] : Fin 2 → Nat) a + S4096x512.size a ≤ S4096x512.size a
  h_S4096x512 : 0 < S4096x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  h_S256x256 : 0 < S256x256.numel
  shapeCasts_S256x256_S256x256 : S256x256.ShapeCasts S256x256
  inb_S4096x256_S4096x256_0_0 : ∀ a, (![0, 0] : Fin 2 → Nat) a + S4096x256.size a ≤ S4096x256.size a
  h_S4096x256 : 0 < S4096x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  dot_S256x512_S512x512_S256x512_1_0_0_1_n_n_wf : DotDims.WF S256x512 S512x512 S256x512 [1] [0] [0] [1] [] []
  dot_S256x4096_S4096x512_S256x512_1_0_0_1_n_n_wf : DotDims.WF S256x4096 S4096x512 S256x512 [1] [0] [0] [1] [] []
  dot_S256x512_S512x256_S256x256_1_0_0_1_n_n_wf : DotDims.WF S256x512 S512x256 S256x256 [1] [0] [0] [1] [] []
  dot_S256x4096_S4096x256_S256x256_1_0_0_1_n_n_wf : DotDims.WF S256x4096 S4096x256 S256x256 [1] [0] [0] [1] [] []
  hrank0 : 0 < grid0.rank
  k0_off1_inb : ∀ i : grid0.Coords, ∀ (k0_h1 : k0_cond1 i = 1#1), ∀ a, (k0_off1 i) a + S256x512.size a ≤ S4096x512.size a
  k0_off1_packedbf16 : ∀ i : grid0.Coords, ∀ (k0_h1 : k0_cond1 i = 1#1), (Rect.unit (s := S4096x512) (k0_off1 i) S256x512.size (k0_off1_inb i k0_h1)).PackedRows (EltTy.packing .bf16)
  k0_off2_inb : ∀ i : grid0.Coords, ∀ (k0_h2 : k0_cond2 i = 1#1), ∀ a, (k0_off2 i) a + S256x4096.size a ≤ S4096x4096.size a
  k0_off2_packedbf16 : ∀ i : grid0.Coords, ∀ (k0_h2 : k0_cond2 i = 1#1), (Rect.unit (s := S4096x4096) (k0_off2 i) S256x4096.size (k0_off2_inb i k0_h2)).PackedRows (EltTy.packing .bf16)
  k0_off3_inb : ∀ i : grid0.Coords, ∀ (k0_h2 : k0_cond2 i = 1#1), ∀ a, (k0_off3 i) a + S256x512.size a ≤ S4096x512.size a
  k0_off3_packedbf16 : ∀ i : grid0.Coords, ∀ (k0_h2 : k0_cond2 i = 1#1), (Rect.unit (s := S4096x512) (k0_off3 i) S256x512.size (k0_off3_inb i k0_h2)).PackedRows (EltTy.packing .bf16)
  k0_off4_inb : ∀ i : grid0.Coords, ∀ (k0_h3 : k0_cond3 i = 1#1), ∀ a, (k0_off4 i) a + S256x4096.size a ≤ S4096x4096.size a
  k0_off5_inb : ∀ i : grid0.Coords, ∀ (k0_h3 : k0_cond3 i = 1#1), ∀ a, (k0_off5 i) a + S256x256.size a ≤ S4096x256.size a
  k0_off5_packedbf16 : ∀ i : grid0.Coords, ∀ (k0_h3 : k0_cond3 i = 1#1), (Rect.unit (s := S4096x256) (k0_off5 i) S256x256.size (k0_off5_inb i k0_h3)).PackedRows (EltTy.packing .bf16)
  k0_off6_inb : ∀ i : grid0.Coords, ∀ (k0_h4 : k0_cond4 i = 1#1), ∀ a, (k0_off6 i) a + S256x4096.size a ≤ S4096x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x512.size a
  hwx0_0 : ∀ i : grid0.Coords, EltTy.bits .f32 = 32 ∨ (Rect.block (s := S4096x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .bf16 = 32 ∨ (Rect.block (s := S512x256) S512x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S4096x256.size a
  hwx0_8 : ∀ i : grid0.Coords, EltTy.bits .f32 = 32 ∨ (Rect.block (s := S4096x256) S256x256.size (cc0_transform_8 i) (hinb0_8 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v4) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v5) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S256x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond4 i == 1#1) | ⟨_ + 9, h⟩ => absurd h (Nat.not_lt.2 (Nat.le_add_left _ _))

class Facts : Prop extends Facts₀ where

variable [Facts]
-- ==== ReferenceIdeal.lean ====
abbrev S4096x512 : Shape := ⟨2, ![4096, 512]⟩
abbrev S4096x4096 : Shape := ⟨2, ![4096, 4096]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x512 : Shape := ⟨2, ![1, 512]⟩
abbrev S_ : Shape := ⟨0, ![]⟩
abbrev S4096x256 : Shape := ⟨2, ![4096, 256]⟩
abbrev S1x256 : Shape := ⟨2, ![1, 256]⟩

abbrev nBuf : Space → Nat
  | .hbm => 32
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S4096x512, .f32⟩
  | .hbm, ⟨9, _⟩ => ⟨S4096x512, .f32⟩
  | .hbm, ⟨10, _⟩ => ⟨S1x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S1x512, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S4096x256, .f32⟩
  | .hbm, ⟨25, _⟩ => ⟨S4096x256, .f32⟩
  | .hbm, ⟨26, _⟩ => ⟨S1x256, .f32⟩
  | .hbm, ⟨27, _⟩ => ⟨S4096x256, .f32⟩
  | .hbm, ⟨28, _⟩ => ⟨S4096x256, .f32⟩
  | .hbm, ⟨29, _⟩ => ⟨S_, .f32⟩
  | .hbm, ⟨30, _⟩ => ⟨S4096x256, .f32⟩
  | .hbm, ⟨31, _⟩ => ⟨S4096x256, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_v17 : Ref sig .tc := ⟨.hbm, 31, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  dot_S4096x512_S512x512_S4096x512_1_0_0_1_n_n_wf : DotDims.WF S4096x512 S512x512 S4096x512 [1] [0] [0] [1] [] []
  dot_S4096x4096_S4096x512_S4096x512_1_0_0_1_n_n_wf : DotDims.WF S4096x4096 S4096x512 S4096x512 [1] [0] [0] [1] [] []
  dot_S4096x512_S512x256_S4096x256_1_0_0_1_n_n_wf : DotDims.WF S4096x512 S512x256 S4096x256 [1] [0] [0] [1] [] []
  dot_S4096x4096_S4096x256_S4096x256_1_0_0_1_n_n_wf : DotDims.WF S4096x4096 S4096x256 S4096x256 [1] [0] [0] [1] [] []

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.Rows.lean ====
/-
  Bands of 256 rows of a [4096, C] array: the band numbered b is the rows [256 b, 256 b + 256). Reading a band out of an
  array, and overwriting a band of an array with a [256, C] block, as plain functions of the array's index.
-/
import Idealize.ShloMosaic.Lib.ValueIdx

namespace Cert.Rows

open Idealize.ShloMosaic Idealize.ShloMosaic.ValueIdx

variable {α : Type} {C : ℕ}

/-- Band b of an array: the block whose row x is the array's row 256 b + x. -/
def getRows (s : (⟨2, ![4096, C]⟩ : Shape).Idx → α) (b : ℕ) (hb : b < 16) : (⟨2, ![256, C]⟩ : Shape).Idx → α :=
  fun x => s (ix2 (⟨256 * b + (x 0).val, by have := idx2_lt0 x; omega⟩ : Fin 4096) (⟨(x 1).val, idx2_lt1 x⟩ : Fin C))

/-- The array with band b overwritten by a block: row y inside the band reads the block's row y − 256 b, any other row
    reads the array. -/
def setRows (s : (⟨2, ![4096, C]⟩ : Shape).Idx → α) (b : ℕ) (blk : (⟨2, ![256, C]⟩ : Shape).Idx → α) :
    (⟨2, ![4096, C]⟩ : Shape).Idx → α :=
  fun y => if h : 256 * b ≤ (y 0).val ∧ (y 0).val < 256 * b + 256 then
      blk (ix2 (⟨(y 0).val - 256 * b, by omega⟩ : Fin 256) (⟨(y 1).val, idx2_lt1 y⟩ : Fin C))
    else s y

theorem setRows_of_mem (s : (⟨2, ![4096, C]⟩ : Shape).Idx → α) (b : ℕ) (blk : (⟨2, ![256, C]⟩ : Shape).Idx → α)
    (y : (⟨2, ![4096, C]⟩ : Shape).Idx) (h : 256 * b ≤ (y 0).val ∧ (y 0).val < 256 * b + 256) :
    setRows s b blk y = blk (ix2 (⟨(y 0).val - 256 * b, by omega⟩ : Fin 256) (⟨(y 1).val, idx2_lt1 y⟩ : Fin C)) :=
  dif_pos h

theorem setRows_of_not_mem (s : (⟨2, ![4096, C]⟩ : Shape).Idx → α) (b : ℕ) (blk : (⟨2, ![256, C]⟩ : Shape).Idx → α)
    (y : (⟨2, ![4096, C]⟩ : Shape).Idx) (h : ¬(256 * b ≤ (y 0).val ∧ (y 0).val < 256 * b + 256)) :
    setRows s b blk y = s y :=
  dif_neg h

end Cert.Rows
-- ==== Proof.Kernel.Conds.lean ====
/-
  The grid has 64 points, numbered  t = 16 p + i  for phase p (0 to 3) and row band i (0 to 15). Decided over those
  64 points: which of the body's four branches a point takes (phase p takes the branch numbered p + 1 and no other),
  where each store and each band load sits (rows from 256 i, every column), and where the result window is idle
  (everywhere outside phase 3) and written back (exactly in phase 3).
-/
import proofs.«168441_g12154757448435_cont_fleet_1044_12_alg».proof.Proof.Gen.Kernel.Frame

set_option maxRecDepth 16384

namespace Cert.Kernel.Body

open Idealize.ShloMosaic Cert.Kernel Cert.Kernel.Gen

theorem hcond1 : ∀ t : Fin cfg0.N, k0_cond1 (grid0.coords t) = 1#1 ↔ t.val < 16 :=
  (by decide +kernel : ∀ t : Fin grid0.N, k0_cond1 (grid0.coords t) = 1#1 ↔ t.val < 16)
theorem hcond2 : ∀ t : Fin cfg0.N, k0_cond2 (grid0.coords t) = 1#1 ↔ (16 ≤ t.val ∧ t.val < 32) :=
  (by decide +kernel : ∀ t : Fin grid0.N, k0_cond2 (grid0.coords t) = 1#1 ↔ (16 ≤ t.val ∧ t.val < 32))
theorem hcond3 : ∀ t : Fin cfg0.N, k0_cond3 (grid0.coords t) = 1#1 ↔ (32 ≤ t.val ∧ t.val < 48) :=
  (by decide +kernel : ∀ t : Fin grid0.N, k0_cond3 (grid0.coords t) = 1#1 ↔ (32 ≤ t.val ∧ t.val < 48))
theorem hcond4 : ∀ t : Fin cfg0.N, k0_cond4 (grid0.coords t) = 1#1 ↔ 48 ≤ t.val :=
  (by decide +kernel : ∀ t : Fin grid0.N, k0_cond4 (grid0.coords t) = 1#1 ↔ 48 ≤ t.val)

theorem off1_eq : ∀ t : Fin cfg0.N, k0_off1 (grid0.coords t) = ![256 * (t.val % 16), 0] :=
  (by decide +kernel : ∀ t : Fin grid0.N, k0_off1 (grid0.coords t) = ![256 * (t.val % 16), 0])
theorem off2_eq : ∀ t : Fin cfg0.N, k0_off2 (grid0.coords t) = ![256 * (t.val % 16), 0] :=
  (by decide +kernel : ∀ t : Fin grid0.N, k0_off2 (grid0.coords t) = ![256 * (t.val % 16), 0])
theorem off3_eq : ∀ t : Fin cfg0.N, k0_off3 (grid0.coords t) = ![256 * (t.val % 16), 0] :=
  (by decide +kernel : ∀ t : Fin grid0.N, k0_off3 (grid0.coords t) = ![256 * (t.val % 16), 0])
theorem off4_eq : ∀ t : Fin cfg0.N, k0_off4 (grid0.coords t) = ![256 * (t.val % 16), 0] :=
  (by decide +kernel : ∀ t : Fin grid0.N, k0_off4 (grid0.coords t) = ![256 * (t.val % 16), 0])
theorem off5_eq : ∀ t : Fin cfg0.N, k0_off5 (grid0.coords t) = ![256 * (t.val % 16), 0] :=
  (by decide +kernel : ∀ t : Fin grid0.N, k0_off5 (grid0.coords t) = ![256 * (t.val % 16), 0])
theorem off6_eq : ∀ t : Fin cfg0.N, k0_off6 (grid0.coords t) = ![256 * (t.val % 16), 0] :=
  (by decide +kernel : ∀ t : Fin grid0.N, k0_off6 (grid0.coords t) = ![256 * (t.val % 16), 0])

/-- The argument windows are never idle. -/
theorem live_in : ∀ (w : Fin 8) (t : Fin cfg0.N), cfg0.idle (w.castSucc) (grid0.coords t) = false := by decide +kernel
/-- Outside phase 3 the result window is idle and is not written back. -/
theorem idle8 : ∀ t : Fin cfg0.N, t.val < 48 → cfg0.idle 8 (grid0.coords t) = true := by decide +kernel
theorem noflush8 : ∀ t : Fin cfg0.N, t.val < 48 → (cfg0.win 8).flush t = false := by decide +kernel
/-- In phase 3 it is live, and written back at every point. -/
theorem live8 : ∀ t : Fin cfg0.N, 48 ≤ t.val → cfg0.idle 8 (grid0.coords t) = false := by decide +kernel
theorem flush8 : ∀ t : Fin cfg0.N, (cfg0.win 8).flush t = true ↔ 48 ≤ t.val := by decide +kernel

/-- The row-block index of each moving window at a point: the band in the window's own phase, block 0 elsewhere. -/
theorem index0 : ∀ t : Fin cfg0.N, win0_0.index t = ![if t.val < 16 then t.val else 0, 0] := by decide +kernel
theorem index1 : ∀ t : Fin cfg0.N, win0_1.index t = ![if 16 ≤ t.val ∧ t.val < 32 then t.val - 16 else 0, 0] := by decide +kernel
theorem index8 : ∀ t : Fin cfg0.N, win0_8.index t = ![if 48 ≤ t.val then t.val - 48 else 0, 0] := by decide +kernel

end Cert.Kernel.Body
-- ==== Proof.Kernel.State.lean ====
/-
  What the four scratch arrays hold between grid points, as functions of the argument arrays alone.

  The grid's point t = 16 p + i runs phase p on row band i. Phase 0 fills band i of the first scratch with the product of
  band i of x with the first weights; phase 1 keeps band i of the adjacency matrix in the second scratch and fills band i
  of the third with  max(adj_i · S1 + b1, 0) · W2 , S1 the whole first scratch; phase 2 fills band i of the fourth with
  max(adj_i · S2 + b2, 0) · W3 ; phase 3 writes  max(adj_i · S3 + b3, 0)  to the result block. The arrays `S1`, `A`, `S2`,
  `S3` below are those contents as whole arrays, each band the payload of the point that writes it, over the blocks the
  pipeline hands that point; `Inv n` says that after n points the bands written so far hold them (the other rows hold
  anything); each phase's step keeps it.
-/
import proofs.«168441_g12154757448435_cont_fleet_1044_12_alg».proof.Proof.Gen.Kernel.Frame
import proofs.«168441_g12154757448435_cont_fleet_1044_12_alg».proof.Proof.Gen.Kernel.Skeleton
import proofs.«168441_g12154757448435_cont_fleet_1044_12_alg».proof.Proof.Rows
import proofs.«168441_g12154757448435_cont_fleet_1044_12_alg».proof.Proof.Kernel.Conds

set_option maxRecDepth 16384
set_option pp.maxSteps 8000
set_option pp.deepTerms false

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Kernel Cert.Kernel.Gen Cert.Rows
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The grid point numbered n. -/
def pt (n : ℕ) (h : n < 64) : Fin cfg0.N := ⟨n, lt_of_lt_of_eq h (show (64 : ℕ) = cfg0.N from N_0.symm)⟩

@[simp] theorem pt_val (n : ℕ) (h : n < 64) : (pt n h).val = n := rfl

/-- The blocks the pipeline hands the body at point t, window by window, at their literal shapes. -/
abbrev xB (c : Dev nD) (t : Fin cfg0.N) : Vec F S256x512 .f32 := iblk m c 0 t
abbrev aB (c : Dev nD) (t : Fin cfg0.N) : Vec F S256x4096 .f32 := iblk m c 1 t
abbrev w1B (c : Dev nD) (t : Fin cfg0.N) : Vec F S512x512 .bf16 := iblk m c 2 t
abbrev b1B (c : Dev nD) (t : Fin cfg0.N) : Vec F S1x512 .f32 := iblk m c 3 t
abbrev w2B (c : Dev nD) (t : Fin cfg0.N) : Vec F S512x512 .bf16 := iblk m c 4 t
abbrev b2B (c : Dev nD) (t : Fin cfg0.N) : Vec F S1x512 .f32 := iblk m c 5 t
abbrev w3B (c : Dev nD) (t : Fin cfg0.N) : Vec F S512x256 .bf16 := iblk m c 6 t
abbrev b3B (c : Dev nD) (t : Fin cfg0.N) : Vec F S1x256 .f32 := iblk m c 7 t

/-- The position of a row of a [4096, C] array inside its band. -/
def inBand {C : ℕ} (y : (⟨2, ![4096, C]⟩ : Shape).Idx) : (⟨2, ![256, C]⟩ : Shape).Idx :=
  ix2 (⟨(y 0).val % 256, Nat.mod_lt _ (by norm_num)⟩ : Fin 256) (⟨(y 1).val, idx2_lt1 y⟩ : Fin C)

theorem band_lt {C : ℕ} (y : (⟨2, ![4096, C]⟩ : Shape).Idx) : (y 0).val / 256 < 16 := by
  have := idx2_lt0 y; omega

/-- The first scratch when phase 0 is over: band i is the payload of point i. -/
def S1 (c : Dev nD) : Vec F S4096x512 .bf16 := fun y =>
  k0_pay1 (xB m c (pt ((y 0).val / 256) (by have := band_lt y; omega)))
    (w1B m c (pt ((y 0).val / 256) (by have := band_lt y; omega))) (inBand y)

/-- The second scratch when phase 1 is over: band i is the adjacency block of point 16 + i, narrowed. -/
def A (c : Dev nD) : Vec F S4096x4096 .bf16 := fun y =>
  k0_pay3 (aB m c (pt (16 + (y 0).val / 256) (by have := band_lt y; omega))) (inBand y)

/-- The third scratch when phase 1 is over: band i is the payload of point 16 + i over the whole first scratch. -/
def S2 (c : Dev nD) : Vec F S4096x512 .bf16 := fun y =>
  k0_pay4 (aB m c (pt (16 + (y 0).val / 256) (by have := band_lt y; omega))) (S1 m c)
    (b1B m c (pt (16 + (y 0).val / 256) (by have := band_lt y; omega)))
    (w2B m c (pt (16 + (y 0).val / 256) (by have := band_lt y; omega))) (inBand y)

/-- The fourth scratch when phase 2 is over: band i is the payload of point 32 + i over band i of the kept adjacency
    matrix and the whole third scratch. -/
def S3 (c : Dev nD) : Vec F S4096x256 .bf16 := fun y =>
  k0_pay5 (getRows (A m c) ((y 0).val / 256) (band_lt y)) (S2 m c)
    (b2B m c (pt (32 + (y 0).val / 256) (by have := band_lt y; omega)))
    (w3B m c (pt (32 + (y 0).val / 256) (by have := band_lt y; omega))) (inBand y)

/-- What a point of phase 3 stores into the result block: the last layer over band (t mod 16) of the kept adjacency
    matrix and the whole fourth scratch. (Stated at every point; only phase 3 writes it back.) -/
def OutB (c : Dev nD) (t : Fin cfg0.N) : Vec F S256x256 .f32 :=
  k0_pay6 (getRows (A m c) (t.val % 16) (Nat.mod_lt _ (by norm_num))) (S3 m c) (b3B m c t)

/-- After n points: the bands written so far hold the arrays above. -/
def Inv (c : Dev nD) (n : ℕ) (s1 : Vec F S4096x512 .bf16) (a : Vec F S4096x4096 .bf16) (s2 : Vec F S4096x512 .bf16)
    (s3 : Vec F S4096x256 .bf16) : Prop :=
  (∀ y : S4096x512.Idx, (y 0).val < 256 * min n 16 → s1 y = S1 m c y)
  ∧ (∀ y : S4096x4096.Idx, (y 0).val < 256 * (min n 32 - 16) → a y = A m c y)
  ∧ (∀ y : S4096x512.Idx, (y 0).val < 256 * (min n 32 - 16) → s2 y = S2 m c y)
  ∧ (∀ y : S4096x256.Idx, (y 0).val < 256 * (min n 48 - 32) → s3 y = S3 m c y)

/-- Inside band b the row's offset from the band's first row is its row number mod 256. -/
private theorem band_ix {C : ℕ} (y : (⟨2, ![4096, C]⟩ : Shape).Idx) (b : ℕ)
    (h : 256 * b ≤ (y 0).val ∧ (y 0).val < 256 * b + 256) :
    ix2 (⟨(y 0).val - 256 * b, by omega⟩ : Fin 256) (⟨(y 1).val, idx2_lt1 y⟩ : Fin C) = inBand y := by
  unfold inBand
  congr 1
  exact Fin.ext (by show (y 0).val - 256 * b = (y 0).val % 256; omega)

/-- Reading a band depends on the band's number only. -/
private theorem getRows_congr {α : Type} {C : ℕ} (s : (⟨2, ![4096, C]⟩ : Shape).Idx → α) (b b' : ℕ) (hb : b < 16)
    (hb' : b' < 16) (e : b = b') : getRows s b hb = getRows s b' hb' := by
  subst e; rfl

private theorem t_lt (t : Fin cfg0.N) : t.val < 64 := lt_of_lt_of_eq t.isLt N_0

/-- A row of band i of `S1` is the payload of point i at the row's position in the band. -/
private theorem S1_band (c : Dev nD) (t : Fin cfg0.N) (y : S4096x512.Idx) (hq : (y 0).val / 256 = t.val) :
    S1 m c y = k0_pay1 (xB m c t) (w1B m c t) (inBand y) := by
  have e : pt ((y 0).val / 256) (by have := band_lt y; omega) = t := Fin.ext (by simp only [pt_val]; omega)
  show k0_pay1 (xB m c (pt ((y 0).val / 256) _)) (w1B m c (pt ((y 0).val / 256) _)) (inBand y) = _
  rw [e]

/-- A row of band i of `A` is the narrowed adjacency block of point 16 + i at the row's position in the band. -/
private theorem A_band (c : Dev nD) (t : Fin cfg0.N) (y : S4096x4096.Idx) (hq : 16 + (y 0).val / 256 = t.val) :
    A m c y = k0_pay3 (aB m c t) (inBand y) := by
  have e : pt (16 + (y 0).val / 256) (by have := band_lt y; omega) = t := Fin.ext (by simp only [pt_val]; omega)
  show k0_pay3 (aB m c (pt (16 + (y 0).val / 256) _)) (inBand y) = _
  rw [e]

/-- A row of band i of `S2` is the payload of point 16 + i over the whole of `S1`. -/
private theorem S2_band (c : Dev nD) (t : Fin cfg0.N) (y : S4096x512.Idx) (hq : 16 + (y 0).val / 256 = t.val) :
    S2 m c y = k0_pay4 (aB m c t) (S1 m c) (b1B m c t) (w2B m c t) (inBand y) := by
  have e : pt (16 + (y 0).val / 256) (by have := band_lt y; omega) = t := Fin.ext (by simp only [pt_val]; omega)
  show k0_pay4 (aB m c (pt (16 + (y 0).val / 256) _)) (S1 m c) (b1B m c (pt (16 + (y 0).val / 256) _))
    (w2B m c (pt (16 + (y 0).val / 256) _)) (inBand y) = _
  rw [e]

/-- A row of band i of `S3` is the payload of point 32 + i over band i of `A` and the whole of `S2`. -/
private theorem S3_band (c : Dev nD) (t : Fin cfg0.N) (y : S4096x256.Idx) (hq : 32 + (y 0).val / 256 = t.val) :
    S3 m c y = k0_pay5 (getRows (A m c) (t.val % 16) (Nat.mod_lt _ (by norm_num))) (S2 m c) (b2B m c t) (w3B m c t)
      (inBand y) := by
  have e : pt (32 + (y 0).val / 256) (by have := band_lt y; omega) = t := Fin.ext (by simp only [pt_val]; omega)
  have eb : getRows (A m c) ((y 0).val / 256) (band_lt y) = getRows (A m c) (t.val % 16) (Nat.mod_lt _ (by norm_num)) :=
    getRows_congr _ _ _ _ _ (by have := idx2_lt0 y; omega)
  show k0_pay5 (getRows (A m c) ((y 0).val / 256) (band_lt y)) (S2 m c) (b2B m c (pt (32 + (y 0).val / 256) _))
    (w3B m c (pt (32 + (y 0).val / 256) _)) (inBand y) = _
  rw [e, eb]

/-- Before the first point nothing is claimed. -/
theorem inv_zero (c : Dev nD) (s1 : Vec F S4096x512 .bf16) (a : Vec F S4096x4096 .bf16) (s2 : Vec F S4096x512 .bf16)
    (s3 : Vec F S4096x256 .bf16) : Inv m c 0 s1 a s2 s3 := by
  refine ⟨fun y hy => ?_, fun y hy => ?_, fun y hy => ?_, fun y hy => ?_⟩ <;> exact absurd hy (by omega)

/-- A point of phase 0 fills its band of the first scratch. -/
theorem inv_step0 (c : Dev nD) (t : Fin cfg0.N) (ht : t.val < 16) (s1 : Vec F S4096x512 .bf16) (a : Vec F S4096x4096 .bf16)
    (s2 : Vec F S4096x512 .bf16) (s3 : Vec F S4096x256 .bf16) (h : Inv m c t.val s1 a s2 s3) :
    Inv m c (t.val + 1) (setRows s1 (t.val % 16) (k0_pay1 (xB m c t) (w1B m c t))) a s2 s3 := by
  obtain ⟨h1, h2, h3, h4⟩ := h
  refine ⟨fun y hy => ?_, fun y hy => h2 y (by omega), fun y hy => h3 y (by omega), fun y hy => h4 y (by omega)⟩
  -- rows below 256 t keep their old contents; rows of band t read the stored payload
  by_cases hm : 256 * (t.val % 16) ≤ (y 0).val ∧ (y 0).val < 256 * (t.val % 16) + 256
  · rw [setRows_of_mem _ _ _ y hm, band_ix y _ hm]
    exact (S1_band m c t y (by omega)).symm
  · rw [setRows_of_not_mem _ _ _ y hm]
    exact h1 y (by omega)

/-- A point of phase 1 fills its bands of the second and third scratch, from the whole first. -/
theorem inv_step1 (c : Dev nD) (t : Fin cfg0.N) (ht : 16 ≤ t.val ∧ t.val < 32) (s1 : Vec F S4096x512 .bf16)
    (a : Vec F S4096x4096 .bf16) (s2 : Vec F S4096x512 .bf16) (s3 : Vec F S4096x256 .bf16) (h : Inv m c t.val s1 a s2 s3) :
    Inv m c (t.val + 1) s1 (setRows a (t.val % 16) (k0_pay3 (aB m c t)))
      (setRows s2 (t.val % 16) (k0_pay4 (aB m c t) s1 (b1B m c t) (w2B m c t))) s3 := by
  obtain ⟨h1, h2, h3, h4⟩ := h
  -- phase 0 is over: the first scratch holds `S1` on every row
  have hs1 : s1 = S1 m c := funext fun y => h1 y (by have := idx2_lt0 y; omega)
  refine ⟨fun y hy => h1 y (by omega), fun y hy => ?_, fun y hy => ?_, fun y hy => h4 y (by omega)⟩
  · by_cases hm : 256 * (t.val % 16) ≤ (y 0).val ∧ (y 0).val < 256 * (t.val % 16) + 256
    · rw [setRows_of_mem _ _ _ y hm, band_ix y _ hm]
      exact (A_band m c t y (by omega)).symm
    · rw [setRows_of_not_mem _ _ _ y hm]
      exact h2 y (by omega)
  · by_cases hm : 256 * (t.val % 16) ≤ (y 0).val ∧ (y 0).val < 256 * (t.val % 16) + 256
    · rw [setRows_of_mem _ _ _ y hm, band_ix y _ hm, hs1]
      exact (S2_band m c t y (by omega)).symm
    · rw [setRows_of_not_mem _ _ _ y hm]
      exact h3 y (by omega)

/-- A point of phase 2 fills its band of the fourth scratch, from its band of the second and the whole third. -/
theorem inv_step2 (c : Dev nD) (t : Fin cfg0.N) (ht : 32 ≤ t.val ∧ t.val < 48) (s1 : Vec F S4096x512 .bf16)
    (a : Vec F S4096x4096 .bf16) (s2 : Vec F S4096x512 .bf16) (s3 : Vec F S4096x256 .bf16) (h : Inv m c t.val s1 a s2 s3) :
    Inv m c (t.val + 1) s1 a s2
      (setRows s3 (t.val % 16) (k0_pay5 (getRows a (t.val % 16) (Nat.mod_lt _ (by norm_num))) s2 (b2B m c t) (w3B m c t))) := by
  obtain ⟨h1, h2, h3, h4⟩ := h
  -- phase 1 is over: the second and third scratch hold `A` and `S2` on every row
  have ha : a = A m c := funext fun y => h2 y (by have := idx2_lt0 y; omega)
  have hs2 : s2 = S2 m c := funext fun y => h3 y (by have := idx2_lt0 y; omega)
  refine ⟨fun y hy => h1 y (by omega), fun y hy => h2 y (by omega), fun y hy => h3 y (by omega), fun y hy => ?_⟩
  by_cases hm : 256 * (t.val % 16) ≤ (y 0).val ∧ (y 0).val < 256 * (t.val % 16) + 256
  · rw [setRows_of_mem _ _ _ y hm, band_ix y _ hm, ha, hs2]
    exact (S3_band m c t y (by omega)).symm
  · rw [setRows_of_not_mem _ _ _ y hm]
    exact h4 y (by omega)

/-- A point of phase 3 writes no scratch. -/
theorem inv_step3 (c : Dev nD) (t : Fin cfg0.N) (ht : 48 ≤ t.val) (s1 : Vec F S4096x512 .bf16)
    (a : Vec F S4096x4096 .bf16) (s2 : Vec F S4096x512 .bf16) (s3 : Vec F S4096x256 .bf16) (h : Inv m c t.val s1 a s2 s3) :
    Inv m c (t.val + 1) s1 a s2 s3 := by
  obtain ⟨h1, h2, h3, h4⟩ := h
  exact ⟨fun y hy => h1 y (by omega), fun y hy => h2 y (by omega), fun y hy => h3 y (by omega),
    fun y hy => h4 y (by omega)⟩

/-- What a point of phase 3 stores is the stated result block: by then the second and fourth scratch hold their arrays
    on every row. -/
theorem out_eq (c : Dev nD) (t : Fin cfg0.N) (ht : 48 ≤ t.val) (s1 : Vec F S4096x512 .bf16)
    (a : Vec F S4096x4096 .bf16) (s2 : Vec F S4096x512 .bf16) (s3 : Vec F S4096x256 .bf16) (h : Inv m c t.val s1 a s2 s3) :
    k0_pay6 (getRows a (t.val % 16) (Nat.mod_lt _ (by norm_num))) s3 (b3B m c t) = OutB m c t := by
  obtain ⟨h1, h2, h3, h4⟩ := h
  have ha : a = A m c := funext fun y => h2 y (by have := idx2_lt0 y; omega)
  have hs3 : s3 = S3 m c := funext fun y => h4 y (by have := idx2_lt0 y; omega)
  rw [ha, hs3]
  rfl

end Cert.Kernel.Body

end
-- ==== Proof.Glue.lean ====
/-
  What a whole memref reads after one store of a band of rows, and what a load of a band or of the whole buffer reads,
  as the plain row-band functions: a store through the rectangle of rows [256 b, 256 b + 256), every column, overwrites
  exactly that band; a load through it reads that band; a load through the whole shape reads the contents.
-/
import Idealize.ShloMosaic.Lib.WritesUnit
import Idealize.ShloMosaic.Lib.Pipeline.Value
import proofs.«168441_g12154757448435_cont_fleet_1044_12_alg».proof.Proof.Rows

noncomputable section

namespace Cert.Glue

open Idealize.ShloMosaic Idealize.ShloMosaic.ValueIdx Cert.Rows

variable {sig : RefSig} {κ : Kind} {sp : Space} {e : EltTy} {Val : EltTy → Type} {C : ℕ}

/-- A load of read contents through the rectangle of band b reads band b. -/
theorem ld_rows (a : (⟨2, ![4096, C]⟩ : Shape).Idx → Val e) {off : Fin 2 → ℕ} (b : ℕ) (hb : b < 16) (hoff : off = ![256 * b, 0])
    (inb : ∀ x : Fin 2, off x + (![256, C] : Fin 2 → ℕ) x ≤ (⟨2, ![4096, C]⟩ : Shape).size x) :
    View.ld a (Rect.unit (s := ⟨2, ![4096, C]⟩) off ![256, C] inb) = getRows a b hb := by
  -- Position x of the rectangle sits at row 256 b + x 0 and column 0 + x 1 of the array (every stride is 1), which is
  -- the element band b reads at x.
  subst hoff
  funext x
  show a ((Rect.unit (s := ⟨2, ![4096, C]⟩) ![256 * b, 0] ![256, C] inb).idx x) = _
  unfold getRows
  congr 1
  funext d
  match d with
  | ⟨0, _⟩ =>
    refine Fin.ext ?_
    show 256 * b + 1 * (x 0).val = 256 * b + (x 0).val
    rw [Nat.one_mul]
  | ⟨1, _⟩ =>
    refine Fin.ext ?_
    show 0 + 1 * (x 1).val = (x 1).val
    rw [Nat.one_mul, Nat.zero_add]

/-- A whole memref at contents s, after one store of a block through the rectangle of band b, reads s with band b
    overwritten by the block. -/
theorem read_store_rows (M : Memref sig κ sp (⟨2, ![4096, C]⟩ : Shape) e) (hM : M.IsWhole)
    (s : (⟨2, ![4096, C]⟩ : Shape).Idx → Val e) {off : Fin 2 → ℕ} (b : ℕ) (hoff : off = ![256 * b, 0])
    (inb : ∀ x : Fin 2, off x + (![256, C] : Fin 2 → ℕ) x ≤ (⟨2, ![4096, C]⟩ : Shape).size x)
    (blk : (⟨2, ![256, C]⟩ : Shape).Idx → Val e) :
    M.view.read Val (M.view.writes Val (hM.unread s)
        [(⟨Rect.unit (s := ⟨2, ![4096, C]⟩) off ![256, C] inb, blk⟩ : View.Piece Val ⟨2, ![4096, C]⟩ e)])
      = setRows s b blk := by
  funext y
  by_cases h : 256 * b ≤ (y 0).val ∧ (y 0).val < 256 * b + 256
  · -- A row inside the band sits at position (y 0 − 256 b, y 1) of the stored rectangle and reads the block there.
    rw [setRows_of_mem s b blk y h]
    exact View.read_writes_cons_rows_of_mem M.view (hM.unread s) inb blk [] y
      (ix2 (⟨(y 0).val - 256 * b, by omega⟩ : Fin 256) (⟨(y 1).val, idx2_lt1 y⟩ : Fin C)) hoff
      (by show (y 0).val = 256 * b + ((y 0).val - 256 * b); omega) rfl
  · -- A row outside the band misses the stored rectangle, so it reads what the memref held before the store: s.
    rw [setRows_of_not_mem s b blk y h,
      View.read_writes_cons_rows_of_not_mem (W := 256) M.view (hM.unread s) inb blk [] y hoff rfl (by omega),
      View.writes_nil, hM.read_unread]

/-- A load of read contents through the whole shape at zero offsets reads the contents (rank 2). -/
theorem ld_whole2 {R D : ℕ} (X : (⟨2, ![R, D]⟩ : Shape).Idx → Val e)
    (inb : ∀ x : Fin 2, (![0, 0] : Fin 2 → ℕ) x + (⟨2, ![R, D]⟩ : Shape).size x ≤ (⟨2, ![R, D]⟩ : Shape).size x) :
    View.ld X (Rect.unit (s := ⟨2, ![R, D]⟩) ![0, 0] (⟨2, ![R, D]⟩ : Shape).size inb) = X :=
  View.ld_unit_zero (funext fun x => by fin_cases x <;> rfl) inb X

end Cert.Glue

end
-- ==== Proof.Kernel.Run0.lean ====
/-
  Phase 0 of the body (the first branch taken, the other three not): it reads the block of x and the first weights,
  and overwrites band b of the first scratch with their product; nothing else is touched.
-/
import proofs.«168441_g12154757448435_cont_fleet_1044_12_alg».proof.Proof.Gen.Kernel.Frame
import proofs.«168441_g12154757448435_cont_fleet_1044_12_alg».proof.Proof.Gen.Kernel.Skeleton
import proofs.«168441_g12154757448435_cont_fleet_1044_12_alg».proof.Proof.Glue

set_option maxRecDepth 16384
set_option pp.maxSteps 8000
set_option pp.deepTerms false

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Rows
open Idealize.ShloMosaic.Pipeline (Dat Cfg Window BodyObligation cellOf)

variable {F : FTy → Type} [FloatOps F]

local notation "𝕄" => MT nD τ sig Unit (Elt F) ℕ (UR sig nD τ) ℕ

/-- The body at a point of phase 0, on any whole memrefs: from the block of x at x0, the weights at w1 and the first
    scratch at s1, it runs to the same with the scratch's band b overwritten by the block's payload. -/
theorem run0 (c : Dev nD) (i : grid0.Coords) (arg2 : Memref sig .tc .vmem S256x512 .f32) (harg2 : arg2.IsWhole) (arg3 : Memref sig .tc .vmem S256x4096 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x256 .bf16) (harg8 : arg8.IsWhole) (arg9 : Memref sig .tc .vmem S1x256 .f32) (harg9 : arg9.IsWhole) (arg10 : Memref sig .tc .vmem S256x256 .f32) (harg10 : arg10.IsWhole) (arg11 : Memref sig .tc .vmem S4096x512 .bf16) (harg11 : arg11.IsWhole) (arg12 : Memref sig .tc .vmem S4096x4096 .bf16) (harg12 : arg12.IsWhole) (arg13 : Memref sig .tc .vmem S4096x512 .bf16) (harg13 : arg13.IsWhole) (arg14 : Memref sig .tc .vmem S4096x256 .bf16) (harg14 : arg14.IsWhole)
    (hc1 : k0_cond1 i = 1#1) (hc2 : ¬ k0_cond2 i = 1#1) (hc3 : ¬ k0_cond3 i = 1#1) (hc4 : ¬ k0_cond4 i = 1#1)
    (b : ℕ) (hoff1 : k0_off1 i = ![256 * b, 0])
    (x0 : Vec F S256x512 .f32) (w1 : Vec F S512x512 .bf16) (s1 : Vec F S4096x512 .bf16)
    (E : Set ℕ) (K : PUnit → sProp 𝕄) :
    iprop(owns (c : Thread nD τ) arg2 fullShare x0 ∗ owns (c : Thread nD τ) arg4 fullShare w1 ∗ owns (c : Thread nD τ) arg11 fullShare s1
      ∗ (iprop(owns (c : Thread nD τ) arg2 fullShare x0 ∗ owns (c : Thread nD τ) arg4 fullShare w1
          ∗ owns (c : Thread nD τ) arg11 fullShare (setRows s1 b (k0_pay1 x0 w1))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14) K := by
  simp only [cc0__gcn_kernel_eq_skeleton]; unfold cc0__gcn_kernel_skel
  unfold owns
  iintro ⟨⟨%f0, %hf0, H0⟩, ⟨%f2, %hf2, H2⟩, ⟨%fs1, %hfs1, HS1⟩, Hk⟩
  obtain rfl := harg2.eq_unread hf0; obtain rfl := harg4.eq_unread hf2; obtain rfl := harg11.eq_unread hfs1
  sl_exec (disch := first | exact hc1 | exact hc2 | exact hc3 | exact hc4)
  sl_step
  iapply Hk
  isplitl [H0]
  · iexists _; isplitr; · ipureintro; exact harg2.read_unread _
    iexact H0
  isplitl [H2]
  · iexists _; isplitr; · ipureintro; exact harg4.read_unread _
    iexact H2
  iexists _; isplitr; swap; · iexact HS1
  ipureintro
  -- the two whole-buffer loads read the contents; the one store overwrites band b
  rw [View.readAt_eq_ld, View.readAt_eq_ld, harg2.read_unread, harg4.read_unread, Cert.Glue.ld_whole2, Cert.Glue.ld_whole2]
  exact Cert.Glue.read_store_rows arg11 harg11 s1 b hoff1 _ _

end Cert.Kernel.Body

end
-- ==== Proof.Kernel.Run1.lean ====
/-
  Phase 1 of the body (the second branch alone): it reads the block of the adjacency matrix, keeps it as band b of the
  second scratch, reads the whole first scratch, the first bias and the second weights, and overwrites band b of the
  third scratch with the layer's payload.
-/
import proofs.«168441_g12154757448435_cont_fleet_1044_12_alg».proof.Proof.Gen.Kernel.Frame
import proofs.«168441_g12154757448435_cont_fleet_1044_12_alg».proof.Proof.Gen.Kernel.Skeleton
import proofs.«168441_g12154757448435_cont_fleet_1044_12_alg».proof.Proof.Glue

set_option maxRecDepth 16384
set_option pp.maxSteps 8000
set_option pp.deepTerms false

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Rows
open Idealize.ShloMosaic.Pipeline (Dat Cfg Window BodyObligation cellOf)

variable {F : FTy → Type} [FloatOps F]

local notation "𝕄" => MT nD τ sig Unit (Elt F) ℕ (UR sig nD τ) ℕ

theorem run1 (c : Dev nD) (i : grid0.Coords) (arg2 : Memref sig .tc .vmem S256x512 .f32) (harg2 : arg2.IsWhole) (arg3 : Memref sig .tc .vmem S256x4096 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x256 .bf16) (harg8 : arg8.IsWhole) (arg9 : Memref sig .tc .vmem S1x256 .f32) (harg9 : arg9.IsWhole) (arg10 : Memref sig .tc .vmem S256x256 .f32) (harg10 : arg10.IsWhole) (arg11 : Memref sig .tc .vmem S4096x512 .bf16) (harg11 : arg11.IsWhole) (arg12 : Memref sig .tc .vmem S4096x4096 .bf16) (harg12 : arg12.IsWhole) (arg13 : Memref sig .tc .vmem S4096x512 .bf16) (harg13 : arg13.IsWhole) (arg14 : Memref sig .tc .vmem S4096x256 .bf16) (harg14 : arg14.IsWhole)
    (hc1 : ¬ k0_cond1 i = 1#1) (hc2 : k0_cond2 i = 1#1) (hc3 : ¬ k0_cond3 i = 1#1) (hc4 : ¬ k0_cond4 i = 1#1)
    (b : ℕ) (hoff2 : k0_off2 i = ![256 * b, 0]) (hoff3 : k0_off3 i = ![256 * b, 0])
    (x1 : Vec F S256x4096 .f32) (b1 : Vec F S1x512 .f32) (w2 : Vec F S512x512 .bf16)
    (s1 : Vec F S4096x512 .bf16) (a : Vec F S4096x4096 .bf16) (s2 : Vec F S4096x512 .bf16)
    (E : Set ℕ) (K : PUnit → sProp 𝕄) :
    iprop(owns (c : Thread nD τ) arg3 fullShare x1 ∗ owns (c : Thread nD τ) arg5 fullShare b1 ∗ owns (c : Thread nD τ) arg6 fullShare w2
      ∗ owns (c : Thread nD τ) arg11 fullShare s1 ∗ owns (c : Thread nD τ) arg12 fullShare a ∗ owns (c : Thread nD τ) arg13 fullShare s2
      ∗ (iprop(owns (c : Thread nD τ) arg3 fullShare x1 ∗ owns (c : Thread nD τ) arg5 fullShare b1 ∗ owns (c : Thread nD τ) arg6 fullShare w2
          ∗ owns (c : Thread nD τ) arg11 fullShare s1 ∗ owns (c : Thread nD τ) arg12 fullShare (setRows a b (k0_pay3 x1))
          ∗ owns (c : Thread nD τ) arg13 fullShare (setRows s2 b (k0_pay4 x1 s1 b1 w2))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14) K := by
  simp only [cc0__gcn_kernel_eq_skeleton]; unfold cc0__gcn_kernel_skel
  unfold owns
  iintro ⟨⟨%f3, %hf3, H3⟩, ⟨%f5, %hf5, H5⟩, ⟨%f6, %hf6, H6⟩, ⟨%f11, %hf11, H11⟩, ⟨%f12, %hf12, H12⟩, ⟨%f13, %hf13, H13⟩, Hk⟩
  obtain rfl := harg3.eq_unread hf3; obtain rfl := harg5.eq_unread hf5; obtain rfl := harg6.eq_unread hf6
  obtain rfl := harg11.eq_unread hf11; obtain rfl := harg12.eq_unread hf12; obtain rfl := harg13.eq_unread hf13
  sl_exec (disch := first | exact hc1 | exact hc2 | exact hc3 | exact hc4)
  sl_step
  iapply Hk
  isplitl [H3]
  · iexists _; isplitr; · ipureintro; exact harg3.read_unread _
    iexact H3
  isplitl [H5]
  · iexists _; isplitr; · ipureintro; exact harg5.read_unread _
    iexact H5
  isplitl [H6]
  · iexists _; isplitr; · ipureintro; exact harg6.read_unread _
    iexact H6
  isplitl [H11]
  · iexists _; isplitr; · ipureintro; exact harg11.read_unread _
    iexact H11
  isplitl [H12]
  · iexists _; isplitr; swap; · iexact H12
    ipureintro
    -- the whole-buffer load of the adjacency block reads its contents; the one store overwrites band b
    rw [View.readAt_eq_ld, harg3.read_unread, Cert.Glue.ld_whole2]
    exact Cert.Glue.read_store_rows arg12 harg12 a b hoff2 _ _
  iexists _; isplitr; swap; · iexact H13
  ipureintro
  -- each whole-buffer load reads its contents; the one store overwrites band b
  rw [View.readAt_eq_ld, View.readAt_eq_ld, View.readAt_eq_ld, View.readAt_eq_ld,
    harg3.read_unread, harg11.read_unread, harg5.read_unread, harg6.read_unread,
    Cert.Glue.ld_whole2, Cert.Glue.ld_whole2, Cert.Glue.ld_whole2, Cert.Glue.ld_whole2]
  exact Cert.Glue.read_store_rows arg13 harg13 s2 b hoff3 _ _

end Cert.Kernel.Body

end
-- ==== Proof.Kernel.Run2.lean ====
/-
  Phase 2 of the body (the third branch alone): it reads band b of the kept adjacency matrix, the whole third scratch,
  the second bias and the third weights, and overwrites band b of the fourth scratch with the layer's payload.
-/
import proofs.«168441_g12154757448435_cont_fleet_1044_12_alg».proof.Proof.Gen.Kernel.Frame
import proofs.«168441_g12154757448435_cont_fleet_1044_12_alg».proof.Proof.Gen.Kernel.Skeleton
import proofs.«168441_g12154757448435_cont_fleet_1044_12_alg».proof.Proof.Glue

set_option maxRecDepth 16384
set_option pp.maxSteps 8000
set_option pp.deepTerms false

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Rows
open Idealize.ShloMosaic.Pipeline (Dat Cfg Window BodyObligation cellOf)

variable {F : FTy → Type} [FloatOps F]

local notation "𝕄" => MT nD τ sig Unit (Elt F) ℕ (UR sig nD τ) ℕ

theorem run2 (c : Dev nD) (i : grid0.Coords) (arg2 : Memref sig .tc .vmem S256x512 .f32) (harg2 : arg2.IsWhole) (arg3 : Memref sig .tc .vmem S256x4096 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x256 .bf16) (harg8 : arg8.IsWhole) (arg9 : Memref sig .tc .vmem S1x256 .f32) (harg9 : arg9.IsWhole) (arg10 : Memref sig .tc .vmem S256x256 .f32) (harg10 : arg10.IsWhole) (arg11 : Memref sig .tc .vmem S4096x512 .bf16) (harg11 : arg11.IsWhole) (arg12 : Memref sig .tc .vmem S4096x4096 .bf16) (harg12 : arg12.IsWhole) (arg13 : Memref sig .tc .vmem S4096x512 .bf16) (harg13 : arg13.IsWhole) (arg14 : Memref sig .tc .vmem S4096x256 .bf16) (harg14 : arg14.IsWhole)
    (hc1 : ¬ k0_cond1 i = 1#1) (hc2 : ¬ k0_cond2 i = 1#1) (hc3 : k0_cond3 i = 1#1) (hc4 : ¬ k0_cond4 i = 1#1)
    (b : ℕ) (hb : b < 16) (hoff4 : k0_off4 i = ![256 * b, 0]) (hoff5 : k0_off5 i = ![256 * b, 0])
    (b2 : Vec F S1x512 .f32) (w3 : Vec F S512x256 .bf16)
    (a : Vec F S4096x4096 .bf16) (s2 : Vec F S4096x512 .bf16) (s3 : Vec F S4096x256 .bf16)
    (E : Set ℕ) (K : PUnit → sProp 𝕄) :
    iprop(owns (c : Thread nD τ) arg7 fullShare b2 ∗ owns (c : Thread nD τ) arg8 fullShare w3
      ∗ owns (c : Thread nD τ) arg12 fullShare a ∗ owns (c : Thread nD τ) arg13 fullShare s2 ∗ owns (c : Thread nD τ) arg14 fullShare s3
      ∗ (iprop(owns (c : Thread nD τ) arg7 fullShare b2 ∗ owns (c : Thread nD τ) arg8 fullShare w3
          ∗ owns (c : Thread nD τ) arg12 fullShare a ∗ owns (c : Thread nD τ) arg13 fullShare s2
          ∗ owns (c : Thread nD τ) arg14 fullShare (setRows s3 b (k0_pay5 (getRows a b hb) s2 b2 w3))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14) K := by
  simp only [cc0__gcn_kernel_eq_skeleton]; unfold cc0__gcn_kernel_skel
  unfold owns
  iintro ⟨⟨%f7, %hf7, H7⟩, ⟨%f8, %hf8, H8⟩, ⟨%f12, %hf12, H12⟩, ⟨%f13, %hf13, H13⟩, ⟨%f14, %hf14, H14⟩, Hk⟩
  obtain rfl := harg7.eq_unread hf7; obtain rfl := harg8.eq_unread hf8; obtain rfl := harg12.eq_unread hf12
  obtain rfl := harg13.eq_unread hf13; obtain rfl := harg14.eq_unread hf14
  sl_exec (disch := first | exact hc1 | exact hc2 | exact hc3 | exact hc4)
  sl_step
  iapply Hk
  isplitl [H7]
  · iexists _; isplitr; · ipureintro; exact harg7.read_unread _
    iexact H7
  isplitl [H8]
  · iexists _; isplitr; · ipureintro; exact harg8.read_unread _
    iexact H8
  isplitl [H12]
  · iexists _; isplitr; · ipureintro; exact harg12.read_unread _
    iexact H12
  isplitl [H13]
  · iexists _; isplitr; · ipureintro; exact harg13.read_unread _
    iexact H13
  iexists _; isplitr; swap
  · iexact H14
  ipureintro
  -- the band load of the adjacency matrix reads band b; the whole-buffer loads read the contents
  have e12 : ∀ inb, View.readAt (Elt F) arg12.view (Rect.unit (s := S4096x4096) (k0_off4 i) S256x4096.size inb).toLoadRect
      (harg12.unread a) = getRows a b hb := by
    intro inb
    rw [View.readAt_eq_ld, harg12.read_unread]; exact Cert.Glue.ld_rows a b hb hoff4 inb
  have e13 : View.readAt (Elt F) arg13.view (Rect.unit (s := S4096x512) ![0, 0] S4096x512.size inb_S4096x512_S4096x512_0_0).toLoadRect
      (harg13.unread s2) = s2 := by
    rw [View.readAt_eq_ld, harg13.read_unread]; exact Cert.Glue.ld_whole2 s2 _
  have e7 : View.readAt (Elt F) arg7.view (Rect.unit (s := S1x512) ![0, 0] S1x512.size inb_S1x512_S1x512_0_0).toLoadRect
      (harg7.unread b2) = b2 := by
    rw [View.readAt_eq_ld, harg7.read_unread]; exact Cert.Glue.ld_whole2 b2 _
  have e8 : View.readAt (Elt F) arg8.view (Rect.unit (s := S512x256) ![0, 0] S512x256.size inb_S512x256_S512x256_0_0).toLoadRect
      (harg8.unread w3) = w3 := by
    rw [View.readAt_eq_ld, harg8.read_unread]; exact Cert.Glue.ld_whole2 w3 _
  rw [e12, e13, e7, e8]
  -- one store through the rectangle of band b overwrites exactly that band
  exact Cert.Glue.read_store_rows arg14 harg14 s3 b hoff5 _ _

end Cert.Kernel.Body

end
-- ==== Proof.Kernel.Run3.lean ====
/-
  Phase 3 of the body (the fourth branch alone): it reads band b of the kept adjacency matrix, the whole fourth scratch
  and the third bias, and stores the last layer's payload over the whole result block.
-/
import proofs.«168441_g12154757448435_cont_fleet_1044_12_alg».proof.Proof.Gen.Kernel.Frame
import proofs.«168441_g12154757448435_cont_fleet_1044_12_alg».proof.Proof.Gen.Kernel.Skeleton
import proofs.«168441_g12154757448435_cont_fleet_1044_12_alg».proof.Proof.Glue

set_option maxRecDepth 16384
set_option pp.maxSteps 8000
set_option pp.deepTerms false

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Rows
open Idealize.ShloMosaic.Pipeline (Dat Cfg Window BodyObligation cellOf)

variable {F : FTy → Type} [FloatOps F]

local notation "𝕄" => MT nD τ sig Unit (Elt F) ℕ (UR sig nD τ) ℕ

theorem run3 (c : Dev nD) (i : grid0.Coords) (arg2 : Memref sig .tc .vmem S256x512 .f32) (harg2 : arg2.IsWhole) (arg3 : Memref sig .tc .vmem S256x4096 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x256 .bf16) (harg8 : arg8.IsWhole) (arg9 : Memref sig .tc .vmem S1x256 .f32) (harg9 : arg9.IsWhole) (arg10 : Memref sig .tc .vmem S256x256 .f32) (harg10 : arg10.IsWhole) (arg11 : Memref sig .tc .vmem S4096x512 .bf16) (harg11 : arg11.IsWhole) (arg12 : Memref sig .tc .vmem S4096x4096 .bf16) (harg12 : arg12.IsWhole) (arg13 : Memref sig .tc .vmem S4096x512 .bf16) (harg13 : arg13.IsWhole) (arg14 : Memref sig .tc .vmem S4096x256 .bf16) (harg14 : arg14.IsWhole)
    (hc1 : ¬ k0_cond1 i = 1#1) (hc2 : ¬ k0_cond2 i = 1#1) (hc3 : ¬ k0_cond3 i = 1#1) (hc4 : k0_cond4 i = 1#1)
    (b : ℕ) (hb : b < 16) (hoff6 : k0_off6 i = ![256 * b, 0])
    (b3 : Vec F S1x256 .f32) (a : Vec F S4096x4096 .bf16) (s3 : Vec F S4096x256 .bf16)
    (E : Set ℕ) (K : PUnit → sProp 𝕄) :
    iprop(owns (c : Thread nD τ) arg9 fullShare b3 ∗ (∃ d, owns (c : Thread nD τ) arg10 fullShare d)
      ∗ owns (c : Thread nD τ) arg12 fullShare a ∗ owns (c : Thread nD τ) arg14 fullShare s3
      ∗ (iprop(owns (c : Thread nD τ) arg9 fullShare b3 ∗ owns (c : Thread nD τ) arg10 fullShare (k0_pay6 (getRows a b hb) s3 b3)
          ∗ owns (c : Thread nD τ) arg12 fullShare a ∗ owns (c : Thread nD τ) arg14 fullShare s3) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14) K := by
  simp only [cc0__gcn_kernel_eq_skeleton]; unfold cc0__gcn_kernel_skel
  unfold owns
  iintro ⟨⟨%f9, %hf9, H9⟩, ⟨%d, %f10, %hf10, H10⟩, ⟨%f12, %hf12, H12⟩, ⟨%f14, %hf14, H14⟩, Hk⟩
  obtain rfl := harg9.eq_unread hf9; obtain rfl := harg10.eq_unread hf10; obtain rfl := harg12.eq_unread hf12
  obtain rfl := harg14.eq_unread hf14
  sl_exec (disch := first | exact hc1 | exact hc2 | exact hc3 | exact hc4)
  sl_step
  iapply Hk
  isplitl [H9]
  · iexists _; isplitr; · ipureintro; exact harg9.read_unread _
    iexact H9
  isplitl [H10]
  · iexists _; isplitr; swap
    · iexact H10
    ipureintro
    -- the band load of the adjacency matrix reads band b; the whole-buffer loads read the contents
    have e12 : ∀ inb, View.readAt (Elt F) arg12.view (Rect.unit (s := S4096x4096) (k0_off6 i) S256x4096.size inb).toLoadRect
        (harg12.unread a) = getRows a b hb := by
      intro inb
      rw [View.readAt_eq_ld, harg12.read_unread]; exact Cert.Glue.ld_rows a b hb hoff6 inb
    have e14 : View.readAt (Elt F) arg14.view (Rect.unit (s := S4096x256) ![0, 0] S4096x256.size inb_S4096x256_S4096x256_0_0).toLoadRect
        (harg14.unread s3) = s3 := by
      rw [View.readAt_eq_ld, harg14.read_unread]; exact Cert.Glue.ld_whole2 s3 _
    have e9 : View.readAt (Elt F) arg9.view (Rect.unit (s := S1x256) ![0, 0] S1x256.size inb_S1x256_S1x256_0_0).toLoadRect
        (harg9.unread b3) = b3 := by
      rw [View.readAt_eq_ld, harg9.read_unread]; exact Cert.Glue.ld_whole2 b3 _
    rw [e12, e14, e9]
    -- one store through the whole shape covers every index, so it reads back as its payload whatever was held before
    have hz : (![0, 0] : Fin S256x256.rank → ℕ) = fun _ => 0 := funext fun x => by fin_cases x <;> rfl
    rw [View.read_writes_eq_canon _ _ _ (fun y => ⟨_, List.mem_singleton_self _, View.mem_set_unit_zero hz inb_S256x256_S256x256_0_0 y⟩)]
    exact View.canon_unit_zero hz _ _
  isplitl [H12]
  · iexists _; isplitr; · ipureintro; exact harg12.read_unread _
    iexact H12
  iexists _; isplitr; · ipureintro; exact harg14.read_unread _
  iexact H14

end Cert.Kernel.Body

end
-- ==== Proof.Kernel.Body.lean ====
/-
  The kernel body at every grid point, and the run of the whole program.

  Between points the four scratch arrays are held at SOME contents that satisfy the invariant of State.lean (the bands
  written so far hold the stated arrays); before the first point that says nothing, which is what the launch provides,
  and after the last point the contents are forgotten again. At a point of phase p the body is that phase's run
  (Run0 to Run3) on the blocks the pipeline hands it, and the phase's step of the invariant gives the next point's.
  The argument windows are left as they were found; the result window is handed back untouched outside phase 3 (it is
  idle there and not written back) and holds the stated result block in phase 3.
-/
import proofs.«168441_g12154757448435_cont_fleet_1044_12_alg».proof.Proof.Kernel.State
import proofs.«168441_g12154757448435_cont_fleet_1044_12_alg».proof.Proof.Kernel.Run0
import proofs.«168441_g12154757448435_cont_fleet_1044_12_alg».proof.Proof.Kernel.Run1
import proofs.«168441_g12154757448435_cont_fleet_1044_12_alg».proof.Proof.Kernel.Run2
import proofs.«168441_g12154757448435_cont_fleet_1044_12_alg».proof.Proof.Kernel.Run3

set_option maxRecDepth 16384
set_option pp.maxSteps 8000
set_option pp.deepTerms false

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Kernel Cert.Kernel.Gen Cert.Rows
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four scratch operands: whole scoped buffers of the kernel's own. -/
abbrev scA : Memref sig .tc .vmem S4096x512 .bf16 := Memref.whole cc0_scratch0
abbrev scB : Memref sig .tc .vmem S4096x4096 .bf16 := Memref.whole cc0_scratch1
abbrev scC : Memref sig .tc .vmem S4096x512 .bf16 := Memref.whole cc0_scratch2
abbrev scD : Memref sig .tc .vmem S4096x256 .bf16 := Memref.whole cc0_scratch3

/-- Each window's current staging memref at point t, spelled as the pipeline passes it, and its wholeness. -/
abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x256 .f32 := win0_8.stage (cfg0.slots t 8)
abbrev hs0_8 (t : Fin cfg0.N) : (ms0_8 t).IsWhole := hstage0_8 ((cfg0.slots t 8).cast nbuf0_8)

/-- What the launch hands the region, with the scratch operands as memrefs owned at some contents. -/
theorem PhiA0_eq (c : Dev nD) :
    (Pipeline.ΦA spec0 c : sProp 𝕄)
      = iprop(iprop((∃ d, owns (c : Thread nD τ) scA fullShare d) ∗ (∃ d, owns (c : Thread nD τ) scB fullShare d)
          ∗ (∃ d, owns (c : Thread nD τ) scC fullShare d) ∗ (∃ d, owns (c : Thread nD τ) scD fullShare d)) ∗ (∃ r, prngReg c r)) := by
  unfold Pipeline.ΦA; rw [scopedRest0_eq]; simp only [scA, scB, scC, scD, owns_whole]; try rfl

/-- The region's invariant before point n: the scratch arrays at contents that satisfy `Inv n`, and the generator
    register at some state. -/
def PhiS (c : Dev nD) (n : ℕ) : sProp 𝕄 :=
  iprop((∃ s1 a s2 s3, ⌜Inv m c n s1 a s2 s3⌝ ∗ owns (c : Thread nD τ) scA fullShare s1 ∗ owns (c : Thread nD τ) scB fullShare a
      ∗ owns (c : Thread nD τ) scC fullShare s2 ∗ owns (c : Thread nD τ) scD fullShare s3) ∗ (∃ r, prngReg c r))

/-- The proof data: the arrays as the region finds them; after the body each argument window at its block and the
    result window at the stated result block; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => OutB m c t
  Φ t := PhiS m c t.val
  q _ := fullShare
  owed _ := 0

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = PhiS m c t.val := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = OutB m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- An argument window is live at every point: the body leaves its buffer at the block it found. -/
private theorem leaves0_0 (c : Dev nD) (t : Fin cfg0.N) :
    (dats m 0 c).leavesExact 0 t = owns (c : Thread nD τ) (ms0_0 t) fullShare (iblk m c 0 t) := by
  unfold Dat.leavesExact
  rw [show cfg0.idle 0 (cfg0.grid.coords t) = false from live_in ⟨0, by decide⟩ t, after0_0]
private theorem leaves0_1 (c : Dev nD) (t : Fin cfg0.N) :
    (dats m 0 c).leavesExact 1 t = owns (c : Thread nD τ) (ms0_1 t) fullShare (iblk m c 1 t) := by
  unfold Dat.leavesExact
  rw [show cfg0.idle 1 (cfg0.grid.coords t) = false from live_in ⟨1, by decide⟩ t, after0_1]
private theorem leaves0_2 (c : Dev nD) (t : Fin cfg0.N) :
    (dats m 0 c).leavesExact 2 t = owns (c : Thread nD τ) (ms0_2 t) fullShare (iblk m c 2 t) := by
  unfold Dat.leavesExact
  rw [show cfg0.idle 2 (cfg0.grid.coords t) = false from live_in ⟨2, by decide⟩ t, after0_2]
private theorem leaves0_3 (c : Dev nD) (t : Fin cfg0.N) :
    (dats m 0 c).leavesExact 3 t = owns (c : Thread nD τ) (ms0_3 t) fullShare (iblk m c 3 t) := by
  unfold Dat.leavesExact
  rw [show cfg0.idle 3 (cfg0.grid.coords t) = false from live_in ⟨3, by decide⟩ t, after0_3]
private theorem leaves0_4 (c : Dev nD) (t : Fin cfg0.N) :
    (dats m 0 c).leavesExact 4 t = owns (c : Thread nD τ) (ms0_4 t) fullShare (iblk m c 4 t) := by
  unfold Dat.leavesExact
  rw [show cfg0.idle 4 (cfg0.grid.coords t) = false from live_in ⟨4, by decide⟩ t, after0_4]
private theorem leaves0_5 (c : Dev nD) (t : Fin cfg0.N) :
    (dats m 0 c).leavesExact 5 t = owns (c : Thread nD τ) (ms0_5 t) fullShare (iblk m c 5 t) := by
  unfold Dat.leavesExact
  rw [show cfg0.idle 5 (cfg0.grid.coords t) = false from live_in ⟨5, by decide⟩ t, after0_5]
private theorem leaves0_6 (c : Dev nD) (t : Fin cfg0.N) :
    (dats m 0 c).leavesExact 6 t = owns (c : Thread nD τ) (ms0_6 t) fullShare (iblk m c 6 t) := by
  unfold Dat.leavesExact
  rw [show cfg0.idle 6 (cfg0.grid.coords t) = false from live_in ⟨6, by decide⟩ t, after0_6]
private theorem leaves0_7 (c : Dev nD) (t : Fin cfg0.N) :
    (dats m 0 c).leavesExact 7 t = owns (c : Thread nD τ) (ms0_7 t) fullShare (iblk m c 7 t) := by
  unfold Dat.leavesExact
  rw [show cfg0.idle 7 (cfg0.grid.coords t) = false from live_in ⟨7, by decide⟩ t, after0_7]

/-- Outside phase 3 the result window is idle and not written back: its buffer is handed back as found. -/
private theorem leaves0_8_idle (c : Dev nD) (t : Fin cfg0.N) (h : t.val < 48) :
    (dats m 0 c).leavesExact 8 t = iprop(∃ d, owns (c : Thread nD τ) (ms0_8 t) fullShare ((dats m 0 c).before 8 t d)) :=
  Dat.leavesExact_idle (dats m 0 c) 8 t (idle8 t h) (noflush8 t h)

/-- In phase 3 it is live and holds the stated result block. -/
private theorem leaves0_8_live (c : Dev nD) (t : Fin cfg0.N) (h : 48 ≤ t.val) :
    (dats m 0 c).leavesExact 8 t = owns (c : Thread nD τ) (ms0_8 t) fullShare (OutB m c t) := by
  unfold Dat.leavesExact
  rw [show cfg0.idle 8 (cfg0.grid.coords t) = false from live8 t h, after0_8]

set_option maxHeartbeats 4800000 in
/-- A point of phase 0: the first branch alone runs, on the block of x, the first weights and the first scratch. -/
theorem sound_body0 (c : Dev nD) (t : Fin cfg0.N) (h : t.val < 16) :
    bodyPre m c t ⊢ wp frame (wpE (defs₀ (F := F)) Variants.none c none) Set.univ (bodyAt0 t) (fun _ => bodyPost m c t) := by
  unfold bodyPre bodyPost bodyAt0
  rewrite [leaves0_8_idle m c t (by omega), leaves0_0, leaves0_1, leaves0_2, leaves0_3, leaves0_4, leaves0_5, leaves0_6, leaves0_7]
  simp only [before0_0, before0_1, before0_2, before0_3, before0_4, before0_5, before0_6, before0_7]
  rewrite [show (dats m 0 c).owesAt () t.succ = (dats m 0 c).owesAt () t.castSucc from rfl]
  rewrite [Phi_eq m c t.castSucc, Phi_eq m c t.succ, Fin.coe_castSucc, Fin.val_succ]
  unfold PhiS
  iintro ⟨⟨⟨%s1, %a, %s2, %s3, %hI, HA, HB, HC, HD⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scA (Memref.isWhole_whole _) scB (Memref.isWhole_whole _) scC (Memref.isWhole_whole _) scD (Memref.isWhole_whole _)
    ((hcond1 t).mpr h) (fun h' => by have := (hcond2 t).mp h'; omega) (fun h' => by have := (hcond3 t).mp h'; omega)
    (fun h' => by have := (hcond4 t).mp h'; omega) (t.val % 16) (off1_eq t) (xB m c t) (w1B m c t) s1 Set.univ _)
  isplitl [H0]; · iexact H0
  isplitl [H2]; · iexact H2
  isplitl [HA]; · iexact HA
  iintro ⟨H0, H2, HA⟩
  isplitl [HA HB HC HD Hg]
  · isplitr [Hg]
    · iexists (setRows s1 (t.val % 16) (k0_pay1 (xB m c t) (w1B m c t))), a, s2, s3
      isplitr
      · ipureintro; exact inv_step0 m c t h s1 a s2 s3 hI
      isplitl [HA]; · iexact HA
      isplitl [HB]; · iexact HB
      isplitl [HC]; · iexact HC
      iexact HD
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

set_option maxHeartbeats 4800000 in
/-- A point of phase 1: the second branch alone runs, on the adjacency block, the first bias, the second weights and the first three scratch arrays. -/
theorem sound_body1 (c : Dev nD) (t : Fin cfg0.N) (h : 16 ≤ t.val ∧ t.val < 32) :
    bodyPre m c t ⊢ wp frame (wpE (defs₀ (F := F)) Variants.none c none) Set.univ (bodyAt0 t) (fun _ => bodyPost m c t) := by
  unfold bodyPre bodyPost bodyAt0
  rewrite [leaves0_8_idle m c t (by omega), leaves0_0, leaves0_1, leaves0_2, leaves0_3, leaves0_4, leaves0_5, leaves0_6, leaves0_7]
  simp only [before0_0, before0_1, before0_2, before0_3, before0_4, before0_5, before0_6, before0_7]
  rewrite [show (dats m 0 c).owesAt () t.succ = (dats m 0 c).owesAt () t.castSucc from rfl]
  rewrite [Phi_eq m c t.castSucc, Phi_eq m c t.succ, Fin.coe_castSucc, Fin.val_succ]
  unfold PhiS
  iintro ⟨⟨⟨%s1, %a, %s2, %s3, %hI, HA, HB, HC, HD⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scA (Memref.isWhole_whole _) scB (Memref.isWhole_whole _) scC (Memref.isWhole_whole _) scD (Memref.isWhole_whole _)
    (fun h' => by have := (hcond1 t).mp h'; omega) ((hcond2 t).mpr h) (fun h' => by have := (hcond3 t).mp h'; omega)
    (fun h' => by have := (hcond4 t).mp h'; omega) (t.val % 16) (off2_eq t) (off3_eq t) (aB m c t) (b1B m c t) (w2B m c t) s1 a s2 Set.univ _)
  isplitl [H1]; · iexact H1
  isplitl [H3]; · iexact H3
  isplitl [H4]; · iexact H4
  isplitl [HA]; · iexact HA
  isplitl [HB]; · iexact HB
  isplitl [HC]; · iexact HC
  iintro ⟨H1, H3, H4, HA, HB, HC⟩
  isplitl [HA HB HC HD Hg]
  · isplitr [Hg]
    · iexists s1, (setRows a (t.val % 16) (k0_pay3 (aB m c t))), (setRows s2 (t.val % 16) (k0_pay4 (aB m c t) s1 (b1B m c t) (w2B m c t))), s3
      isplitr
      · ipureintro; exact inv_step1 m c t h s1 a s2 s3 hI
      isplitl [HA]; · iexact HA
      isplitl [HB]; · iexact HB
      isplitl [HC]; · iexact HC
      iexact HD
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

set_option maxHeartbeats 4800000 in
/-- A point of phase 2: the third branch alone runs, on the second bias, the third weights and the last three scratch arrays. -/
theorem sound_body2 (c : Dev nD) (t : Fin cfg0.N) (h : 32 ≤ t.val ∧ t.val < 48) :
    bodyPre m c t ⊢ wp frame (wpE (defs₀ (F := F)) Variants.none c none) Set.univ (bodyAt0 t) (fun _ => bodyPost m c t) := by
  unfold bodyPre bodyPost bodyAt0
  rewrite [leaves0_8_idle m c t (by omega), leaves0_0, leaves0_1, leaves0_2, leaves0_3, leaves0_4, leaves0_5, leaves0_6, leaves0_7]
  simp only [before0_0, before0_1, before0_2, before0_3, before0_4, before0_5, before0_6, before0_7]
  rewrite [show (dats m 0 c).owesAt () t.succ = (dats m 0 c).owesAt () t.castSucc from rfl]
  rewrite [Phi_eq m c t.castSucc, Phi_eq m c t.succ, Fin.coe_castSucc, Fin.val_succ]
  unfold PhiS
  iintro ⟨⟨⟨%s1, %a, %s2, %s3, %hI, HA, HB, HC, HD⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scA (Memref.isWhole_whole _) scB (Memref.isWhole_whole _) scC (Memref.isWhole_whole _) scD (Memref.isWhole_whole _)
    (fun h' => by have := (hcond1 t).mp h'; omega) (fun h' => by have := (hcond2 t).mp h'; omega) ((hcond3 t).mpr h)
    (fun h' => by have := (hcond4 t).mp h'; omega) (t.val % 16) (Nat.mod_lt _ (by norm_num)) (off4_eq t) (off5_eq t) (b2B m c t) (w3B m c t) a s2 s3 Set.univ _)
  isplitl [H5]; · iexact H5
  isplitl [H6]; · iexact H6
  isplitl [HB]; · iexact HB
  isplitl [HC]; · iexact HC
  isplitl [HD]; · iexact HD
  iintro ⟨H5, H6, HB, HC, HD⟩
  isplitl [HA HB HC HD Hg]
  · isplitr [Hg]
    · iexists s1, a, s2, (setRows s3 (t.val % 16) (k0_pay5 (getRows a (t.val % 16) (Nat.mod_lt _ (by norm_num))) s2 (b2B m c t) (w3B m c t)))
      isplitr
      · ipureintro; exact inv_step2 m c t h s1 a s2 s3 hI
      isplitl [HA]; · iexact HA
      isplitl [HB]; · iexact HB
      isplitl [HC]; · iexact HC
      iexact HD
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

set_option maxHeartbeats 4800000 in
/-- A point of phase 3: the fourth branch alone runs, on the third bias and the second and fourth scratch arrays, and stores the result block, which by then is the stated one. -/
theorem sound_body3 (c : Dev nD) (t : Fin cfg0.N) (h : 48 ≤ t.val) :
    bodyPre m c t ⊢ wp frame (wpE (defs₀ (F := F)) Variants.none c none) Set.univ (bodyAt0 t) (fun _ => bodyPost m c t) := by
  unfold bodyPre bodyPost bodyAt0
  rewrite [leaves0_8_live m c t h, leaves0_0, leaves0_1, leaves0_2, leaves0_3, leaves0_4, leaves0_5, leaves0_6, leaves0_7]
  simp only [before0_0, before0_1, before0_2, before0_3, before0_4, before0_5, before0_6, before0_7]
  rewrite [show (dats m 0 c).owesAt () t.succ = (dats m 0 c).owesAt () t.castSucc from rfl]
  rewrite [Phi_eq m c t.castSucc, Phi_eq m c t.succ, Fin.coe_castSucc, Fin.val_succ]
  unfold PhiS
  iintro ⟨⟨⟨%s1, %a, %s2, %s3, %hI, HA, HB, HC, HD⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scA (Memref.isWhole_whole _) scB (Memref.isWhole_whole _) scC (Memref.isWhole_whole _) scD (Memref.isWhole_whole _)
    (fun h' => by have := (hcond1 t).mp h'; omega) (fun h' => by have := (hcond2 t).mp h'; omega) (fun h' => by have := (hcond3 t).mp h'; omega)
    ((hcond4 t).mpr h) (t.val % 16) (Nat.mod_lt _ (by norm_num)) (off6_eq t) (b3B m c t) a s3 Set.univ _)
  isplitl [H7]; · iexact H7
  isplitl [H8]; · iexists _; iexact H8
  isplitl [HB]; · iexact HB
  isplitl [HD]; · iexact HD
  iintro ⟨H7, H8, HB, HD⟩
  isplitl [HA HB HC HD Hg]
  · isplitr [Hg]
    · iexists s1, a, s2, s3
      isplitr
      · ipureintro; exact inv_step3 m c t h s1 a s2 s3 hI
      isplitl [HA]; · iexact HA
      isplitl [HB]; · iexact HB
      isplitl [HC]; · iexact HC
      iexact HD
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rewrite [← out_eq m c t h s1 a s2 s3 hI]
  iexact H8

set_option maxHeartbeats 4800000 in
/-- The body at any point, by the point's phase. -/
theorem sound_body (c : Dev nD) (t : Fin cfg0.N) :
    bodyPre m c t ⊢ wp frame (wpE (defs₀ (F := F)) Variants.none c none) Set.univ (bodyAt0 t) (fun _ => bodyPost m c t) := by
  by_cases h0 : t.val < 16
  · exact sound_body0 m c t h0
  by_cases h1 : t.val < 32
  · exact sound_body1 m c t ⟨by omega, h1⟩
  by_cases h2 : t.val < 48
  · exact sound_body2 m c t ⟨by omega, h2⟩
  exact sound_body3 m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is claimed of the scratch. -/
theorem hin (c : Dev nD) : Pipeline.ΦA spec0 c ⊢ (dats m 0 c).Φ 0 := by
  rw [Phi_eq, PhiA0_eq]
  unfold PhiS
  iintro ⟨⟨⟨%d1, H1⟩, ⟨%d2, H2⟩, ⟨%d3, H3⟩, ⟨%d4, H4⟩⟩, Hg⟩
  isplitr [Hg]
  · iexists d1, d2, d3, d4
    isplitr
    · ipureintro; exact inv_zero m c d1 d2 d3 d4
    isplitl [H1]; · iexact H1
    isplitl [H2]; · iexact H2
    isplitl [H3]; · iexact H3
    iexact H4
  · iexact Hg

/-- After the last point the scratch contents are forgotten. -/
theorem hout (c : Dev nD) : (dats m 0 c).Φ (Fin.last cfg0.N) ⊢ Pipeline.ΦA spec0 c := by
  rw [Phi_eq, PhiA0_eq]
  unfold PhiS
  iintro ⟨⟨%s1, %a, %s2, %s3, -, H1, H2, H3, H4⟩, Hg⟩
  isplitr [Hg]
  · isplitl [H1]; · iexists _; iexact H1
    isplitl [H2]; · iexists _; iexact H2
    isplitl [H3]; · iexists _; iexact H3
    iexists _; iexact H4
  · iexact Hg

set_option backward.isDefEq.respectTransparency.types false in
/-- Every weakly fair execution of the program terminates, and every final state has each array of the pipeline at
    what the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and leaves its eight arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Body

end
-- ==== Proof.KernelIdeal.Conds.lean ====
/-
  The grid has 64 points, numbered  t = 16 p + i  for phase p (0 to 3) and row band i (0 to 15). Decided over those
  64 points: which of the body's four branches a point takes (phase p takes the branch numbered p + 1 and no other),
  where each store and each band load sits (rows from 256 i, every column), and where the result window is idle
  (everywhere outside phase 3) and written back (exactly in phase 3).
-/
import proofs.«168441_g12154757448435_cont_fleet_1044_12_alg».proof.Proof.Gen.KernelIdeal.Frame

set_option maxRecDepth 16384

namespace Cert.KernelIdeal.Body

open Idealize.ShloMosaic Cert.KernelIdeal Cert.KernelIdeal.Gen

theorem hcond1 : ∀ t : Fin cfg0.N, k0_cond1 (grid0.coords t) = 1#1 ↔ t.val < 16 :=
  (by decide +kernel : ∀ t : Fin grid0.N, k0_cond1 (grid0.coords t) = 1#1 ↔ t.val < 16)
theorem hcond2 : ∀ t : Fin cfg0.N, k0_cond2 (grid0.coords t) = 1#1 ↔ (16 ≤ t.val ∧ t.val < 32) :=
  (by decide +kernel : ∀ t : Fin grid0.N, k0_cond2 (grid0.coords t) = 1#1 ↔ (16 ≤ t.val ∧ t.val < 32))
theorem hcond3 : ∀ t : Fin cfg0.N, k0_cond3 (grid0.coords t) = 1#1 ↔ (32 ≤ t.val ∧ t.val < 48) :=
  (by decide +kernel : ∀ t : Fin grid0.N, k0_cond3 (grid0.coords t) = 1#1 ↔ (32 ≤ t.val ∧ t.val < 48))
theorem hcond4 : ∀ t : Fin cfg0.N, k0_cond4 (grid0.coords t) = 1#1 ↔ 48 ≤ t.val :=
  (by decide +kernel : ∀ t : Fin grid0.N, k0_cond4 (grid0.coords t) = 1#1 ↔ 48 ≤ t.val)

theorem off1_eq : ∀ t : Fin cfg0.N, k0_off1 (grid0.coords t) = ![256 * (t.val % 16), 0] :=
  (by decide +kernel : ∀ t : Fin grid0.N, k0_off1 (grid0.coords t) = ![256 * (t.val % 16), 0])
theorem off2_eq : ∀ t : Fin cfg0.N, k0_off2 (grid0.coords t) = ![256 * (t.val % 16), 0] :=
  (by decide +kernel : ∀ t : Fin grid0.N, k0_off2 (grid0.coords t) = ![256 * (t.val % 16), 0])
theorem off3_eq : ∀ t : Fin cfg0.N, k0_off3 (grid0.coords t) = ![256 * (t.val % 16), 0] :=
  (by decide +kernel : ∀ t : Fin grid0.N, k0_off3 (grid0.coords t) = ![256 * (t.val % 16), 0])
theorem off4_eq : ∀ t : Fin cfg0.N, k0_off4 (grid0.coords t) = ![256 * (t.val % 16), 0] :=
  (by decide +kernel : ∀ t : Fin grid0.N, k0_off4 (grid0.coords t) = ![256 * (t.val % 16), 0])
theorem off5_eq : ∀ t : Fin cfg0.N, k0_off5 (grid0.coords t) = ![256 * (t.val % 16), 0] :=
  (by decide +kernel : ∀ t : Fin grid0.N, k0_off5 (grid0.coords t) = ![256 * (t.val % 16), 0])
theorem off6_eq : ∀ t : Fin cfg0.N, k0_off6 (grid0.coords t) = ![256 * (t.val % 16), 0] :=
  (by decide +kernel : ∀ t : Fin grid0.N, k0_off6 (grid0.coords t) = ![256 * (t.val % 16), 0])

/-- The argument windows are never idle. -/
theorem live_in : ∀ (w : Fin 8) (t : Fin cfg0.N), cfg0.idle (w.castSucc) (grid0.coords t) = false := by decide +kernel
/-- Outside phase 3 the result window is idle and is not written back. -/
theorem idle8 : ∀ t : Fin cfg0.N, t.val < 48 → cfg0.idle 8 (grid0.coords t) = true := by decide +kernel
theorem noflush8 : ∀ t : Fin cfg0.N, t.val < 48 → (cfg0.win 8).flush t = false := by decide +kernel
/-- In phase 3 it is live, and written back at every point. -/
theorem live8 : ∀ t : Fin cfg0.N, 48 ≤ t.val → cfg0.idle 8 (grid0.coords t) = false := by decide +kernel
theorem flush8 : ∀ t : Fin cfg0.N, (cfg0.win 8).flush t = true ↔ 48 ≤ t.val := by decide +kernel

/-- The row-block index of each moving window at a point: the band in the window's own phase, block 0 elsewhere. -/
theorem index0 : ∀ t : Fin cfg0.N, win0_0.index t = ![if t.val < 16 then t.val else 0, 0] := by decide +kernel
theorem index1 : ∀ t : Fin cfg0.N, win0_1.index t = ![if 16 ≤ t.val ∧ t.val < 32 then t.val - 16 else 0, 0] := by decide +kernel
theorem index8 : ∀ t : Fin cfg0.N, win0_8.index t = ![if 48 ≤ t.val then t.val - 48 else 0, 0] := by decide +kernel

end Cert.KernelIdeal.Body
-- ==== Proof.KernelIdeal.State.lean ====
/-
  What the four scratch arrays hold between grid points, as functions of the argument arrays alone.

  The grid's point t = 16 p + i runs phase p on row band i. Phase 0 fills band i of the first scratch with the product of
  band i of x with the first weights; phase 1 keeps band i of the adjacency matrix in the second scratch and fills band i
  of the third with  max(adj_i · S1 + b1, 0) · W2 , S1 the whole first scratch; phase 2 fills band i of the fourth with
  max(adj_i · S2 + b2, 0) · W3 ; phase 3 writes  max(adj_i · S3 + b3, 0)  to the result block. The arrays `S1`, `A`, `S2`,
  `S3` below are those contents as whole arrays, each band the payload of the point that writes it, over the blocks the
  pipeline hands that point; `Inv n` says that after n points the bands written so far hold them (the other rows hold
  anything); each phase's step keeps it.
-/
import proofs.«168441_g12154757448435_cont_fleet_1044_12_alg».proof.Proof.Gen.KernelIdeal.Frame
import proofs.«168441_g12154757448435_cont_fleet_1044_12_alg».proof.Proof.Gen.KernelIdeal.Skeleton
import proofs.«168441_g12154757448435_cont_fleet_1044_12_alg».proof.Proof.Rows
import proofs.«168441_g12154757448435_cont_fleet_1044_12_alg».proof.Proof.KernelIdeal.Conds

set_option maxRecDepth 16384
set_option pp.maxSteps 8000
set_option pp.deepTerms false

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen Cert.Rows
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The grid point numbered n. -/
def pt (n : ℕ) (h : n < 64) : Fin cfg0.N := ⟨n, lt_of_lt_of_eq h (show (64 : ℕ) = cfg0.N from N_0.symm)⟩

@[simp] theorem pt_val (n : ℕ) (h : n < 64) : (pt n h).val = n := rfl

/-- The blocks the pipeline hands the body at point t, window by window, at their literal shapes. -/
abbrev xB (c : Dev nD) (t : Fin cfg0.N) : Vec F S256x512 .f32 := iblk m c 0 t
abbrev aB (c : Dev nD) (t : Fin cfg0.N) : Vec F S256x4096 .f32 := iblk m c 1 t
abbrev w1B (c : Dev nD) (t : Fin cfg0.N) : Vec F S512x512 .bf16 := iblk m c 2 t
abbrev b1B (c : Dev nD) (t : Fin cfg0.N) : Vec F S1x512 .f32 := iblk m c 3 t
abbrev w2B (c : Dev nD) (t : Fin cfg0.N) : Vec F S512x512 .bf16 := iblk m c 4 t
abbrev b2B (c : Dev nD) (t : Fin cfg0.N) : Vec F S1x512 .f32 := iblk m c 5 t
abbrev w3B (c : Dev nD) (t : Fin cfg0.N) : Vec F S512x256 .bf16 := iblk m c 6 t
abbrev b3B (c : Dev nD) (t : Fin cfg0.N) : Vec F S1x256 .f32 := iblk m c 7 t

/-- The position of a row of a [4096, C] array inside its band. -/
def inBand {C : ℕ} (y : (⟨2, ![4096, C]⟩ : Shape).Idx) : (⟨2, ![256, C]⟩ : Shape).Idx :=
  ix2 (⟨(y 0).val % 256, Nat.mod_lt _ (by norm_num)⟩ : Fin 256) (⟨(y 1).val, idx2_lt1 y⟩ : Fin C)

theorem band_lt {C : ℕ} (y : (⟨2, ![4096, C]⟩ : Shape).Idx) : (y 0).val / 256 < 16 := by
  have := idx2_lt0 y; omega

/-- The first scratch when phase 0 is over: band i is the payload of point i. -/
def S1 (c : Dev nD) : Vec F S4096x512 .bf16 := fun y =>
  k0_pay1 (xB m c (pt ((y 0).val / 256) (by have := band_lt y; omega)))
    (w1B m c (pt ((y 0).val / 256) (by have := band_lt y; omega))) (inBand y)

/-- The second scratch when phase 1 is over: band i is the adjacency block of point 16 + i, narrowed. -/
def A (c : Dev nD) : Vec F S4096x4096 .bf16 := fun y =>
  k0_pay3 (aB m c (pt (16 + (y 0).val / 256) (by have := band_lt y; omega))) (inBand y)

/-- The third scratch when phase 1 is over: band i is the payload of point 16 + i over the whole first scratch. -/
def S2 (c : Dev nD) : Vec F S4096x512 .bf16 := fun y =>
  k0_pay4 (aB m c (pt (16 + (y 0).val / 256) (by have := band_lt y; omega))) (S1 m c)
    (b1B m c (pt (16 + (y 0).val / 256) (by have := band_lt y; omega)))
    (w2B m c (pt (16 + (y 0).val / 256) (by have := band_lt y; omega))) (inBand y)

/-- The fourth scratch when phase 2 is over: band i is the payload of point 32 + i over band i of the kept adjacency
    matrix and the whole third scratch. -/
def S3 (c : Dev nD) : Vec F S4096x256 .bf16 := fun y =>
  k0_pay5 (getRows (A m c) ((y 0).val / 256) (band_lt y)) (S2 m c)
    (b2B m c (pt (32 + (y 0).val / 256) (by have := band_lt y; omega)))
    (w3B m c (pt (32 + (y 0).val / 256) (by have := band_lt y; omega))) (inBand y)

/-- What a point of phase 3 stores into the result block: the last layer over band (t mod 16) of the kept adjacency
    matrix and the whole fourth scratch. (Stated at every point; only phase 3 writes it back.) -/
def OutB (c : Dev nD) (t : Fin cfg0.N) : Vec F S256x256 .f32 :=
  k0_pay6 (getRows (A m c) (t.val % 16) (Nat.mod_lt _ (by norm_num))) (S3 m c) (b3B m c t)

/-- After n points: the bands written so far hold the arrays above. -/
def Inv (c : Dev nD) (n : ℕ) (s1 : Vec F S4096x512 .bf16) (a : Vec F S4096x4096 .bf16) (s2 : Vec F S4096x512 .bf16)
    (s3 : Vec F S4096x256 .bf16) : Prop :=
  (∀ y : S4096x512.Idx, (y 0).val < 256 * min n 16 → s1 y = S1 m c y)
  ∧ (∀ y : S4096x4096.Idx, (y 0).val < 256 * (min n 32 - 16) → a y = A m c y)
  ∧ (∀ y : S4096x512.Idx, (y 0).val < 256 * (min n 32 - 16) → s2 y = S2 m c y)
  ∧ (∀ y : S4096x256.Idx, (y 0).val < 256 * (min n 48 - 32) → s3 y = S3 m c y)

/-- Inside band b the row's offset from the band's first row is its row number mod 256. -/
private theorem band_ix {C : ℕ} (y : (⟨2, ![4096, C]⟩ : Shape).Idx) (b : ℕ)
    (h : 256 * b ≤ (y 0).val ∧ (y 0).val < 256 * b + 256) :
    ix2 (⟨(y 0).val - 256 * b, by omega⟩ : Fin 256) (⟨(y 1).val, idx2_lt1 y⟩ : Fin C) = inBand y := by
  unfold inBand
  congr 1
  exact Fin.ext (by show (y 0).val - 256 * b = (y 0).val % 256; omega)

/-- Reading a band depends on the band's number only. -/
private theorem getRows_congr {α : Type} {C : ℕ} (s : (⟨2, ![4096, C]⟩ : Shape).Idx → α) (b b' : ℕ) (hb : b < 16)
    (hb' : b' < 16) (e : b = b') : getRows s b hb = getRows s b' hb' := by
  subst e; rfl

private theorem t_lt (t : Fin cfg0.N) : t.val < 64 := lt_of_lt_of_eq t.isLt N_0

/-- A row of band i of `S1` is the payload of point i at the row's position in the band. -/
private theorem S1_band (c : Dev nD) (t : Fin cfg0.N) (y : S4096x512.Idx) (hq : (y 0).val / 256 = t.val) :
    S1 m c y = k0_pay1 (xB m c t) (w1B m c t) (inBand y) := by
  have e : pt ((y 0).val / 256) (by have := band_lt y; omega) = t := Fin.ext (by simp only [pt_val]; omega)
  show k0_pay1 (xB m c (pt ((y 0).val / 256) _)) (w1B m c (pt ((y 0).val / 256) _)) (inBand y) = _
  rw [e]

/-- A row of band i of `A` is the narrowed adjacency block of point 16 + i at the row's position in the band. -/
private theorem A_band (c : Dev nD) (t : Fin cfg0.N) (y : S4096x4096.Idx) (hq : 16 + (y 0).val / 256 = t.val) :
    A m c y = k0_pay3 (aB m c t) (inBand y) := by
  have e : pt (16 + (y 0).val / 256) (by have := band_lt y; omega) = t := Fin.ext (by simp only [pt_val]; omega)
  show k0_pay3 (aB m c (pt (16 + (y 0).val / 256) _)) (inBand y) = _
  rw [e]

/-- A row of band i of `S2` is the payload of point 16 + i over the whole of `S1`. -/
private theorem S2_band (c : Dev nD) (t : Fin cfg0.N) (y : S4096x512.Idx) (hq : 16 + (y 0).val / 256 = t.val) :
    S2 m c y = k0_pay4 (aB m c t) (S1 m c) (b1B m c t) (w2B m c t) (inBand y) := by
  have e : pt (16 + (y 0).val / 256) (by have := band_lt y; omega) = t := Fin.ext (by simp only [pt_val]; omega)
  show k0_pay4 (aB m c (pt (16 + (y 0).val / 256) _)) (S1 m c) (b1B m c (pt (16 + (y 0).val / 256) _))
    (w2B m c (pt (16 + (y 0).val / 256) _)) (inBand y) = _
  rw [e]

/-- A row of band i of `S3` is the payload of point 32 + i over band i of `A` and the whole of `S2`. -/
private theorem S3_band (c : Dev nD) (t : Fin cfg0.N) (y : S4096x256.Idx) (hq : 32 + (y 0).val / 256 = t.val) :
    S3 m c y = k0_pay5 (getRows (A m c) (t.val % 16) (Nat.mod_lt _ (by norm_num))) (S2 m c) (b2B m c t) (w3B m c t)
      (inBand y) := by
  have e : pt (32 + (y 0).val / 256) (by have := band_lt y; omega) = t := Fin.ext (by simp only [pt_val]; omega)
  have eb : getRows (A m c) ((y 0).val / 256) (band_lt y) = getRows (A m c) (t.val % 16) (Nat.mod_lt _ (by norm_num)) :=
    getRows_congr _ _ _ _ _ (by have := idx2_lt0 y; omega)
  show k0_pay5 (getRows (A m c) ((y 0).val / 256) (band_lt y)) (S2 m c) (b2B m c (pt (32 + (y 0).val / 256) _))
    (w3B m c (pt (32 + (y 0).val / 256) _)) (inBand y) = _
  rw [e, eb]

/-- Before the first point nothing is claimed. -/
theorem inv_zero (c : Dev nD) (s1 : Vec F S4096x512 .bf16) (a : Vec F S4096x4096 .bf16) (s2 : Vec F S4096x512 .bf16)
    (s3 : Vec F S4096x256 .bf16) : Inv m c 0 s1 a s2 s3 := by
  refine ⟨fun y hy => ?_, fun y hy => ?_, fun y hy => ?_, fun y hy => ?_⟩ <;> exact absurd hy (by omega)

/-- A point of phase 0 fills its band of the first scratch. -/
theorem inv_step0 (c : Dev nD) (t : Fin cfg0.N) (ht : t.val < 16) (s1 : Vec F S4096x512 .bf16) (a : Vec F S4096x4096 .bf16)
    (s2 : Vec F S4096x512 .bf16) (s3 : Vec F S4096x256 .bf16) (h : Inv m c t.val s1 a s2 s3) :
    Inv m c (t.val + 1) (setRows s1 (t.val % 16) (k0_pay1 (xB m c t) (w1B m c t))) a s2 s3 := by
  obtain ⟨h1, h2, h3, h4⟩ := h
  refine ⟨fun y hy => ?_, fun y hy => h2 y (by omega), fun y hy => h3 y (by omega), fun y hy => h4 y (by omega)⟩
  -- rows below 256 t keep their old contents; rows of band t read the stored payload
  by_cases hm : 256 * (t.val % 16) ≤ (y 0).val ∧ (y 0).val < 256 * (t.val % 16) + 256
  · rw [setRows_of_mem _ _ _ y hm, band_ix y _ hm]
    exact (S1_band m c t y (by omega)).symm
  · rw [setRows_of_not_mem _ _ _ y hm]
    exact h1 y (by omega)

/-- A point of phase 1 fills its bands of the second and third scratch, from the whole first. -/
theorem inv_step1 (c : Dev nD) (t : Fin cfg0.N) (ht : 16 ≤ t.val ∧ t.val < 32) (s1 : Vec F S4096x512 .bf16)
    (a : Vec F S4096x4096 .bf16) (s2 : Vec F S4096x512 .bf16) (s3 : Vec F S4096x256 .bf16) (h : Inv m c t.val s1 a s2 s3) :
    Inv m c (t.val + 1) s1 (setRows a (t.val % 16) (k0_pay3 (aB m c t)))
      (setRows s2 (t.val % 16) (k0_pay4 (aB m c t) s1 (b1B m c t) (w2B m c t))) s3 := by
  obtain ⟨h1, h2, h3, h4⟩ := h
  -- phase 0 is over: the first scratch holds `S1` on every row
  have hs1 : s1 = S1 m c := funext fun y => h1 y (by have := idx2_lt0 y; omega)
  refine ⟨fun y hy => h1 y (by omega), fun y hy => ?_, fun y hy => ?_, fun y hy => h4 y (by omega)⟩
  · by_cases hm : 256 * (t.val % 16) ≤ (y 0).val ∧ (y 0).val < 256 * (t.val % 16) + 256
    · rw [setRows_of_mem _ _ _ y hm, band_ix y _ hm]
      exact (A_band m c t y (by omega)).symm
    · rw [setRows_of_not_mem _ _ _ y hm]
      exact h2 y (by omega)
  · by_cases hm : 256 * (t.val % 16) ≤ (y 0).val ∧ (y 0).val < 256 * (t.val % 16) + 256
    · rw [setRows_of_mem _ _ _ y hm, band_ix y _ hm, hs1]
      exact (S2_band m c t y (by omega)).symm
    · rw [setRows_of_not_mem _ _ _ y hm]
      exact h3 y (by omega)

/-- A point of phase 2 fills its band of the fourth scratch, from its band of the second and the whole third. -/
theorem inv_step2 (c : Dev nD) (t : Fin cfg0.N) (ht : 32 ≤ t.val ∧ t.val < 48) (s1 : Vec F S4096x512 .bf16)
    (a : Vec F S4096x4096 .bf16) (s2 : Vec F S4096x512 .bf16) (s3 : Vec F S4096x256 .bf16) (h : Inv m c t.val s1 a s2 s3) :
    Inv m c (t.val + 1) s1 a s2
      (setRows s3 (t.val % 16) (k0_pay5 (getRows a (t.val % 16) (Nat.mod_lt _ (by norm_num))) s2 (b2B m c t) (w3B m c t))) := by
  obtain ⟨h1, h2, h3, h4⟩ := h
  -- phase 1 is over: the second and third scratch hold `A` and `S2` on every row
  have ha : a = A m c := funext fun y => h2 y (by have := idx2_lt0 y; omega)
  have hs2 : s2 = S2 m c := funext fun y => h3 y (by have := idx2_lt0 y; omega)
  refine ⟨fun y hy => h1 y (by omega), fun y hy => h2 y (by omega), fun y hy => h3 y (by omega), fun y hy => ?_⟩
  by_cases hm : 256 * (t.val % 16) ≤ (y 0).val ∧ (y 0).val < 256 * (t.val % 16) + 256
  · rw [setRows_of_mem _ _ _ y hm, band_ix y _ hm, ha, hs2]
    exact (S3_band m c t y (by omega)).symm
  · rw [setRows_of_not_mem _ _ _ y hm]
    exact h4 y (by omega)

/-- A point of phase 3 writes no scratch. -/
theorem inv_step3 (c : Dev nD) (t : Fin cfg0.N) (ht : 48 ≤ t.val) (s1 : Vec F S4096x512 .bf16)
    (a : Vec F S4096x4096 .bf16) (s2 : Vec F S4096x512 .bf16) (s3 : Vec F S4096x256 .bf16) (h : Inv m c t.val s1 a s2 s3) :
    Inv m c (t.val + 1) s1 a s2 s3 := by
  obtain ⟨h1, h2, h3, h4⟩ := h
  exact ⟨fun y hy => h1 y (by omega), fun y hy => h2 y (by omega), fun y hy => h3 y (by omega),
    fun y hy => h4 y (by omega)⟩

/-- What a point of phase 3 stores is the stated result block: by then the second and fourth scratch hold their arrays
    on every row. -/
theorem out_eq (c : Dev nD) (t : Fin cfg0.N) (ht : 48 ≤ t.val) (s1 : Vec F S4096x512 .bf16)
    (a : Vec F S4096x4096 .bf16) (s2 : Vec F S4096x512 .bf16) (s3 : Vec F S4096x256 .bf16) (h : Inv m c t.val s1 a s2 s3) :
    k0_pay6 (getRows a (t.val % 16) (Nat.mod_lt _ (by norm_num))) s3 (b3B m c t) = OutB m c t := by
  obtain ⟨h1, h2, h3, h4⟩ := h
  have ha : a = A m c := funext fun y => h2 y (by have := idx2_lt0 y; omega)
  have hs3 : s3 = S3 m c := funext fun y => h4 y (by have := idx2_lt0 y; omega)
  rw [ha, hs3]
  rfl

end Cert.KernelIdeal.Body

end
-- ==== Proof.KernelIdeal.Run0.lean ====
/-
  Phase 0 of the body (the first branch taken, the other three not): it reads the block of x and the first weights,
  and overwrites band b of the first scratch with their product; nothing else is touched.
-/
import proofs.«168441_g12154757448435_cont_fleet_1044_12_alg».proof.Proof.Gen.KernelIdeal.Frame
import proofs.«168441_g12154757448435_cont_fleet_1044_12_alg».proof.Proof.Gen.KernelIdeal.Skeleton
import proofs.«168441_g12154757448435_cont_fleet_1044_12_alg».proof.Proof.Glue

set_option maxRecDepth 16384
set_option pp.maxSteps 8000
set_option pp.deepTerms false

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Rows
open Idealize.ShloMosaic.Pipeline (Dat Cfg Window BodyObligation cellOf)

variable {F : FTy → Type} [FloatOps F]

local notation "𝕄" => MT nD τ sig Unit (Elt F) ℕ (UR sig nD τ) ℕ

/-- The body at a point of phase 0, on any whole memrefs: from the block of x at x0, the weights at w1 and the first
    scratch at s1, it runs to the same with the scratch's band b overwritten by the block's payload. -/
theorem run0 (c : Dev nD) (i : grid0.Coords) (arg2 : Memref sig .tc .vmem S256x512 .f32) (harg2 : arg2.IsWhole) (arg3 : Memref sig .tc .vmem S256x4096 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x256 .bf16) (harg8 : arg8.IsWhole) (arg9 : Memref sig .tc .vmem S1x256 .f32) (harg9 : arg9.IsWhole) (arg10 : Memref sig .tc .vmem S256x256 .f32) (harg10 : arg10.IsWhole) (arg11 : Memref sig .tc .vmem S4096x512 .bf16) (harg11 : arg11.IsWhole) (arg12 : Memref sig .tc .vmem S4096x4096 .bf16) (harg12 : arg12.IsWhole) (arg13 : Memref sig .tc .vmem S4096x512 .bf16) (harg13 : arg13.IsWhole) (arg14 : Memref sig .tc .vmem S4096x256 .bf16) (harg14 : arg14.IsWhole)
    (hc1 : k0_cond1 i = 1#1) (hc2 : ¬ k0_cond2 i = 1#1) (hc3 : ¬ k0_cond3 i = 1#1) (hc4 : ¬ k0_cond4 i = 1#1)
    (b : ℕ) (hoff1 : k0_off1 i = ![256 * b, 0])
    (x0 : Vec F S256x512 .f32) (w1 : Vec F S512x512 .bf16) (s1 : Vec F S4096x512 .bf16)
    (E : Set ℕ) (K : PUnit → sProp 𝕄) :
    iprop(owns (c : Thread nD τ) arg2 fullShare x0 ∗ owns (c : Thread nD τ) arg4 fullShare w1 ∗ owns (c : Thread nD τ) arg11 fullShare s1
      ∗ (iprop(owns (c : Thread nD τ) arg2 fullShare x0 ∗ owns (c : Thread nD τ) arg4 fullShare w1
          ∗ owns (c : Thread nD τ) arg11 fullShare (setRows s1 b (k0_pay1 x0 w1))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14) K := by
  simp only [cc0__gcn_kernel_eq_skeleton]; unfold cc0__gcn_kernel_skel
  unfold owns
  iintro ⟨⟨%f0, %hf0, H0⟩, ⟨%f2, %hf2, H2⟩, ⟨%fs1, %hfs1, HS1⟩, Hk⟩
  obtain rfl := harg2.eq_unread hf0; obtain rfl := harg4.eq_unread hf2; obtain rfl := harg11.eq_unread hfs1
  sl_exec (disch := first | exact hc1 | exact hc2 | exact hc3 | exact hc4)
  sl_step
  iapply Hk
  isplitl [H0]
  · iexists _; isplitr; · ipureintro; exact harg2.read_unread _
    iexact H0
  isplitl [H2]
  · iexists _; isplitr; · ipureintro; exact harg4.read_unread _
    iexact H2
  iexists _; isplitr; swap; · iexact HS1
  ipureintro
  -- the two whole-buffer loads read the contents; the one store overwrites band b
  rw [View.readAt_eq_ld, View.readAt_eq_ld, harg2.read_unread, harg4.read_unread, Cert.Glue.ld_whole2, Cert.Glue.ld_whole2]
  exact Cert.Glue.read_store_rows arg11 harg11 s1 b hoff1 _ _

end Cert.KernelIdeal.Body

end
-- ==== Proof.KernelIdeal.Run1.lean ====
/-
  Phase 1 of the body (the second branch alone): it reads the block of the adjacency matrix, keeps it as band b of the
  second scratch, reads the whole first scratch, the first bias and the second weights, and overwrites band b of the
  third scratch with the layer's payload.
-/
import proofs.«168441_g12154757448435_cont_fleet_1044_12_alg».proof.Proof.Gen.KernelIdeal.Frame
import proofs.«168441_g12154757448435_cont_fleet_1044_12_alg».proof.Proof.Gen.KernelIdeal.Skeleton
import proofs.«168441_g12154757448435_cont_fleet_1044_12_alg».proof.Proof.Glue

set_option maxRecDepth 16384
set_option pp.maxSteps 8000
set_option pp.deepTerms false

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Rows
open Idealize.ShloMosaic.Pipeline (Dat Cfg Window BodyObligation cellOf)

variable {F : FTy → Type} [FloatOps F]

local notation "𝕄" => MT nD τ sig Unit (Elt F) ℕ (UR sig nD τ) ℕ

theorem run1 (c : Dev nD) (i : grid0.Coords) (arg2 : Memref sig .tc .vmem S256x512 .f32) (harg2 : arg2.IsWhole) (arg3 : Memref sig .tc .vmem S256x4096 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x256 .bf16) (harg8 : arg8.IsWhole) (arg9 : Memref sig .tc .vmem S1x256 .f32) (harg9 : arg9.IsWhole) (arg10 : Memref sig .tc .vmem S256x256 .f32) (harg10 : arg10.IsWhole) (arg11 : Memref sig .tc .vmem S4096x512 .bf16) (harg11 : arg11.IsWhole) (arg12 : Memref sig .tc .vmem S4096x4096 .bf16) (harg12 : arg12.IsWhole) (arg13 : Memref sig .tc .vmem S4096x512 .bf16) (harg13 : arg13.IsWhole) (arg14 : Memref sig .tc .vmem S4096x256 .bf16) (harg14 : arg14.IsWhole)
    (hc1 : ¬ k0_cond1 i = 1#1) (hc2 : k0_cond2 i = 1#1) (hc3 : ¬ k0_cond3 i = 1#1) (hc4 : ¬ k0_cond4 i = 1#1)
    (b : ℕ) (hoff2 : k0_off2 i = ![256 * b, 0]) (hoff3 : k0_off3 i = ![256 * b, 0])
    (x1 : Vec F S256x4096 .f32) (b1 : Vec F S1x512 .f32) (w2 : Vec F S512x512 .bf16)
    (s1 : Vec F S4096x512 .bf16) (a : Vec F S4096x4096 .bf16) (s2 : Vec F S4096x512 .bf16)
    (E : Set ℕ) (K : PUnit → sProp 𝕄) :
    iprop(owns (c : Thread nD τ) arg3 fullShare x1 ∗ owns (c : Thread nD τ) arg5 fullShare b1 ∗ owns (c : Thread nD τ) arg6 fullShare w2
      ∗ owns (c : Thread nD τ) arg11 fullShare s1 ∗ owns (c : Thread nD τ) arg12 fullShare a ∗ owns (c : Thread nD τ) arg13 fullShare s2
      ∗ (iprop(owns (c : Thread nD τ) arg3 fullShare x1 ∗ owns (c : Thread nD τ) arg5 fullShare b1 ∗ owns (c : Thread nD τ) arg6 fullShare w2
          ∗ owns (c : Thread nD τ) arg11 fullShare s1 ∗ owns (c : Thread nD τ) arg12 fullShare (setRows a b (k0_pay3 x1))
          ∗ owns (c : Thread nD τ) arg13 fullShare (setRows s2 b (k0_pay4 x1 s1 b1 w2))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14) K := by
  simp only [cc0__gcn_kernel_eq_skeleton]; unfold cc0__gcn_kernel_skel
  unfold owns
  iintro ⟨⟨%f3, %hf3, H3⟩, ⟨%f5, %hf5, H5⟩, ⟨%f6, %hf6, H6⟩, ⟨%f11, %hf11, H11⟩, ⟨%f12, %hf12, H12⟩, ⟨%f13, %hf13, H13⟩, Hk⟩
  obtain rfl := harg3.eq_unread hf3; obtain rfl := harg5.eq_unread hf5; obtain rfl := harg6.eq_unread hf6
  obtain rfl := harg11.eq_unread hf11; obtain rfl := harg12.eq_unread hf12; obtain rfl := harg13.eq_unread hf13
  sl_exec (disch := first | exact hc1 | exact hc2 | exact hc3 | exact hc4)
  sl_step
  iapply Hk
  isplitl [H3]
  · iexists _; isplitr; · ipureintro; exact harg3.read_unread _
    iexact H3
  isplitl [H5]
  · iexists _; isplitr; · ipureintro; exact harg5.read_unread _
    iexact H5
  isplitl [H6]
  · iexists _; isplitr; · ipureintro; exact harg6.read_unread _
    iexact H6
  isplitl [H11]
  · iexists _; isplitr; · ipureintro; exact harg11.read_unread _
    iexact H11
  isplitl [H12]
  · iexists _; isplitr; swap; · iexact H12
    ipureintro
    -- the whole-buffer load of the adjacency block reads its contents; the one store overwrites band b
    rw [View.readAt_eq_ld, harg3.read_unread, Cert.Glue.ld_whole2]
    exact Cert.Glue.read_store_rows arg12 harg12 a b hoff2 _ _
  iexists _; isplitr; swap; · iexact H13
  ipureintro
  -- each whole-buffer load reads its contents; the one store overwrites band b
  rw [View.readAt_eq_ld, View.readAt_eq_ld, View.readAt_eq_ld, View.readAt_eq_ld,
    harg3.read_unread, harg11.read_unread, harg5.read_unread, harg6.read_unread,
    Cert.Glue.ld_whole2, Cert.Glue.ld_whole2, Cert.Glue.ld_whole2, Cert.Glue.ld_whole2]
  exact Cert.Glue.read_store_rows arg13 harg13 s2 b hoff3 _ _

end Cert.KernelIdeal.Body

end
-- ==== Proof.KernelIdeal.Run2.lean ====
/-
  Phase 2 of the body (the third branch alone): it reads band b of the kept adjacency matrix, the whole third scratch,
  the second bias and the third weights, and overwrites band b of the fourth scratch with the layer's payload.
-/
import proofs.«168441_g12154757448435_cont_fleet_1044_12_alg».proof.Proof.Gen.KernelIdeal.Frame
import proofs.«168441_g12154757448435_cont_fleet_1044_12_alg».proof.Proof.Gen.KernelIdeal.Skeleton
import proofs.«168441_g12154757448435_cont_fleet_1044_12_alg».proof.Proof.Glue

set_option maxRecDepth 16384
set_option pp.maxSteps 8000
set_option pp.deepTerms false

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Rows
open Idealize.ShloMosaic.Pipeline (Dat Cfg Window BodyObligation cellOf)

variable {F : FTy → Type} [FloatOps F]

local notation "𝕄" => MT nD τ sig Unit (Elt F) ℕ (UR sig nD τ) ℕ

theorem run2 (c : Dev nD) (i : grid0.Coords) (arg2 : Memref sig .tc .vmem S256x512 .f32) (harg2 : arg2.IsWhole) (arg3 : Memref sig .tc .vmem S256x4096 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x256 .bf16) (harg8 : arg8.IsWhole) (arg9 : Memref sig .tc .vmem S1x256 .f32) (harg9 : arg9.IsWhole) (arg10 : Memref sig .tc .vmem S256x256 .f32) (harg10 : arg10.IsWhole) (arg11 : Memref sig .tc .vmem S4096x512 .bf16) (harg11 : arg11.IsWhole) (arg12 : Memref sig .tc .vmem S4096x4096 .bf16) (harg12 : arg12.IsWhole) (arg13 : Memref sig .tc .vmem S4096x512 .bf16) (harg13 : arg13.IsWhole) (arg14 : Memref sig .tc .vmem S4096x256 .bf16) (harg14 : arg14.IsWhole)
    (hc1 : ¬ k0_cond1 i = 1#1) (hc2 : ¬ k0_cond2 i = 1#1) (hc3 : k0_cond3 i = 1#1) (hc4 : ¬ k0_cond4 i = 1#1)
    (b : ℕ) (hb : b < 16) (hoff4 : k0_off4 i = ![256 * b, 0]) (hoff5 : k0_off5 i = ![256 * b, 0])
    (b2 : Vec F S1x512 .f32) (w3 : Vec F S512x256 .bf16)
    (a : Vec F S4096x4096 .bf16) (s2 : Vec F S4096x512 .bf16) (s3 : Vec F S4096x256 .bf16)
    (E : Set ℕ) (K : PUnit → sProp 𝕄) :
    iprop(owns (c : Thread nD τ) arg7 fullShare b2 ∗ owns (c : Thread nD τ) arg8 fullShare w3
      ∗ owns (c : Thread nD τ) arg12 fullShare a ∗ owns (c : Thread nD τ) arg13 fullShare s2 ∗ owns (c : Thread nD τ) arg14 fullShare s3
      ∗ (iprop(owns (c : Thread nD τ) arg7 fullShare b2 ∗ owns (c : Thread nD τ) arg8 fullShare w3
          ∗ owns (c : Thread nD τ) arg12 fullShare a ∗ owns (c : Thread nD τ) arg13 fullShare s2
          ∗ owns (c : Thread nD τ) arg14 fullShare (setRows s3 b (k0_pay5 (getRows a b hb) s2 b2 w3))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14) K := by
  simp only [cc0__gcn_kernel_eq_skeleton]; unfold cc0__gcn_kernel_skel
  unfold owns
  iintro ⟨⟨%f7, %hf7, H7⟩, ⟨%f8, %hf8, H8⟩, ⟨%f12, %hf12, H12⟩, ⟨%f13, %hf13, H13⟩, ⟨%f14, %hf14, H14⟩, Hk⟩
  obtain rfl := harg7.eq_unread hf7; obtain rfl := harg8.eq_unread hf8; obtain rfl := harg12.eq_unread hf12
  obtain rfl := harg13.eq_unread hf13; obtain rfl := harg14.eq_unread hf14
  sl_exec (disch := first | exact hc1 | exact hc2 | exact hc3 | exact hc4)
  sl_step
  iapply Hk
  isplitl [H7]
  · iexists _; isplitr; · ipureintro; exact harg7.read_unread _
    iexact H7
  isplitl [H8]
  · iexists _; isplitr; · ipureintro; exact harg8.read_unread _
    iexact H8
  isplitl [H12]
  · iexists _; isplitr; · ipureintro; exact harg12.read_unread _
    iexact H12
  isplitl [H13]
  · iexists _; isplitr; · ipureintro; exact harg13.read_unread _
    iexact H13
  iexists _; isplitr; swap
  · iexact H14
  ipureintro
  -- the band load of the adjacency matrix reads band b; the whole-buffer loads read the contents
  have e12 : ∀ inb, View.readAt (Elt F) arg12.view (Rect.unit (s := S4096x4096) (k0_off4 i) S256x4096.size inb).toLoadRect
      (harg12.unread a) = getRows a b hb := by
    intro inb
    rw [View.readAt_eq_ld, harg12.read_unread]; exact Cert.Glue.ld_rows a b hb hoff4 inb
  have e13 : View.readAt (Elt F) arg13.view (Rect.unit (s := S4096x512) ![0, 0] S4096x512.size inb_S4096x512_S4096x512_0_0).toLoadRect
      (harg13.unread s2) = s2 := by
    rw [View.readAt_eq_ld, harg13.read_unread]; exact Cert.Glue.ld_whole2 s2 _
  have e7 : View.readAt (Elt F) arg7.view (Rect.unit (s := S1x512) ![0, 0] S1x512.size inb_S1x512_S1x512_0_0).toLoadRect
      (harg7.unread b2) = b2 := by
    rw [View.readAt_eq_ld, harg7.read_unread]; exact Cert.Glue.ld_whole2 b2 _
  have e8 : View.readAt (Elt F) arg8.view (Rect.unit (s := S512x256) ![0, 0] S512x256.size inb_S512x256_S512x256_0_0).toLoadRect
      (harg8.unread w3) = w3 := by
    rw [View.readAt_eq_ld, harg8.read_unread]; exact Cert.Glue.ld_whole2 w3 _
  rw [e12, e13, e7, e8]
  -- one store through the rectangle of band b overwrites exactly that band
  exact Cert.Glue.read_store_rows arg14 harg14 s3 b hoff5 _ _

end Cert.KernelIdeal.Body

end
-- ==== Proof.KernelIdeal.Run3.lean ====
/-
  Phase 3 of the body (the fourth branch alone): it reads band b of the kept adjacency matrix, the whole fourth scratch
  and the third bias, and stores the last layer's payload over the whole result block.
-/
import proofs.«168441_g12154757448435_cont_fleet_1044_12_alg».proof.Proof.Gen.KernelIdeal.Frame
import proofs.«168441_g12154757448435_cont_fleet_1044_12_alg».proof.Proof.Gen.KernelIdeal.Skeleton
import proofs.«168441_g12154757448435_cont_fleet_1044_12_alg».proof.Proof.Glue

set_option maxRecDepth 16384
set_option pp.maxSteps 8000
set_option pp.deepTerms false

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Rows
open Idealize.ShloMosaic.Pipeline (Dat Cfg Window BodyObligation cellOf)

variable {F : FTy → Type} [FloatOps F]

local notation "𝕄" => MT nD τ sig Unit (Elt F) ℕ (UR sig nD τ) ℕ

theorem run3 (c : Dev nD) (i : grid0.Coords) (arg2 : Memref sig .tc .vmem S256x512 .f32) (harg2 : arg2.IsWhole) (arg3 : Memref sig .tc .vmem S256x4096 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x256 .bf16) (harg8 : arg8.IsWhole) (arg9 : Memref sig .tc .vmem S1x256 .f32) (harg9 : arg9.IsWhole) (arg10 : Memref sig .tc .vmem S256x256 .f32) (harg10 : arg10.IsWhole) (arg11 : Memref sig .tc .vmem S4096x512 .bf16) (harg11 : arg11.IsWhole) (arg12 : Memref sig .tc .vmem S4096x4096 .bf16) (harg12 : arg12.IsWhole) (arg13 : Memref sig .tc .vmem S4096x512 .bf16) (harg13 : arg13.IsWhole) (arg14 : Memref sig .tc .vmem S4096x256 .bf16) (harg14 : arg14.IsWhole)
    (hc1 : ¬ k0_cond1 i = 1#1) (hc2 : ¬ k0_cond2 i = 1#1) (hc3 : ¬ k0_cond3 i = 1#1) (hc4 : k0_cond4 i = 1#1)
    (b : ℕ) (hb : b < 16) (hoff6 : k0_off6 i = ![256 * b, 0])
    (b3 : Vec F S1x256 .f32) (a : Vec F S4096x4096 .bf16) (s3 : Vec F S4096x256 .bf16)
    (E : Set ℕ) (K : PUnit → sProp 𝕄) :
    iprop(owns (c : Thread nD τ) arg9 fullShare b3 ∗ (∃ d, owns (c : Thread nD τ) arg10 fullShare d)
      ∗ owns (c : Thread nD τ) arg12 fullShare a ∗ owns (c : Thread nD τ) arg14 fullShare s3
      ∗ (iprop(owns (c : Thread nD τ) arg9 fullShare b3 ∗ owns (c : Thread nD τ) arg10 fullShare (k0_pay6 (getRows a b hb) s3 b3)
          ∗ owns (c : Thread nD τ) arg12 fullShare a ∗ owns (c : Thread nD τ) arg14 fullShare s3) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14) K := by
  simp only [cc0__gcn_kernel_eq_skeleton]; unfold cc0__gcn_kernel_skel
  unfold owns
  iintro ⟨⟨%f9, %hf9, H9⟩, ⟨%d, %f10, %hf10, H10⟩, ⟨%f12, %hf12, H12⟩, ⟨%f14, %hf14, H14⟩, Hk⟩
  obtain rfl := harg9.eq_unread hf9; obtain rfl := harg10.eq_unread hf10; obtain rfl := harg12.eq_unread hf12
  obtain rfl := harg14.eq_unread hf14
  sl_exec (disch := first | exact hc1 | exact hc2 | exact hc3 | exact hc4)
  sl_step
  iapply Hk
  isplitl [H9]
  · iexists _; isplitr; · ipureintro; exact harg9.read_unread _
    iexact H9
  isplitl [H10]
  · iexists _; isplitr; swap
    · iexact H10
    ipureintro
    -- the band load of the adjacency matrix reads band b; the whole-buffer loads read the contents
    have e12 : ∀ inb, View.readAt (Elt F) arg12.view (Rect.unit (s := S4096x4096) (k0_off6 i) S256x4096.size inb).toLoadRect
        (harg12.unread a) = getRows a b hb := by
      intro inb
      rw [View.readAt_eq_ld, harg12.read_unread]; exact Cert.Glue.ld_rows a b hb hoff6 inb
    have e14 : View.readAt (Elt F) arg14.view (Rect.unit (s := S4096x256) ![0, 0] S4096x256.size inb_S4096x256_S4096x256_0_0).toLoadRect
        (harg14.unread s3) = s3 := by
      rw [View.readAt_eq_ld, harg14.read_unread]; exact Cert.Glue.ld_whole2 s3 _
    have e9 : View.readAt (Elt F) arg9.view (Rect.unit (s := S1x256) ![0, 0] S1x256.size inb_S1x256_S1x256_0_0).toLoadRect
        (harg9.unread b3) = b3 := by
      rw [View.readAt_eq_ld, harg9.read_unread]; exact Cert.Glue.ld_whole2 b3 _
    rw [e12, e14, e9]
    -- one store through the whole shape covers every index, so it reads back as its payload whatever was held before
    have hz : (![0, 0] : Fin S256x256.rank → ℕ) = fun _ => 0 := funext fun x => by fin_cases x <;> rfl
    rw [View.read_writes_eq_canon _ _ _ (fun y => ⟨_, List.mem_singleton_self _, View.mem_set_unit_zero hz inb_S256x256_S256x256_0_0 y⟩)]
    exact View.canon_unit_zero hz _ _
  isplitl [H12]
  · iexists _; isplitr; · ipureintro; exact harg12.read_unread _
    iexact H12
  iexists _; isplitr; · ipureintro; exact harg14.read_unread _
  iexact H14

end Cert.KernelIdeal.Body

end
-- ==== Proof.KernelIdeal.Body.lean ====
/-
  The kernel body at every grid point, and the run of the whole program.

  Between points the four scratch arrays are held at SOME contents that satisfy the invariant of State.lean (the bands
  written so far hold the stated arrays); before the first point that says nothing, which is what the launch provides,
  and after the last point the contents are forgotten again. At a point of phase p the body is that phase's run
  (Run0 to Run3) on the blocks the pipeline hands it, and the phase's step of the invariant gives the next point's.
  The argument windows are left as they were found; the result window is handed back untouched outside phase 3 (it is
  idle there and not written back) and holds the stated result block in phase 3.
-/
import proofs.«168441_g12154757448435_cont_fleet_1044_12_alg».proof.Proof.KernelIdeal.State
import proofs.«168441_g12154757448435_cont_fleet_1044_12_alg».proof.Proof.KernelIdeal.Run0
import proofs.«168441_g12154757448435_cont_fleet_1044_12_alg».proof.Proof.KernelIdeal.Run1
import proofs.«168441_g12154757448435_cont_fleet_1044_12_alg».proof.Proof.KernelIdeal.Run2
import proofs.«168441_g12154757448435_cont_fleet_1044_12_alg».proof.Proof.KernelIdeal.Run3

set_option maxRecDepth 16384
set_option pp.maxSteps 8000
set_option pp.deepTerms false

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen Cert.Rows
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four scratch operands: whole scoped buffers of the kernel's own. -/
abbrev scA : Memref sig .tc .vmem S4096x512 .bf16 := Memref.whole cc0_scratch0
abbrev scB : Memref sig .tc .vmem S4096x4096 .bf16 := Memref.whole cc0_scratch1
abbrev scC : Memref sig .tc .vmem S4096x512 .bf16 := Memref.whole cc0_scratch2
abbrev scD : Memref sig .tc .vmem S4096x256 .bf16 := Memref.whole cc0_scratch3

/-- Each window's current staging memref at point t, spelled as the pipeline passes it, and its wholeness. -/
abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x256 .f32 := win0_8.stage (cfg0.slots t 8)
abbrev hs0_8 (t : Fin cfg0.N) : (ms0_8 t).IsWhole := hstage0_8 ((cfg0.slots t 8).cast nbuf0_8)

/-- What the launch hands the region, with the scratch operands as memrefs owned at some contents. -/
theorem PhiA0_eq (c : Dev nD) :
    (Pipeline.ΦA spec0 c : sProp 𝕄)
      = iprop(iprop((∃ d, owns (c : Thread nD τ) scA fullShare d) ∗ (∃ d, owns (c : Thread nD τ) scB fullShare d)
          ∗ (∃ d, owns (c : Thread nD τ) scC fullShare d) ∗ (∃ d, owns (c : Thread nD τ) scD fullShare d)) ∗ (∃ r, prngReg c r)) := by
  unfold Pipeline.ΦA; rw [scopedRest0_eq]; simp only [scA, scB, scC, scD, owns_whole]; try rfl

/-- The region's invariant before point n: the scratch arrays at contents that satisfy `Inv n`, and the generator
    register at some state. -/
def PhiS (c : Dev nD) (n : ℕ) : sProp 𝕄 :=
  iprop((∃ s1 a s2 s3, ⌜Inv m c n s1 a s2 s3⌝ ∗ owns (c : Thread nD τ) scA fullShare s1 ∗ owns (c : Thread nD τ) scB fullShare a
      ∗ owns (c : Thread nD τ) scC fullShare s2 ∗ owns (c : Thread nD τ) scD fullShare s3) ∗ (∃ r, prngReg c r))

/-- The proof data: the arrays as the region finds them; after the body each argument window at its block and the
    result window at the stated result block; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => OutB m c t
  Φ t := PhiS m c t.val
  q _ := fullShare
  owed _ := 0

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = PhiS m c t.val := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = OutB m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- An argument window is live at every point: the body leaves its buffer at the block it found. -/
private theorem leaves0_0 (c : Dev nD) (t : Fin cfg0.N) :
    (dats m 0 c).leavesExact 0 t = owns (c : Thread nD τ) (ms0_0 t) fullShare (iblk m c 0 t) := by
  unfold Dat.leavesExact
  rw [show cfg0.idle 0 (cfg0.grid.coords t) = false from live_in ⟨0, by decide⟩ t, after0_0]
private theorem leaves0_1 (c : Dev nD) (t : Fin cfg0.N) :
    (dats m 0 c).leavesExact 1 t = owns (c : Thread nD τ) (ms0_1 t) fullShare (iblk m c 1 t) := by
  unfold Dat.leavesExact
  rw [show cfg0.idle 1 (cfg0.grid.coords t) = false from live_in ⟨1, by decide⟩ t, after0_1]
private theorem leaves0_2 (c : Dev nD) (t : Fin cfg0.N) :
    (dats m 0 c).leavesExact 2 t = owns (c : Thread nD τ) (ms0_2 t) fullShare (iblk m c 2 t) := by
  unfold Dat.leavesExact
  rw [show cfg0.idle 2 (cfg0.grid.coords t) = false from live_in ⟨2, by decide⟩ t, after0_2]
private theorem leaves0_3 (c : Dev nD) (t : Fin cfg0.N) :
    (dats m 0 c).leavesExact 3 t = owns (c : Thread nD τ) (ms0_3 t) fullShare (iblk m c 3 t) := by
  unfold Dat.leavesExact
  rw [show cfg0.idle 3 (cfg0.grid.coords t) = false from live_in ⟨3, by decide⟩ t, after0_3]
private theorem leaves0_4 (c : Dev nD) (t : Fin cfg0.N) :
    (dats m 0 c).leavesExact 4 t = owns (c : Thread nD τ) (ms0_4 t) fullShare (iblk m c 4 t) := by
  unfold Dat.leavesExact
  rw [show cfg0.idle 4 (cfg0.grid.coords t) = false from live_in ⟨4, by decide⟩ t, after0_4]
private theorem leaves0_5 (c : Dev nD) (t : Fin cfg0.N) :
    (dats m 0 c).leavesExact 5 t = owns (c : Thread nD τ) (ms0_5 t) fullShare (iblk m c 5 t) := by
  unfold Dat.leavesExact
  rw [show cfg0.idle 5 (cfg0.grid.coords t) = false from live_in ⟨5, by decide⟩ t, after0_5]
private theorem leaves0_6 (c : Dev nD) (t : Fin cfg0.N) :
    (dats m 0 c).leavesExact 6 t = owns (c : Thread nD τ) (ms0_6 t) fullShare (iblk m c 6 t) := by
  unfold Dat.leavesExact
  rw [show cfg0.idle 6 (cfg0.grid.coords t) = false from live_in ⟨6, by decide⟩ t, after0_6]
private theorem leaves0_7 (c : Dev nD) (t : Fin cfg0.N) :
    (dats m 0 c).leavesExact 7 t = owns (c : Thread nD τ) (ms0_7 t) fullShare (iblk m c 7 t) := by
  unfold Dat.leavesExact
  rw [show cfg0.idle 7 (cfg0.grid.coords t) = false from live_in ⟨7, by decide⟩ t, after0_7]

/-- Outside phase 3 the result window is idle and not written back: its buffer is handed back as found. -/
private theorem leaves0_8_idle (c : Dev nD) (t : Fin cfg0.N) (h : t.val < 48) :
    (dats m 0 c).leavesExact 8 t = iprop(∃ d, owns (c : Thread nD τ) (ms0_8 t) fullShare ((dats m 0 c).before 8 t d)) :=
  Dat.leavesExact_idle (dats m 0 c) 8 t (idle8 t h) (noflush8 t h)

/-- In phase 3 it is live and holds the stated result block. -/
private theorem leaves0_8_live (c : Dev nD) (t : Fin cfg0.N) (h : 48 ≤ t.val) :
    (dats m 0 c).leavesExact 8 t = owns (c : Thread nD τ) (ms0_8 t) fullShare (OutB m c t) := by
  unfold Dat.leavesExact
  rw [show cfg0.idle 8 (cfg0.grid.coords t) = false from live8 t h, after0_8]

set_option maxHeartbeats 4800000 in
/-- A point of phase 0: the first branch alone runs, on the block of x, the first weights and the first scratch. -/
theorem sound_body0 (c : Dev nD) (t : Fin cfg0.N) (h : t.val < 16) :
    bodyPre m c t ⊢ wp frame (wpE (defs₀ (F := F)) Variants.none c none) Set.univ (bodyAt0 t) (fun _ => bodyPost m c t) := by
  unfold bodyPre bodyPost bodyAt0
  rewrite [leaves0_8_idle m c t (by omega), leaves0_0, leaves0_1, leaves0_2, leaves0_3, leaves0_4, leaves0_5, leaves0_6, leaves0_7]
  simp only [before0_0, before0_1, before0_2, before0_3, before0_4, before0_5, before0_6, before0_7]
  rewrite [show (dats m 0 c).owesAt () t.succ = (dats m 0 c).owesAt () t.castSucc from rfl]
  rewrite [Phi_eq m c t.castSucc, Phi_eq m c t.succ, Fin.coe_castSucc, Fin.val_succ]
  unfold PhiS
  iintro ⟨⟨⟨%s1, %a, %s2, %s3, %hI, HA, HB, HC, HD⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scA (Memref.isWhole_whole _) scB (Memref.isWhole_whole _) scC (Memref.isWhole_whole _) scD (Memref.isWhole_whole _)
    ((hcond1 t).mpr h) (fun h' => by have := (hcond2 t).mp h'; omega) (fun h' => by have := (hcond3 t).mp h'; omega)
    (fun h' => by have := (hcond4 t).mp h'; omega) (t.val % 16) (off1_eq t) (xB m c t) (w1B m c t) s1 Set.univ _)
  isplitl [H0]; · iexact H0
  isplitl [H2]; · iexact H2
  isplitl [HA]; · iexact HA
  iintro ⟨H0, H2, HA⟩
  isplitl [HA HB HC HD Hg]
  · isplitr [Hg]
    · iexists (setRows s1 (t.val % 16) (k0_pay1 (xB m c t) (w1B m c t))), a, s2, s3
      isplitr
      · ipureintro; exact inv_step0 m c t h s1 a s2 s3 hI
      isplitl [HA]; · iexact HA
      isplitl [HB]; · iexact HB
      isplitl [HC]; · iexact HC
      iexact HD
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

set_option maxHeartbeats 4800000 in
/-- A point of phase 1: the second branch alone runs, on the adjacency block, the first bias, the second weights and the first three scratch arrays. -/
theorem sound_body1 (c : Dev nD) (t : Fin cfg0.N) (h : 16 ≤ t.val ∧ t.val < 32) :
    bodyPre m c t ⊢ wp frame (wpE (defs₀ (F := F)) Variants.none c none) Set.univ (bodyAt0 t) (fun _ => bodyPost m c t) := by
  unfold bodyPre bodyPost bodyAt0
  rewrite [leaves0_8_idle m c t (by omega), leaves0_0, leaves0_1, leaves0_2, leaves0_3, leaves0_4, leaves0_5, leaves0_6, leaves0_7]
  simp only [before0_0, before0_1, before0_2, before0_3, before0_4, before0_5, before0_6, before0_7]
  rewrite [show (dats m 0 c).owesAt () t.succ = (dats m 0 c).owesAt () t.castSucc from rfl]
  rewrite [Phi_eq m c t.castSucc, Phi_eq m c t.succ, Fin.coe_castSucc, Fin.val_succ]
  unfold PhiS
  iintro ⟨⟨⟨%s1, %a, %s2, %s3, %hI, HA, HB, HC, HD⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scA (Memref.isWhole_whole _) scB (Memref.isWhole_whole _) scC (Memref.isWhole_whole _) scD (Memref.isWhole_whole _)
    (fun h' => by have := (hcond1 t).mp h'; omega) ((hcond2 t).mpr h) (fun h' => by have := (hcond3 t).mp h'; omega)
    (fun h' => by have := (hcond4 t).mp h'; omega) (t.val % 16) (off2_eq t) (off3_eq t) (aB m c t) (b1B m c t) (w2B m c t) s1 a s2 Set.univ _)
  isplitl [H1]; · iexact H1
  isplitl [H3]; · iexact H3
  isplitl [H4]; · iexact H4
  isplitl [HA]; · iexact HA
  isplitl [HB]; · iexact HB
  isplitl [HC]; · iexact HC
  iintro ⟨H1, H3, H4, HA, HB, HC⟩
  isplitl [HA HB HC HD Hg]
  · isplitr [Hg]
    · iexists s1, (setRows a (t.val % 16) (k0_pay3 (aB m c t))), (setRows s2 (t.val % 16) (k0_pay4 (aB m c t) s1 (b1B m c t) (w2B m c t))), s3
      isplitr
      · ipureintro; exact inv_step1 m c t h s1 a s2 s3 hI
      isplitl [HA]; · iexact HA
      isplitl [HB]; · iexact HB
      isplitl [HC]; · iexact HC
      iexact HD
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

set_option maxHeartbeats 4800000 in
/-- A point of phase 2: the third branch alone runs, on the second bias, the third weights and the last three scratch arrays. -/
theorem sound_body2 (c : Dev nD) (t : Fin cfg0.N) (h : 32 ≤ t.val ∧ t.val < 48) :
    bodyPre m c t ⊢ wp frame (wpE (defs₀ (F := F)) Variants.none c none) Set.univ (bodyAt0 t) (fun _ => bodyPost m c t) := by
  unfold bodyPre bodyPost bodyAt0
  rewrite [leaves0_8_idle m c t (by omega), leaves0_0, leaves0_1, leaves0_2, leaves0_3, leaves0_4, leaves0_5, leaves0_6, leaves0_7]
  simp only [before0_0, before0_1, before0_2, before0_3, before0_4, before0_5, before0_6, before0_7]
  rewrite [show (dats m 0 c).owesAt () t.succ = (dats m 0 c).owesAt () t.castSucc from rfl]
  rewrite [Phi_eq m c t.castSucc, Phi_eq m c t.succ, Fin.coe_castSucc, Fin.val_succ]
  unfold PhiS
  iintro ⟨⟨⟨%s1, %a, %s2, %s3, %hI, HA, HB, HC, HD⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scA (Memref.isWhole_whole _) scB (Memref.isWhole_whole _) scC (Memref.isWhole_whole _) scD (Memref.isWhole_whole _)
    (fun h' => by have := (hcond1 t).mp h'; omega) (fun h' => by have := (hcond2 t).mp h'; omega) ((hcond3 t).mpr h)
    (fun h' => by have := (hcond4 t).mp h'; omega) (t.val % 16) (Nat.mod_lt _ (by norm_num)) (off4_eq t) (off5_eq t) (b2B m c t) (w3B m c t) a s2 s3 Set.univ _)
  isplitl [H5]; · iexact H5
  isplitl [H6]; · iexact H6
  isplitl [HB]; · iexact HB
  isplitl [HC]; · iexact HC
  isplitl [HD]; · iexact HD
  iintro ⟨H5, H6, HB, HC, HD⟩
  isplitl [HA HB HC HD Hg]
  · isplitr [Hg]
    · iexists s1, a, s2, (setRows s3 (t.val % 16) (k0_pay5 (getRows a (t.val % 16) (Nat.mod_lt _ (by norm_num))) s2 (b2B m c t) (w3B m c t)))
      isplitr
      · ipureintro; exact inv_step2 m c t h s1 a s2 s3 hI
      isplitl [HA]; · iexact HA
      isplitl [HB]; · iexact HB
      isplitl [HC]; · iexact HC
      iexact HD
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

set_option maxHeartbeats 4800000 in
/-- A point of phase 3: the fourth branch alone runs, on the third bias and the second and fourth scratch arrays, and stores the result block, which by then is the stated one. -/
theorem sound_body3 (c : Dev nD) (t : Fin cfg0.N) (h : 48 ≤ t.val) :
    bodyPre m c t ⊢ wp frame (wpE (defs₀ (F := F)) Variants.none c none) Set.univ (bodyAt0 t) (fun _ => bodyPost m c t) := by
  unfold bodyPre bodyPost bodyAt0
  rewrite [leaves0_8_live m c t h, leaves0_0, leaves0_1, leaves0_2, leaves0_3, leaves0_4, leaves0_5, leaves0_6, leaves0_7]
  simp only [before0_0, before0_1, before0_2, before0_3, before0_4, before0_5, before0_6, before0_7]
  rewrite [show (dats m 0 c).owesAt () t.succ = (dats m 0 c).owesAt () t.castSucc from rfl]
  rewrite [Phi_eq m c t.castSucc, Phi_eq m c t.succ, Fin.coe_castSucc, Fin.val_succ]
  unfold PhiS
  iintro ⟨⟨⟨%s1, %a, %s2, %s3, %hI, HA, HB, HC, HD⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scA (Memref.isWhole_whole _) scB (Memref.isWhole_whole _) scC (Memref.isWhole_whole _) scD (Memref.isWhole_whole _)
    (fun h' => by have := (hcond1 t).mp h'; omega) (fun h' => by have := (hcond2 t).mp h'; omega) (fun h' => by have := (hcond3 t).mp h'; omega)
    ((hcond4 t).mpr h) (t.val % 16) (Nat.mod_lt _ (by norm_num)) (off6_eq t) (b3B m c t) a s3 Set.univ _)
  isplitl [H7]; · iexact H7
  isplitl [H8]; · iexists _; iexact H8
  isplitl [HB]; · iexact HB
  isplitl [HD]; · iexact HD
  iintro ⟨H7, H8, HB, HD⟩
  isplitl [HA HB HC HD Hg]
  · isplitr [Hg]
    · iexists s1, a, s2, s3
      isplitr
      · ipureintro; exact inv_step3 m c t h s1 a s2 s3 hI
      isplitl [HA]; · iexact HA
      isplitl [HB]; · iexact HB
      isplitl [HC]; · iexact HC
      iexact HD
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rewrite [← out_eq m c t h s1 a s2 s3 hI]
  iexact H8

set_option maxHeartbeats 4800000 in
/-- The body at any point, by the point's phase. -/
theorem sound_body (c : Dev nD) (t : Fin cfg0.N) :
    bodyPre m c t ⊢ wp frame (wpE (defs₀ (F := F)) Variants.none c none) Set.univ (bodyAt0 t) (fun _ => bodyPost m c t) := by
  by_cases h0 : t.val < 16
  · exact sound_body0 m c t h0
  by_cases h1 : t.val < 32
  · exact sound_body1 m c t ⟨by omega, h1⟩
  by_cases h2 : t.val < 48
  · exact sound_body2 m c t ⟨by omega, h2⟩
  exact sound_body3 m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is claimed of the scratch. -/
theorem hin (c : Dev nD) : Pipeline.ΦA spec0 c ⊢ (dats m 0 c).Φ 0 := by
  rw [Phi_eq, PhiA0_eq]
  unfold PhiS
  iintro ⟨⟨⟨%d1, H1⟩, ⟨%d2, H2⟩, ⟨%d3, H3⟩, ⟨%d4, H4⟩⟩, Hg⟩
  isplitr [Hg]
  · iexists d1, d2, d3, d4
    isplitr
    · ipureintro; exact inv_zero m c d1 d2 d3 d4
    isplitl [H1]; · iexact H1
    isplitl [H2]; · iexact H2
    isplitl [H3]; · iexact H3
    iexact H4
  · iexact Hg

/-- After the last point the scratch contents are forgotten. -/
theorem hout (c : Dev nD) : (dats m 0 c).Φ (Fin.last cfg0.N) ⊢ Pipeline.ΦA spec0 c := by
  rw [Phi_eq, PhiA0_eq]
  unfold PhiS
  iintro ⟨⟨%s1, %a, %s2, %s3, -, H1, H2, H3, H4⟩, Hg⟩
  isplitr [Hg]
  · isplitl [H1]; · iexists _; iexact H1
    isplitl [H2]; · iexists _; iexact H2
    isplitl [H3]; · iexists _; iexact H3
    iexists _; iexact H4
  · iexact Hg

set_option backward.isDefEq.respectTransparency.types false in
/-- Every weakly fair execution of the program terminates, and every final state has each array of the pipeline at
    what the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and leaves its eight arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Body

end
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.KPay.lean ====
/-
  The kernel's stored values at the extended reals, entry by entry. Narrowing to bf16 and a cast between equal shapes
  are the identity; a product into a zero accumulator is the plain sum over the contracted axis; the bias arrives as a
  [1, C] row stretched over the 256 rows of the block; the rectifier is the maximum with 0. So the five stored blocks
  read: block of x times W1; the adjacency block itself; max(adj_i · S + b, 0) · W for the two middle layers; and
  max(adj_i · S + b, 0) for the last.
-/
import proofs.«168441_g12154757448435_cont_fleet_1044_12_alg».proof.Proof.Gen.KernelIdeal.Skeleton
import proofs.«168441_g12154757448435_cont_fleet_1044_12_alg».proof.Proof.LibDense

set_option maxRecDepth 16384

noncomputable section

open scoped BigOperators

namespace Cert.KernelIdeal.Body

open Idealize.ShloMosaic Idealize.ShloMosaic.TcCoe Idealize.SL.Sem Idealize.ShloMosaic.ValueIdx
open Cert.KernelIdeal Cert.KernelIdeal.Gen

/-- A [1, C] row cast to its own shape and stretched over R rows reads, at (r, c), the row's entry (0, c). -/
private theorem bias_row_apply {R C : ℕ} {α : Type}
    (hsc : (⟨2, ![1, C]⟩ : Shape).ShapeCasts ⟨2, ![1, C]⟩) (hbc : (⟨2, ![1, C]⟩ : Shape).Broadcasts ⟨2, ![R, C]⟩)
    (b : (⟨2, ![1, C]⟩ : Shape).Idx → α) (r : Fin R) (c : Fin C) :
    broadcastTo ⟨2, ![R, C]⟩ (shapeCast ⟨2, ![1, C]⟩ b hsc) hbc (ix2 r c) = b (ix2 (0 : Fin 1) c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the cast to the same shape is the identity
  · exact congrFun (shapeCast_self b hsc) _

/-- One layer as the kernel spells it: the product into zeros, the [1, C] bias row stretched over the rows and added,
    the maximum with the zero splat. At (r, c) it is  max((Σ_q X(r,q) · W(q,c)) + b(0,c), 0) . -/
private theorem layer_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hsc : (⟨2, ![1, C]⟩ : Shape).ShapeCasts ⟨2, ![1, C]⟩) (hbc : (⟨2, ![1, C]⟩ : Shape).Broadcasts ⟨2, ![R, C]⟩)
    (X : FVec Ideal ⟨2, ![R, K]⟩ .bf16) (W : FVec Ideal ⟨2, ![K, C]⟩ .bf16) (b : FVec Ideal ⟨2, ![1, C]⟩ .f32)
    (r : Fin R) (c : Fin C) :
    maximumf (addf (matmul d none X W (constant ⟨2, ![R, C]⟩ .f32 0x00000000#32))
        (broadcastTo ⟨2, ![R, C]⟩ (shapeCast ⟨2, ![1, C]⟩ b hsc) hbc))
        (broadcast ⟨2, ![R, C]⟩ (Scalar.ofBits (F := Ideal) .f32 0x00000000#32)) (ix2 r c)
      = max ((∑ q : Fin K, X (ix2 r q) * W (ix2 q c)) + b (ix2 (0 : Fin 1) c)) 0 := by
  refine (Cert.Dense.kernel_relu_apply _ (ix2 r c)).trans ?_
  refine congrArg (fun t : EReal => max t 0) ?_
  refine (addf_apply _ _ (ix2 r c)).trans ?_
  refine congrArg₂ (fun s t : EReal => s + t) ?_ ?_
  · exact Cert.Dense.matmul_zero_plain_apply d h1 h2 h3 h4 h5 h6 none X W r c
  · exact bias_row_apply hsc hbc b r c

theorem pay1_apply (xb : Vec Ideal S256x512 .f32) (w : Vec Ideal S512x512 .bf16) (r : Fin 256) (k : Fin 512) :
    (k0_pay1 (F := Ideal) xb w (ix2 r k) : EReal) = ∑ j : Fin 512, (xb (ix2 r j) : EReal) * (w (ix2 j k) : EReal) := by
  unfold k0_pay1
  -- the outer cast and the two narrowings are the identity; the product into zeros is the plain sum
  refine (congrFun (shapeCast_self _ _) (ix2 r k)).trans ?_
  refine (Cert.Dense.matmul_zero_plain_apply _ rfl rfl rfl rfl rfl rfl none _ _ r k).trans ?_
  refine Finset.sum_congr rfl fun j _ => ?_
  -- the right operand's cast to its own shape is the identity
  exact congrArg (fun t => (xb (ix2 r j) : EReal) * t) (congrFun (shapeCast_self _ _) (ix2 j k))

theorem pay3_eq (ab : Vec Ideal S256x4096 .f32) : k0_pay3 (F := Ideal) ab = ab := by
  unfold k0_pay3 k0_pay2
  -- a cast to the same shape, then a narrowing: both the identity
  exact (shapeCast_self _ _).trans rfl

theorem pay4_apply (ab : Vec Ideal S256x4096 .f32) (s1 : Vec Ideal S4096x512 .bf16) (b1 : Vec Ideal S1x512 .f32)
    (w2 : Vec Ideal S512x512 .bf16) (r : Fin 256) (k : Fin 512) :
    (k0_pay4 (F := Ideal) ab s1 b1 w2 (ix2 r k) : EReal)
      = ∑ j : Fin 512, max ((∑ q : Fin 4096, (ab (ix2 r q) : EReal) * (s1 (ix2 q j) : EReal)) + (b1 (ix2 (0 : Fin 1) j) : EReal)) 0
          * (w2 (ix2 j k) : EReal) := by
  unfold k0_pay4 k0_pay2
  -- the outer cast and narrowing are the identity; the outer product is the plain sum over the 512 hidden columns
  refine (congrFun (shapeCast_self _ _) (ix2 r k)).trans ?_
  refine (Cert.Dense.matmul_zero_plain_apply _ rfl rfl rfl rfl rfl rfl none _ _ r k).trans ?_
  refine Finset.sum_congr rfl fun j _ => ?_
  refine congrArg₂ (fun s t : EReal => s * t) ?_ ?_
  -- the left factor is the rectified layer at (r, j)
  · exact layer_apply _ rfl rfl rfl rfl rfl rfl _ _ _ s1 b1 r j
  -- the right factor's cast to its own shape is the identity
  · exact congrFun (shapeCast_self _ _) (ix2 j k)

theorem pay5_apply (al : Vec Ideal S256x4096 .bf16) (s2 : Vec Ideal S4096x512 .bf16) (b2 : Vec Ideal S1x512 .f32)
    (w3 : Vec Ideal S512x256 .bf16) (r : Fin 256) (k : Fin 256) :
    (k0_pay5 (F := Ideal) al s2 b2 w3 (ix2 r k) : EReal)
      = ∑ j : Fin 512, max ((∑ q : Fin 4096, (al (ix2 r q) : EReal) * (s2 (ix2 q j) : EReal)) + (b2 (ix2 (0 : Fin 1) j) : EReal)) 0
          * (w3 (ix2 j k) : EReal) := by
  unfold k0_pay5
  -- the outer cast and narrowing are the identity; the outer product is the plain sum over the 512 hidden columns
  refine (congrFun (shapeCast_self _ _) (ix2 r k)).trans ?_
  refine (Cert.Dense.matmul_zero_plain_apply _ rfl rfl rfl rfl rfl rfl none _ _ r k).trans ?_
  refine Finset.sum_congr rfl fun j _ => ?_
  refine congrArg₂ (fun s t : EReal => s * t) ?_ ?_
  -- the left factor is the rectified layer at (r, j)
  · exact layer_apply _ rfl rfl rfl rfl rfl rfl _ _ al s2 b2 r j
  -- the right factor's cast to its own shape is the identity
  · exact congrFun (shapeCast_self _ _) (ix2 j k)

theorem pay6_apply (al : Vec Ideal S256x4096 .bf16) (s3 : Vec Ideal S4096x256 .bf16) (b3 : Vec Ideal S1x256 .f32)
    (r : Fin 256) (k : Fin 256) :
    (k0_pay6 (F := Ideal) al s3 b3 (ix2 r k) : EReal)
      = max ((∑ q : Fin 4096, (al (ix2 r q) : EReal) * (s3 (ix2 q k) : EReal)) + (b3 (ix2 (0 : Fin 1) k) : EReal)) 0 := by
  unfold k0_pay6
  -- the last layer is stored as the rectified layer itself
  exact layer_apply _ rfl rfl rfl rfl rfl rfl _ _ al s3 b3 r k

end Cert.KernelIdeal.Body

end
-- ==== Proof.KBlocks.lean ====
/-
  The blocks the pipeline hands the body, as entries of the argument arrays. Band i of x is handed to point i and band i
  of the adjacency matrix to point 16 + i (row r of the block is row 256 i + r of the array); the three weight matrices
  are handed whole at every point, narrowed to bf16 by the program before the call (the identity on the extended reals);
  each bias is handed whole as a [1, C] row, laid out from the [C] argument before the call.
-/
import proofs.«168441_g12154757448435_cont_fleet_1044_12_alg».proof.Proof.KernelIdeal.State
import Idealize.ShloMosaic.Lib.StableHlo.Run
import Idealize.ShloMosaic.Lib.Pipeline.Value
import Idealize.ShloMosaic.Lib.ValueLayout

set_option maxRecDepth 16384

noncomputable section

open scoped BigOperators

namespace Cert.KernelIdeal.Body

open Idealize.ShloMosaic Idealize.ShloMosaic.TcCoe Idealize.SL.Sem Idealize.ShloMosaic.ValueIdx
open Cert.KernelIdeal Cert.KernelIdeal.Gen Cert.Rows

variable (m : (ℓ : Loc nD τ sig) → Buf (Elt Ideal) ℓ)

/-- The eight argument arrays of core c. -/
abbrev X (c : Dev nD) : FVec Ideal ⟨2, ![4096, 512]⟩ .f32 := m ((c.tc : Thread nD τ).loc main_arg0)
abbrev ADJ (c : Dev nD) : FVec Ideal ⟨2, ![4096, 4096]⟩ .f32 := m ((c.tc : Thread nD τ).loc main_arg1)
abbrev W1 (c : Dev nD) : FVec Ideal ⟨2, ![512, 512]⟩ .f32 := m ((c.tc : Thread nD τ).loc main_arg2)
abbrev B1 (c : Dev nD) : FVec Ideal ⟨1, ![512]⟩ .f32 := m ((c.tc : Thread nD τ).loc main_arg3)
abbrev W2 (c : Dev nD) : FVec Ideal ⟨2, ![512, 512]⟩ .f32 := m ((c.tc : Thread nD τ).loc main_arg4)
abbrev B2 (c : Dev nD) : FVec Ideal ⟨1, ![512]⟩ .f32 := m ((c.tc : Thread nD τ).loc main_arg5)
abbrev W3 (c : Dev nD) : FVec Ideal ⟨2, ![512, 256]⟩ .f32 := m ((c.tc : Thread nD τ).loc main_arg6)
abbrev B3 (c : Dev nD) : FVec Ideal ⟨1, ![256]⟩ .f32 := m ((c.tc : Thread nD τ).loc main_arg7)

/-- An element of the block of x handed to point t sits in x, on each axis, at the block index times the block's extent
    plus its own coordinate. -/
private theorem xB_at (c : Dev nD) (t : Fin cfg0.N) (x : S256x512.Idx) (y : S4096x512.Idx)
    (h0 : (y 0).val = win0_0.index t 0 * 256 + (x 0).val) (h1 : (y 1).val = win0_0.index t 1 * 512 + (x 1).val) :
    (xB m c t x : EReal) = X m c y := by
  unfold xB iblk
  rw [View.read_apply]
  show V m c main_arg0 _ = _
  rw [V_main_arg0]
  refine congrArg (X m c) (funext fun a => Fin.ext ?_)
  match a with
  | ⟨0, _⟩ => show win0_0.index t 0 * 256 + 1 * (x 0).val = (y 0).val; omega
  | ⟨1, _⟩ => show win0_0.index t 1 * 512 + 1 * (x 1).val = (y 1).val; omega

/-- At point b of phase 0 the block index is (b, 0): row r of the block is row 256 b + r of x. -/
theorem xB_apply (c : Dev nD) (b : ℕ) (hb : b < 16) (r : Fin 256) (k : Fin 512) :
    (xB m c (pt b (by omega)) (ix2 r k) : EReal) = X m c (ix2 (⟨256 * b + r.val, by omega⟩ : Fin 4096) k) := by
  have hi := index0 (pt b (by omega))
  have i0 : win0_0.index (pt b (by omega)) 0 = b := by
    rw [hi]; show (if b < 16 then b else 0) = b; rw [if_pos hb]
  have i1 : win0_0.index (pt b (by omega)) 1 = 0 := by rw [hi]; rfl
  refine xB_at m c _ _ _ ?_ ?_
  · show 256 * b + r.val = _ * 256 + r.val; rw [i0]; omega
  · show k.val = _ * 512 + k.val; rw [i1]; omega

/-- An element of the block of the adjacency matrix handed to point t sits in the matrix, on each axis, at the block
    index times the block's extent plus its own coordinate. -/
private theorem aB_at (c : Dev nD) (t : Fin cfg0.N) (x : S256x4096.Idx) (y : S4096x4096.Idx)
    (h0 : (y 0).val = win0_1.index t 0 * 256 + (x 0).val) (h1 : (y 1).val = win0_1.index t 1 * 4096 + (x 1).val) :
    (aB m c t x : EReal) = ADJ m c y := by
  unfold aB iblk
  rw [View.read_apply]
  show V m c main_arg1 _ = _
  rw [V_main_arg1]
  refine congrArg (ADJ m c) (funext fun a => Fin.ext ?_)
  match a with
  | ⟨0, _⟩ => show win0_1.index t 0 * 256 + 1 * (x 0).val = (y 0).val; omega
  | ⟨1, _⟩ => show win0_1.index t 1 * 4096 + 1 * (x 1).val = (y 1).val; omega

/-- At point 16 + b of phase 1 the block index is (b, 0): row r of the block is row 256 b + r of the adjacency matrix. -/
theorem aB_apply (c : Dev nD) (b : ℕ) (hb : b < 16) (r : Fin 256) (k : Fin 4096) :
    (aB m c (pt (16 + b) (by omega)) (ix2 r k) : EReal) = ADJ m c (ix2 (⟨256 * b + r.val, by omega⟩ : Fin 4096) k) := by
  have hi := index1 (pt (16 + b) (by omega))
  have i0 : win0_1.index (pt (16 + b) (by omega)) 0 = b := by
    rw [hi]; show (if 16 ≤ 16 + b ∧ 16 + b < 32 then 16 + b - 16 else 0) = b; rw [if_pos (by omega)]; omega
  have i1 : win0_1.index (pt (16 + b) (by omega)) 1 = 0 := by rw [hi]; rfl
  refine aB_at m c _ _ _ ?_ ?_
  · show 256 * b + r.val = _ * 256 + r.val; rw [i0]; omega
  · show k.val = _ * 4096 + k.val; rw [i1]; omega

/-! The weights: before the call the program narrows each weight matrix to bf16, which on the extended reals changes no
    entry; the window's block index is 0 on both axes at every point and its block has the array's extents, so entry
    (j, k) of the block is entry (j, k) of the argument. -/

theorem w1B_apply (c : Dev nD) (t : Fin cfg0.N) (j : Fin 512) (k : Fin 512) : (w1B m c t (ix2 j k) : EReal) = W1 m c (ix2 j k) := by
  have e : (V m c main_call0_v0 : S512x512.Idx → EReal) = W1 m c := by
    dsimp only [V, hostOps0]; after_results; rfl
  unfold w1B iblk
  rw [View.read_apply]
  show (V m c main_call0_v0 : S512x512.Idx → EReal) _ = _
  rw [e]
  refine congrArg (W1 m c) (funext fun a => Fin.ext ?_)
  match a with
  | ⟨0, _⟩ => show win0_2.index t 0 * 512 + 1 * j.val = j.val; rw [show win0_2.index t 0 = 0 from rfl]; omega
  | ⟨1, _⟩ => show win0_2.index t 1 * 512 + 1 * k.val = k.val; rw [show win0_2.index t 1 = 0 from rfl]; omega
theorem w2B_apply (c : Dev nD) (t : Fin cfg0.N) (j : Fin 512) (k : Fin 512) : (w2B m c t (ix2 j k) : EReal) = W2 m c (ix2 j k) := by
  have e : (V m c main_call0_v2 : S512x512.Idx → EReal) = W2 m c := by
    dsimp only [V, hostOps0]; after_results; rfl
  unfold w2B iblk
  rw [View.read_apply]
  show (V m c main_call0_v2 : S512x512.Idx → EReal) _ = _
  rw [e]
  refine congrArg (W2 m c) (funext fun a => Fin.ext ?_)
  match a with
  | ⟨0, _⟩ => show win0_4.index t 0 * 512 + 1 * j.val = j.val; rw [show win0_4.index t 0 = 0 from rfl]; omega
  | ⟨1, _⟩ => show win0_4.index t 1 * 512 + 1 * k.val = k.val; rw [show win0_4.index t 1 = 0 from rfl]; omega
theorem w3B_apply (c : Dev nD) (t : Fin cfg0.N) (j : Fin 512) (k : Fin 256) : (w3B m c t (ix2 j k) : EReal) = W3 m c (ix2 j k) := by
  have e : (V m c main_call0_v4 : S512x256.Idx → EReal) = W3 m c := by
    dsimp only [V, hostOps0]; after_results; rfl
  unfold w3B iblk
  rw [View.read_apply]
  show (V m c main_call0_v4 : S512x256.Idx → EReal) _ = _
  rw [e]
  refine congrArg (W3 m c) (funext fun a => Fin.ext ?_)
  match a with
  | ⟨0, _⟩ => show win0_6.index t 0 * 512 + 1 * j.val = j.val; rw [show win0_6.index t 0 = 0 from rfl]; omega
  | ⟨1, _⟩ => show win0_6.index t 1 * 256 + 1 * k.val = k.val; rw [show win0_6.index t 1 = 0 from rfl]; omega
/-! The biases: before the call the program lays each [C] bias out as a [1, C] array, entry (0, k) of which is entry k of
    the argument (the two have the same row-major position); the window's block is that whole row at every point. -/

theorem b1B_apply (c : Dev nD) (t : Fin cfg0.N) (k : Fin 512) : (b1B m c t (ix2 (0 : Fin 1) k) : EReal) = B1 m c (ix1 k) := by
  have e : (V m c main_call0_v1 : S1x512.Idx → EReal) = shapeCast S1x512 (B1 m c) Facts₀.shapeCasts_S512_S1x512 := by
    dsimp only [V, hostOps0]; after_results; rfl
  unfold b1B iblk
  rw [View.read_apply]
  show (V m c main_call0_v1 : S1x512.Idx → EReal) _ = _
  rw [e]
  refine (shapeCast_addUnit_apply ![512] (B1 m c) Facts₀.shapeCasts_S512_S1x512 _).trans ?_
  refine congrArg (B1 m c) (funext fun a => Fin.ext ?_)
  match a with
  | ⟨0, _⟩ => show win0_3.index t 1 * 512 + 1 * k.val = k.val; rw [show win0_3.index t 1 = 0 from rfl]; omega
theorem b2B_apply (c : Dev nD) (t : Fin cfg0.N) (k : Fin 512) : (b2B m c t (ix2 (0 : Fin 1) k) : EReal) = B2 m c (ix1 k) := by
  have e : (V m c main_call0_v3 : S1x512.Idx → EReal) = shapeCast S1x512 (B2 m c) Facts₀.shapeCasts_S512_S1x512 := by
    dsimp only [V, hostOps0]; after_results; rfl
  unfold b2B iblk
  rw [View.read_apply]
  show (V m c main_call0_v3 : S1x512.Idx → EReal) _ = _
  rw [e]
  refine (shapeCast_addUnit_apply ![512] (B2 m c) Facts₀.shapeCasts_S512_S1x512 _).trans ?_
  refine congrArg (B2 m c) (funext fun a => Fin.ext ?_)
  match a with
  | ⟨0, _⟩ => show win0_5.index t 1 * 512 + 1 * k.val = k.val; rw [show win0_5.index t 1 = 0 from rfl]; omega
theorem b3B_apply (c : Dev nD) (t : Fin cfg0.N) (k : Fin 256) : (b3B m c t (ix2 (0 : Fin 1) k) : EReal) = B3 m c (ix1 k) := by
  have e : (V m c main_call0_v5 : S1x256.Idx → EReal) = shapeCast S1x256 (B3 m c) Facts₀.shapeCasts_S256_S1x256 := by
    dsimp only [V, hostOps0]; after_results; rfl
  unfold b3B iblk
  rw [View.read_apply]
  show (V m c main_call0_v5 : S1x256.Idx → EReal) _ = _
  rw [e]
  refine (shapeCast_addUnit_apply ![256] (B3 m c) Facts₀.shapeCasts_S256_S1x256 _).trans ?_
  refine congrArg (B3 m c) (funext fun a => Fin.ext ?_)
  match a with
  | ⟨0, _⟩ => show win0_7.index t 1 * 256 + 1 * k.val = k.val; rw [show win0_7.index t 1 = 0 from rfl]; omega

end Cert.KernelIdeal.Body

end
-- ==== Proof.KOut.lean ====
/-
  The result array after the run, from its blocks. Only the 16 points of phase 3 write the result window back, point
  48 + i writing block i (rows 256 i to 256 i + 255, every column); those 16 blocks tile the [4096, 256] array, so the
  array ends as the one whose band i is the result block of point 48 + i.
-/
import proofs.«168441_g12154757448435_cont_fleet_1044_12_alg».proof.Proof.KernelIdeal.Body
import Idealize.ShloMosaic.Lib.Pipeline.Value

set_option maxRecDepth 16384

noncomputable section

open scoped BigOperators

namespace Cert.KernelIdeal.Body

open Idealize.ShloMosaic Idealize.ShloMosaic.TcCoe Idealize.SL.Sem Idealize.ShloMosaic.ValueIdx
open Cert.KernelIdeal Cert.KernelIdeal.Gen Cert.Rows
open Idealize.ShloMosaic.Pipeline (Dat Cfg Window)

variable {F : FTy → Type} [FloatOps F]
variable (m : (ℓ : Loc nD τ sig) → Buf (Elt F) ℓ)

/-- The whole result: band i is the result block of point 48 + i. -/
def OUT (c : Dev nD) : Vec F S4096x256 .f32 := fun y =>
  OutB m c (pt (48 + (y 0).val / 256) (by have := band_lt y; omega)) (inBand y)

/-- A row of band i of the result is the result block of point 48 + i at the row's position in the band. -/
private theorem OUT_band (c : Dev nD) (t : Fin cfg0.N) (y : S4096x256.Idx) (hq : 48 + (y 0).val / 256 = t.val) :
    OUT m c y = OutB m c t (inBand y) := by
  have e : pt (48 + (y 0).val / 256) (by have := band_lt y; omega) = t := Fin.ext (by simp only [pt_val]; omega)
  show OutB m c (pt (48 + (y 0).val / 256) _) (inBand y) = _
  rw [e]

/-- The entry of the result at row 256 (t − 48) + r, column k, is entry (r, k) of the result block of point t. -/
private theorem OUT_at (c : Dev nD) (t : Fin cfg0.N) (ht : 48 ≤ t.val) (j : S256x256.Idx) (y : S4096x256.Idx)
    (h0 : (y 0).val = (t.val - 48) * 256 + (j 0).val) (h1 : (y 1).val = (j 1).val) : OUT m c y = OutB m c t j := by
  have hj0 : (j 0).val < 256 := idx2_lt0 j
  rw [OUT_band m c t y (by omega)]
  congr 1
  funext a
  apply Fin.ext
  match a with
  | ⟨0, _⟩ => show (y 0).val % 256 = (j 0).val; omega
  | ⟨1, _⟩ => show (y 1).val = (j 1).val; exact h1

/-- In phase 3 the result window sits at row block t − 48. -/
private theorem index8_row (t : Fin cfg0.N) (ht : 48 ≤ t.val) : win0_8.index t (0 : Fin 2) = t.val - 48 := by
  rw [index8 t]
  show (if 48 ≤ t.val then t.val - 48 else 0) = _
  rw [if_pos ht]

/-- and at column block 0. -/
private theorem index8_col (t : Fin cfg0.N) : win0_8.index t (1 : Fin 2) = 0 := by
  rw [index8 t]
  rfl

/-- What a point of phase 3 writes back is its block of the whole result. -/
private theorem flushed8_eq (c : Dev nD) (t : Fin cfg0.N) (hf : (cfg0.win 8).flush t = true) :
    (dats m 0 c).flushed 8 t = ((cfg0.win 8).blk t).view.read (Elt F) (OUT m c) := by
  have ht : 48 ≤ t.val := (flush8 t).mp hf
  show (cfg0.win 8).cut (grid0.coords t) ((dats m 0 c).after 8 t) = _
  rw [after0_8]
  funext j
  show OutB m c t j = OUT m c (((cfg0.win 8).blk t).view.emb j)
  refine (OUT_at m c t ht j _ ?_ ?_).symm
  · show win0_8.index t (0 : Fin 2) * 256 + 1 * (j 0).val = _
    rw [index8_row t ht]; omega
  · show win0_8.index t (1 : Fin 2) * 256 + 1 * (j 1).val = _
    rw [index8_col t]; omega

/-- An index of the array is in point t's block iff each coordinate is in the block's range on its axis. -/
private theorem mem_blk8 (t : Fin cfg0.N) (i : S4096x256.Idx) :
    i ∈ ((cfg0.win 8).blk t).view.set ↔ ∀ a : Fin 2, win0_8.index t a * S256x256.size a ≤ (i a).val ∧ (i a).val < win0_8.index t a * S256x256.size a + S256x256.size a := by
  show i ∈ ((View.whole main_v0).slice (win0_8.rect t)).set ↔ _
  rw [View.set_slice_whole, Rect.mem_set_unit]
  exact Iff.rfl

/-- Row r lies in the block of point 48 + r / 256. -/
private theorem cover8 (i : S4096x256.Idx) : ∃ t : Fin cfg0.N, (cfg0.win 8).flush t = true ∧ i ∈ ((cfg0.win 8).blk t).view.set := by
  have hi0 : (i 0).val < 4096 := idx2_lt0 i
  have hi1 : (i 1).val < 256 := idx2_lt1 i
  have hb := band_lt i
  have ht : 48 ≤ (pt (48 + (i 0).val / 256) (by omega)).val := by simp only [pt_val]; omega
  refine ⟨pt (48 + (i 0).val / 256) (by omega), (flush8 _).mpr ht, ?_⟩
  rw [mem_blk8]
  intro a
  match a with
  | ⟨0, _⟩ =>
    show win0_8.index (pt (48 + (i 0).val / 256) _) (0 : Fin 2) * 256 ≤ (i 0).val ∧ (i 0).val < win0_8.index (pt (48 + (i 0).val / 256) _) (0 : Fin 2) * 256 + 256
    rw [index8_row _ ht]; simp only [pt_val]; omega
  | ⟨1, _⟩ =>
    show win0_8.index (pt (48 + (i 0).val / 256) _) (1 : Fin 2) * 256 ≤ (i 1).val ∧ (i 1).val < win0_8.index (pt (48 + (i 0).val / 256) _) (1 : Fin 2) * 256 + 256
    rw [index8_col]; omega

/-- After the run the result array holds `OUT`. -/
theorem arrAt_out (c : Dev nD) : (dats m 0 c).arrAt 8 cfg0.N = (OUT m c : Vec F S4096x256 .f32) :=
  (dats m 0 c).arrAt_eq_of_cover 8 (OUT m c) (flushed8_eq m c) cover8

end Cert.KernelIdeal.Body

end
-- ==== Proof.Spec.lean ====
/-
  The three-layer graph convolution over the extended reals, as one function of the eight argument arrays.

  Each layer takes the previous activations  h  ([N, K]), multiplies them by the layer's weights  W  ([K, C]) to get the
  support  S = h · W , aggregates over the graph with the dense adjacency matrix,  adj · S , adds the bias row to every
  row and applies the rectifier:  layer(adj, S, b)(r, c) = max(Σ_k adj(r, k) · S(k, c) + b(c), 0) .  The network is
  layer ∘ product three times over.  Entry (r, c) of one layer is the affine map of row r of the adjacency matrix with
  the support as its weights, which is how both programs' dense layers are read.
-/
import proofs.«168441_g12154757448435_cont_fleet_1044_12_alg».proof.Proof.LibDense

noncomputable section

open scoped BigOperators

namespace Cert.Gcn

open Idealize.ShloMosaic Idealize.ShloMosaic.ValueIdx

/-- The plain product  (X · W)(r, c) = Σ_k X(r, k) · W(k, c) . -/
def mm {R K C : ℕ} (X : FVec Ideal ⟨2, ![R, K]⟩ .f32) (W : FVec Ideal ⟨2, ![K, C]⟩ .f32) : FVec Ideal ⟨2, ![R, C]⟩ .f32 :=
  fun j => ∑ k : Fin K, X (ix2 (⟨(j 0).val, idx2_lt0 j⟩ : Fin R) k) * W (ix2 k (⟨(j 1).val, idx2_lt1 j⟩ : Fin C))

/-- One aggregation:  max(Σ_k adj(r, k) · S(k, c) + b(c), 0) . -/
def layer {N C : ℕ} (adj : FVec Ideal ⟨2, ![N, N]⟩ .f32) (S : FVec Ideal ⟨2, ![N, C]⟩ .f32) (b : FVec Ideal ⟨1, ![C]⟩ .f32) :
    FVec Ideal ⟨2, ![N, C]⟩ .f32 :=
  fun j => max (Cert.Dense.affine S b (fun k => adj (ix2 (⟨(j 0).val, idx2_lt0 j⟩ : Fin N) k)) (⟨(j 1).val, idx2_lt1 j⟩ : Fin C)) 0

/-- The network: three aggregations, each over the product of the activations before it with its weights. -/
def G (x : FVec Ideal ⟨2, ![4096, 512]⟩ .f32) (adj : FVec Ideal ⟨2, ![4096, 4096]⟩ .f32)
    (W1 : FVec Ideal ⟨2, ![512, 512]⟩ .f32) (b1 : FVec Ideal ⟨1, ![512]⟩ .f32)
    (W2 : FVec Ideal ⟨2, ![512, 512]⟩ .f32) (b2 : FVec Ideal ⟨1, ![512]⟩ .f32)
    (W3 : FVec Ideal ⟨2, ![512, 256]⟩ .f32) (b3 : FVec Ideal ⟨1, ![256]⟩ .f32) : FVec Ideal ⟨2, ![4096, 256]⟩ .f32 :=
  layer adj (mm (layer adj (mm (layer adj (mm x W1) b1) W2) b2) W3) b3

end Cert.Gcn

end
-- ==== Proof.KVals.lean ====
/-
  The kernel's scratch arrays and result, at the extended reals, are the network's layers: the first scratch is x · W1;
  the second is the adjacency matrix; the third is h1 · W2 and the fourth h2 · W3, with h the aggregation
  max(adj · S + b, 0) of the scratch before; the result is the third aggregation. Each is read entry by entry: the row
  of an entry fixes its band and the point that wrote it, the point's blocks are bands of the arguments, and the payload
  at the entry is the sum the layer's definition spells.
-/
import proofs.«168441_g12154757448435_cont_fleet_1044_12_alg».proof.Proof.KPay
import proofs.«168441_g12154757448435_cont_fleet_1044_12_alg».proof.Proof.KBlocks
import proofs.«168441_g12154757448435_cont_fleet_1044_12_alg».proof.Proof.KOut
import proofs.«168441_g12154757448435_cont_fleet_1044_12_alg».proof.Proof.Spec

set_option maxRecDepth 16384

noncomputable section

open scoped BigOperators

namespace Cert.KernelIdeal.Body

open Idealize.ShloMosaic Idealize.ShloMosaic.TcCoe Idealize.SL.Sem Idealize.ShloMosaic.ValueIdx
open Cert.KernelIdeal Cert.KernelIdeal.Gen Cert.Rows Cert.Gcn

variable (m : (ℓ : Loc nD τ sig) → Buf (Elt Ideal) ℓ)

/-- An entry of a product is the sum over the contracted axis. -/
private theorem mm_apply {R K C : ℕ} (P : FVec Ideal ⟨2, ![R, K]⟩ .f32) (W : FVec Ideal ⟨2, ![K, C]⟩ .f32)
    (y : (⟨2, ![R, C]⟩ : Shape).Idx) :
    mm P W y = ∑ k : Fin K, P (ix2 (⟨(y 0).val, idx2_lt0 y⟩ : Fin R) k) * W (ix2 k (⟨(y 1).val, idx2_lt1 y⟩ : Fin C)) := rfl

/-- An entry of an aggregation: the row of the adjacency matrix against the column of the support, plus the bias entry,
    rectified. -/
private theorem layer_apply {N C : ℕ} (adj : FVec Ideal ⟨2, ![N, N]⟩ .f32) (S : FVec Ideal ⟨2, ![N, C]⟩ .f32)
    (b : FVec Ideal ⟨1, ![C]⟩ .f32) (y : (⟨2, ![N, C]⟩ : Shape).Idx) :
    layer adj S b y
      = max ((∑ q : Fin N, adj (ix2 (⟨(y 0).val, idx2_lt0 y⟩ : Fin N) q) * S (ix2 q (⟨(y 1).val, idx2_lt1 y⟩ : Fin C)))
          + b (ix1 (⟨(y 1).val, idx2_lt1 y⟩ : Fin C))) 0 := rfl

/-- A row number is the first row of its band plus its offset inside the band. -/
private theorem row_split (n : ℕ) (h₁ : 256 * (n / 256) + n % 256 < 4096) (h₂ : n < 4096) :
    (⟨256 * (n / 256) + n % 256, h₁⟩ : Fin 4096) = ⟨n, h₂⟩ :=
  Fin.ext (by show 256 * (n / 256) + n % 256 = n; omega)

/-- Reading band b of an array at the in-band offset of row (y 0), when b is the band of that row, reads row (y 0) of the
    array. -/
private theorem getRows_row {α : Type} {C K : ℕ} (s : (⟨2, ![4096, K]⟩ : Shape).Idx → α)
    (y : (⟨2, ![4096, C]⟩ : Shape).Idx) (b : ℕ) (hb : b < 16) (e : b = (y 0).val / 256) (q : Fin K) :
    getRows s b hb (ix2 (⟨(y 0).val % 256, Nat.mod_lt _ (by norm_num)⟩ : Fin 256) q)
      = s (ix2 (⟨(y 0).val, idx2_lt0 y⟩ : Fin 4096) q) := by
  subst e
  exact congrArg s (funext fun a => match a with
    | ⟨0, _⟩ => row_split (y 0).val _ _
    | ⟨1, _⟩ => rfl)

/-- The block of x handed to the point of band (y 0) / 256, at the in-band offset of row (y 0), is row (y 0) of x. -/
private theorem xB_row {C : ℕ} (c : Dev nD) (y : (⟨2, ![4096, C]⟩ : Shape).Idx) (j : Fin 512) :
    (xB m c (pt ((y 0).val / 256) (by have := band_lt y; omega))
        (ix2 (⟨(y 0).val % 256, Nat.mod_lt _ (by norm_num)⟩ : Fin 256) j) : EReal)
      = X m c (ix2 (⟨(y 0).val, idx2_lt0 y⟩ : Fin 4096) j) := by
  rw [xB_apply m c _ (band_lt y)]
  exact congrArg (fun r => X m c (ix2 r j)) (row_split (y 0).val _ _)

/-- The adjacency block handed to the point 16 + (y 0) / 256, at the in-band offset of row (y 0), is row (y 0) of the
    adjacency matrix. -/
private theorem aB_row {C : ℕ} (c : Dev nD) (y : (⟨2, ![4096, C]⟩ : Shape).Idx) (q : Fin 4096) :
    (aB m c (pt (16 + (y 0).val / 256) (by have := band_lt y; omega))
        (ix2 (⟨(y 0).val % 256, Nat.mod_lt _ (by norm_num)⟩ : Fin 256) q) : EReal)
      = ADJ m c (ix2 (⟨(y 0).val, idx2_lt0 y⟩ : Fin 4096) q) := by
  rw [aB_apply m c _ (band_lt y)]
  exact congrArg (fun r => ADJ m c (ix2 r q)) (row_split (y 0).val _ _)

theorem S1_eq (c : Dev nD) : (S1 (F := Ideal) m c : FVec Ideal ⟨2, ![4096, 512]⟩ .f32) = mm (X m c) (W1 m c) := by
  funext y
  -- row (y 0) lies in band (y 0) / 256, written by the point of that number from its block of x and the first weights
  show k0_pay1 (F := Ideal) (xB m c (pt ((y 0).val / 256) _)) (w1B m c (pt ((y 0).val / 256) _)) (inBand y) = _
  unfold inBand
  rw [pay1_apply, mm_apply]
  refine Finset.sum_congr rfl fun j _ => ?_
  rw [xB_row m c y j, w1B_apply]

theorem A_eq_adj (c : Dev nD) : (A (F := Ideal) m c : FVec Ideal ⟨2, ![4096, 4096]⟩ .f32) = ADJ m c := by
  funext y
  -- the kept block is the adjacency block itself, and its row is row (y 0) of the matrix
  show k0_pay3 (F := Ideal) (aB m c (pt (16 + (y 0).val / 256) _)) (inBand y) = _
  unfold inBand
  rw [pay3_eq]
  refine (aB_row m c y _).trans ?_
  exact congrArg (ADJ m c) (eq_ix2 y).symm

theorem S2_eq (c : Dev nD) :
    (S2 (F := Ideal) m c : FVec Ideal ⟨2, ![4096, 512]⟩ .f32) = mm (layer (ADJ m c) (mm (X m c) (W1 m c)) (B1 m c)) (W2 m c) := by
  funext y
  -- band (y 0) / 256 is written by point 16 + (y 0) / 256 from its adjacency block and the whole first scratch
  show k0_pay4 (F := Ideal) (aB m c (pt (16 + (y 0).val / 256) _)) (S1 m c) (b1B m c (pt (16 + (y 0).val / 256) _))
    (w2B m c (pt (16 + (y 0).val / 256) _)) (inBand y) = _
  unfold inBand
  rw [pay4_apply, S1_eq m c, mm_apply]
  refine Finset.sum_congr rfl fun j _ => ?_
  rw [w2B_apply, b1B_apply, layer_apply]
  -- the aggregated row is row (y 0) of the adjacency matrix
  rw [Finset.sum_congr rfl fun q _ => congrArg (· * mm (X m c) (W1 m c) (ix2 q j)) (aB_row m c y q)]

theorem S3_eq (c : Dev nD) :
    (S3 (F := Ideal) m c : FVec Ideal ⟨2, ![4096, 256]⟩ .f32)
      = mm (layer (ADJ m c) (mm (layer (ADJ m c) (mm (X m c) (W1 m c)) (B1 m c)) (W2 m c)) (B2 m c)) (W3 m c) := by
  funext y
  -- band (y 0) / 256 is written by point 32 + (y 0) / 256 from that band of the kept adjacency matrix and the whole
  -- third scratch
  show k0_pay5 (F := Ideal) (getRows (A m c) ((y 0).val / 256) (band_lt y)) (S2 m c)
    (b2B m c (pt (32 + (y 0).val / 256) _)) (w3B m c (pt (32 + (y 0).val / 256) _)) (inBand y) = _
  unfold inBand
  rw [pay5_apply, A_eq_adj m c, S2_eq m c, mm_apply]
  refine Finset.sum_congr rfl fun j _ => ?_
  rw [w3B_apply, b2B_apply, layer_apply]
  rw [Finset.sum_congr rfl fun q _ => congrArg
    (· * mm (layer (ADJ m c) (mm (X m c) (W1 m c)) (B1 m c)) (W2 m c) (ix2 q j))
    (getRows_row (ADJ m c) y _ (band_lt y) rfl q)]

/-- The result array the kernel leaves is the network of the arguments. -/
theorem OUT_eq_G (c : Dev nD) : (OUT (F := Ideal) m c : FVec Ideal ⟨2, ![4096, 256]⟩ .f32) = G (X m c) (ADJ m c) (W1 m c) (B1 m c) (W2 m c) (B2 m c) (W3 m c) (B3 m c) := by
  funext y
  have hb := band_lt y
  -- band (y 0) / 256 of the result is stored by point 48 + (y 0) / 256, whose number mod 16 is the band
  show k0_pay6 (F := Ideal) (getRows (A m c) ((48 + (y 0).val / 256) % 16) (Nat.mod_lt _ (by norm_num))) (S3 m c)
    (b3B m c (pt (48 + (y 0).val / 256) _)) (inBand y) = _
  unfold inBand
  rw [pay6_apply, A_eq_adj m c, S3_eq m c, b3B_apply]
  unfold G
  rw [layer_apply]
  rw [Finset.sum_congr rfl fun q _ => congrArg
    (· * mm (layer (ADJ m c) (mm (layer (ADJ m c) (mm (X m c) (W1 m c)) (B1 m c)) (W2 m c)) (B2 m c)) (W3 m c)
        (ix2 q (⟨(y 1).val, idx2_lt1 y⟩ : Fin 256)))
    (getRows_row (ADJ m c) y _ (Nat.mod_lt _ (by norm_num)) (by omega) q)]

end Cert.KernelIdeal.Body

end
-- ==== Proof.KRun.lean ====
/-
  The idealized kernel's run with its result named: every weakly fair execution terminates with the result array at the
  network of the argument arrays (the result window's blocks tile it, each block the last layer of its band) and the
  eight arguments unchanged.
-/
import proofs.«168441_g12154757448435_cont_fleet_1044_12_alg».proof.Proof.KVals

set_option maxRecDepth 16384

noncomputable section

open scoped BigOperators

namespace Cert.KernelIdeal.Body

open Idealize.ShloMosaic Idealize.ShloMosaic.TcCoe Idealize.SL.Sem Idealize.ShloMosaic.ValueIdx
open Cert.KernelIdeal Cert.KernelIdeal.Gen Cert.Gcn

variable (m : (ℓ : Loc nD τ sig) → Buf (Elt Ideal) ℓ) (ρ : Dev nD → PrngReg)

theorem run_value : θ_run defs (onTc (τ := τ) (main (F := Ideal))) ⟨m, fun _ => 0, ρ⟩ (fun r => ∀ c : Dev nD,
      r.2.mem ((c.tc : Thread nD τ).loc main_v0) = G (X m c) (ADJ m c) (W1 m c) (B1 m c) (W2 m c) (B2 m c) (W3 m c) (B3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 8).trans ((arrAt_out m c).trans (OUT_eq_G m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.KernelIdeal.Body

end
-- ==== Proof.RefIsG.lean ====
/-
  The reference program's result, at the extended reals, is the network of its arguments: its twenty-four operations are
  three times { general product with the weights, general product with the adjacency matrix, bias laid out over the rows
  and added, maximum with zero }, each read entry by entry as the layer's sum.
-/
import proofs.«168441_g12154757448435_cont_fleet_1044_12_alg».proof.Proof.Gen.ReferenceIdeal.Read
import proofs.«168441_g12154757448435_cont_fleet_1044_12_alg».proof.Proof.Spec

set_option maxRecDepth 16384

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read Cert.Gcn

/-- A general product of an [R, K] array with a [K, C] array that contracts the left operand's axis 1 with the right
    operand's axis 0, with no batch axes, is the plain product: its entry (r, c) is  Σ_k X(r, k) · W(k, c) . -/
private theorem product_eq_mm {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![R, K]⟩ .f32) (W : FVec Ideal ⟨2, ![K, C]⟩ .f32) :
    Host.dotGeneral d none X W = mm X W := by
  funext i
  -- split the entry's index into its row r and its column c
  obtain ⟨r, c, rfl⟩ : ∃ (r : Fin R) (c : Fin C), i = ix2 r c := ⟨i 0, i 1, eq_ix2 i⟩
  exact Cert.Dense.dotGeneral_plain_apply d h1 h2 h3 h4 h5 h6 none X W r c

/-- One aggregation as the reference spells it: the general product of the adjacency matrix with the support, the bias
    laid out as a [1, C] row and then over the N rows and added, the maximum with the zero scalar laid out over the
    array. Its entry (r, c) is  max(Σ_k adj(r, k) · S(k, c) + b(c), 0) : the affine map of row r of the adjacency matrix
    with the support as its weights, then the rectifier. -/
private theorem aggregate_eq_layer {N C : ℕ} (d : DotDims ⟨2, ![N, N]⟩ ⟨2, ![N, C]⟩ ⟨2, ![N, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![N, C]⟩ (![0, 1] : Fin 2 → Fin 2))
    (hb0 : (⟨0, ![]⟩ : Shape).BroadcastsInDim ⟨2, ![N, C]⟩ (![] : Fin 0 → Fin 2))
    (adj : FVec Ideal ⟨2, ![N, N]⟩ .f32) (S : FVec Ideal ⟨2, ![N, C]⟩ .f32) (b : FVec Ideal ⟨1, ![C]⟩ .f32) :
    maximumf
        (addf (Host.dotGeneral d none adj S)
          (broadcastInDim ⟨2, ![N, C]⟩ ![0, 1] hb2 (broadcastInDim ⟨2, ![1, C]⟩ ![1] hb1 b)))
        (broadcastInDim ⟨2, ![N, C]⟩ ![] hb0 (constant (F := Ideal) ⟨0, ![]⟩ .f32 0x00000000#32))
      = layer adj S b := by
  funext i
  -- split the entry's index into its row r and its column c
  obtain ⟨r, c, rfl⟩ : ∃ (r : Fin N) (c : Fin C), i = ix2 r c := ⟨i 0, i 1, eq_ix2 i⟩
  -- the maximum with the laid-out zero is the rectifier; under it, the product plus the bias row is the affine map
  rw [Cert.Dense.host_relu_apply hb0, Cert.Dense.host_affine_apply d h1 h2 h3 h4 h5 h6 hb1 hb2 adj S b r c]
  rfl

/-- Operations 0 to 5: the first layer, over the product of the features with the first weights. -/
private theorem stage1 (x0 : (⟨S4096x512, .f32⟩ : BufTy).Contents (Elt Ideal)) (x1 : (⟨S4096x4096, .f32⟩ : BufTy).Contents (Elt Ideal))
    (x2 : (⟨S512x512, .f32⟩ : BufTy).Contents (Elt Ideal)) (x3 : (⟨S512, .f32⟩ : BufTy).Contents (Elt Ideal)) :
    val_main_v5 (F := Ideal) x0 x1 x2 x3 = layer x1 (mm x0 x2) x3 := by
  have e0 : val_main_v0 (F := Ideal) x0 x2 = mm x0 x2 :=
    product_eq_mm dot_S4096x512_S512x512_S4096x512_1_0_0_1_n_n rfl rfl rfl rfl rfl rfl x0 x2
  rw [← e0]
  exact aggregate_eq_layer dot_S4096x4096_S4096x512_S4096x512_1_0_0_1_n_n rfl rfl rfl rfl rfl rfl
    bcast_S512_S1x512_1 bcast_S1x512_S4096x512_0_1 bcast_S_S4096x512 x1 (val_main_v0 (F := Ideal) x0 x2) x3

/-- Operations 6 to 11: the second layer, over the product of the first layer's activations with the second weights. -/
private theorem stage2 (x0 : (⟨S4096x512, .f32⟩ : BufTy).Contents (Elt Ideal)) (x1 : (⟨S4096x4096, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal)) :
    val_main_v11 (F := Ideal) x0 x1 x2 x3 x4 x5 = layer x1 (mm (layer x1 (mm x0 x2) x3) x4) x5 := by
  have e6 : val_main_v6 (F := Ideal) x0 x1 x2 x3 x4 = mm (val_main_v5 (F := Ideal) x0 x1 x2 x3) x4 :=
    product_eq_mm dot_S4096x512_S512x512_S4096x512_1_0_0_1_n_n rfl rfl rfl rfl rfl rfl _ x4
  rw [← stage1 x0 x1 x2 x3, ← e6]
  exact aggregate_eq_layer dot_S4096x4096_S4096x512_S4096x512_1_0_0_1_n_n rfl rfl rfl rfl rfl rfl
    bcast_S512_S1x512_1 bcast_S1x512_S4096x512_0_1 bcast_S_S4096x512 x1 (val_main_v6 (F := Ideal) x0 x1 x2 x3 x4) x5

theorem ref_eq_G (x0 : (⟨S4096x512, .f32⟩ : BufTy).Contents (Elt Ideal)) (x1 : (⟨S4096x4096, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (x6 : (⟨S512x256, .f32⟩ : BufTy).Contents (Elt Ideal)) (x7 : (⟨S256, .f32⟩ : BufTy).Contents (Elt Ideal)) :
    val_main_v17 (F := Ideal) x0 x1 x2 x3 x4 x5 x6 x7 = G x0 x1 x2 x3 x4 x5 x6 x7 := by
  -- operations 12 to 17: the third layer, over the product of the second layer's activations with the third weights
  have e12 : val_main_v12 (F := Ideal) x0 x1 x2 x3 x4 x5 x6 = mm (val_main_v11 (F := Ideal) x0 x1 x2 x3 x4 x5) x6 :=
    product_eq_mm dot_S4096x512_S512x256_S4096x256_1_0_0_1_n_n rfl rfl rfl rfl rfl rfl _ x6
  unfold G
  rw [← stage2 x0 x1 x2 x3 x4 x5, ← e12]
  exact aggregate_eq_layer dot_S4096x4096_S4096x256_S4096x256_1_0_0_1_n_n rfl rfl rfl rfl rfl rfl
    bcast_S256_S1x256_1 bcast_S1x256_S4096x256_0_1 bcast_S_S4096x256 x1 (val_main_v12 (F := Ideal) x0 x1 x2 x3 x4 x5 x6) x7

end Cert.ReferenceIdeal.RefValue

end
-- ==== Proof.lean ====
/-
  A three-layer graph convolution with a dense adjacency matrix, fused into one kernel, against its plain reference.

  The kernel runs a grid of 4 phases × 16 row bands and keeps every intermediate in four scratch arrays: phase 0 fills
  S1 = x · W1 band by band; phase 1 keeps the adjacency matrix and fills S2 = max(adj · S1 + b1, 0) · W2; phase 2 fills
  S3 = max(adj · S2 + b2, 0) · W3; phase 3 writes max(adj · S3 + b3, 0), one block of 256 rows per point. The reference
  computes the same three layers with whole-array products. Over the extended reals a change of float format is the
  identity and both programs spell each layer as the same sums, so the two results are one function of the arguments
  (`Cert.Gcn.G`); no law of arithmetic beyond that is used and the finiteness of the inputs is never opened.

  The frames: the kernel body is run phase by phase on whole memrefs (one branch taken at each grid point), the scratch
  arrays are carried between points under the invariant "the bands written so far hold the stated arrays", and the
  result window is idle outside phase 3. The same text serves the word-level program and its idealization. The
  reference's frame and value are its generated run read back.
-/
import proofs.«168441_g12154757448435_cont_fleet_1044_12_alg».proof.Defs
import proofs.«168441_g12154757448435_cont_fleet_1044_12_alg».proof.Proof.Gen.Kernel
import proofs.«168441_g12154757448435_cont_fleet_1044_12_alg».proof.Proof.Gen.KernelIdeal
import proofs.«168441_g12154757448435_cont_fleet_1044_12_alg».proof.Proof.Gen.ReferenceIdeal
import proofs.«168441_g12154757448435_cont_fleet_1044_12_alg».proof.Proof.Gen.Pre_finite_inputs
import proofs.«168441_g12154757448435_cont_fleet_1044_12_alg».proof.Proof.Gen.ReferenceIdeal.Run
import proofs.«168441_g12154757448435_cont_fleet_1044_12_alg».proof.Proof.Gen.ReferenceIdeal.Read
import proofs.«168441_g12154757448435_cont_fleet_1044_12_alg».proof.Proof.Kernel.Body
import proofs.«168441_g12154757448435_cont_fleet_1044_12_alg».proof.Proof.KernelIdeal.Body
import proofs.«168441_g12154757448435_cont_fleet_1044_12_alg».proof.Proof.KRun
import proofs.«168441_g12154757448435_cont_fleet_1044_12_alg».proof.Proof.RefIsG

noncomputable section

namespace Cert.Proof

open Idealize.ShloMosaic Idealize.ShloMosaic.TcCoe Idealize.SL.Sem

/-- The word-level kernel runs to the end and leaves its arguments unchanged. -/
theorem frame_k : @Cert.frame_Kernel Cert.Kernel.Gen.facts Cert.Pre_finite_inputs.Gen.facts :=
  fun m ρ _ => Cert.Kernel.Body.frame m ρ

/-- So does its idealization. -/
theorem frame_ki : @Cert.frame_KernelIdeal Cert.KernelIdeal.Gen.facts Cert.Pre_finite_inputs.Gen.facts :=
  fun m ρ _ => Cert.KernelIdeal.Body.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the arguments both idealized programs end with the network of the arguments as their
    result. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Gcn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.ref_eq_G,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
